-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S128x1024 : Shape := ⟨2, ![128, 1024]⟩
abbrev S3x32x32 : Shape := ⟨3, ![3, 32, 32]⟩
abbrev S3x32x32x256 : Shape := ⟨4, ![3, 32, 32, 256]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel
  bcast_S_S3x32x32 : S_.BroadcastsInDim S3x32x32 (![] : Fin 0 → Fin S3x32x32.rank)
  reducesTo_S3x32x32_S_d0_1_2 : S3x32x32.ReducesTo [0, 1, 2] S_
  bcast_S_S3x32x32x256 : S_.BroadcastsInDim S3x32x32x256 (![] : Fin 0 → Fin S3x32x32x256.rank)
  reducesTo_S3x32x32x256_S_d0_1_2_3 : S3x32x32x256.ReducesTo [0, 1, 2, 3] S_
  bcast_S_S128x1024 : S_.BroadcastsInDim S128x1024 (![] : Fin 0 → Fin S128x1024.rank)
  reducesTo_S128x1024_S_d0_1 : S128x1024.ReducesTo [0, 1] S_

variable [Facts]

def fn_part2 {F : FTy → Type} [FloatOps F] (main_arg3 : IVec S128x1024 32) (main_v32 : IVec S_ 1) (main_c_12 : IVec S_ 32) : IVec S_ 1 :=
  let main_v33 : IVec S128x1024 32 := broadcastInDim S128x1024 ![] bcast_S_S128x1024 main_c_12
  let main_v34 : IVec S128x1024 1 := cmpi .sge main_arg3 main_v33
  let main_c_13 : IVec S_ 32 := constantI S_ 32 32#32
  let main_v35 : IVec S128x1024 32 := broadcastInDim S128x1024 ![] bcast_S_S128x1024 main_c_13
  let main_v36 : IVec S128x1024 1 := cmpi .slt main_arg3 main_v35
  let main_v37 : IVec S128x1024 1 := andi main_v34 main_v36
  let main_c_14 : IVec S_ 1 := constantI S_ 1 1#1
  let main_v38 : IVec S_ 1 := (fun x v => Host.reduce IntOp.andi x v reducesTo_S128x1024_S_d0_1 h_S_) main_v37 main_c_14
  let main_v39 : IVec S_ 1 := andi main_v32 main_v38
  main_v39

def fn_part1 {F : FTy → Type} [FloatOps F] (main_arg1 : IVec S128x1024 32) (main_arg2 : IVec S128x1024 32) (main_arg3 : IVec S128x1024 32) (main_v13 : IVec S_ 1) (main_v16 : IVec S3x32x32x256 1) : IVec S_ 1 :=
  let main_c_5 : IVec S_ 1 := constantI S_ 1 1#1
  let main_v17 : IVec S_ 1 := (fun x v => Host.reduce IntOp.andi x v reducesTo_S3x32x32x256_S_d0_1_2_3 h_S_) main_v16 main_c_5
  let main_v18 : IVec S_ 1 := andi main_v13 main_v17
  let main_c_6 : IVec S_ 32 := constantI S_ 32 0#32
  let main_v19 : IVec S128x1024 32 := broadcastInDim S128x1024 ![] bcast_S_S128x1024 main_c_6
  let main_v20 : IVec S128x1024 1 := cmpi .sge main_arg1 main_v19
  let main_c_7 : IVec S_ 32 := constantI S_ 32 3#32
  let main_v21 : IVec S128x1024 32 := broadcastInDim S128x1024 ![] bcast_S_S128x1024 main_c_7
  let main_v22 : IVec S128x1024 1 := cmpi .slt main_arg1 main_v21
  let main_v23 : IVec S128x1024 1 := andi main_v20 main_v22
  let main_c_8 : IVec S_ 1 := constantI S_ 1 1#1
  let main_v24 : IVec S_ 1 := (fun x v => Host.reduce IntOp.andi x v reducesTo_S128x1024_S_d0_1 h_S_) main_v23 main_c_8
  let main_v25 : IVec S_ 1 := andi main_v18 main_v24
  let main_c_9 : IVec S_ 32 := constantI S_ 32 0#32
  let main_v26 : IVec S128x1024 32 := broadcastInDim S128x1024 ![] bcast_S_S128x1024 main_c_9
  let main_v27 : IVec S128x1024 1 := cmpi .sge main_arg2 main_v26
  let main_c_10 : IVec S_ 32 := constantI S_ 32 32#32
  let main_v28 : IVec S128x1024 32 := broadcastInDim S128x1024 ![] bcast_S_S128x1024 main_c_10
  let main_v29 : IVec S128x1024 1 := cmpi .slt main_arg2 main_v28
  let main_v30 : IVec S128x1024 1 := andi main_v27 main_v29
  let main_c_11 : IVec S_ 1 := constantI S_ 1 1#1
  let main_v31 : IVec S_ 1 := (fun x v => Host.reduce IntOp.andi x v reducesTo_S128x1024_S_d0_1 h_S_) main_v30 main_c_11
  let main_v32 : IVec S_ 1 := andi main_v25 main_v31
  let main_c_12 : IVec S_ 32 := constantI S_ 32 0#32
  fn_part2 (F := F) main_arg3 main_v32 main_c_12

def fn {F : FTy → Type} [FloatOps F] (main_arg0 : FVec F S128x1024x256 .f32) (main_arg1 : IVec S128x1024 32) (main_arg2 : IVec S128x1024 32) (main_arg3 : IVec S128x1024 32) (main_arg4 : IVec S128x1024 1) (main_arg5 : FVec F S3x32x32 .f32) (main_arg6 : FVec F S3x32x32x256 .f32) (main_arg7 : FVec F S3x32x32x256 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  let main_v4 : FVec F S3x32x32 .f32 := Host.absf main_arg5
  let main_cst_0 : FVec F S_ .f32 := constant S_ .f32 0x7F800000#32
  let main_v5 : FVec F S3x32x32 .f32 := broadcastInDim S3x32x32 ![] bcast_S_S3x32x32 main_cst_0
  let main_v6 : IVec S3x32x32 1 := cmpf .olt main_v4 main_v5
  let main_c_1 : IVec S_ 1 := constantI S_ 1 1#1
  let main_v7 : IVec S_ 1 := (fun x v => Host.reduce IntOp.andi x v reducesTo_S3x32x32_S_d0_1_2 h_S_) main_v6 main_c_1
  let main_v8 : IVec S_ 1 := andi main_v3 main_v7
  let main_v9 : FVec F S3x32x32x256 .f32 := Host.absf main_arg6
  let main_cst_2 : FVec F S_ .f32 := constant S_ .f32 0x7F800000#32
  let main_v10 : FVec F S3x32x32x256 .f32 := broadcastInDim S3x32x32x256 ![] bcast_S_S3x32x32x256 main_cst_2
  let main_v11 : IVec S3x32x32x256 1 := cmpf .olt main_v9 main_v10
  let main_c_3 : IVec S_ 1 := constantI S_ 1 1#1
  let main_v12 : IVec S_ 1 := (fun x v => Host.reduce IntOp.andi x v reducesTo_S3x32x32x256_S_d0_1_2_3 h_S_) main_v11 main_c_3
  let main_v13 : IVec S_ 1 := andi main_v8 main_v12
  let main_v14 : FVec F S3x32x32x256 .f32 := Host.absf main_arg7
  let main_cst_4 : FVec F S_ .f32 := constant S_ .f32 0x7F800000#32
  let main_v15 : FVec F S3x32x32x256 .f32 := broadcastInDim S3x32x32x256 ![] bcast_S_S3x32x32x256 main_cst_4
  let main_v16 : IVec S3x32x32x256 1 := cmpf .olt main_v14 main_v15
  fn_part1 (F := F) main_arg1 main_arg2 main_arg3 main_v13 main_v16
-- ==== Kernel.lean ====
abbrev S128x1024x256 : Shape := ⟨3, ![128, 1024, 256]⟩
abbrev S128x1024 : Shape := ⟨2, ![128, 1024]⟩
abbrev S3x32x32 : Shape := ⟨3, ![3, 32, 32]⟩
abbrev S3x32x32x256 : Shape := ⟨4, ![3, 32, 32, 256]⟩
abbrev S131072x256 : Shape := ⟨2, ![131072, 256]⟩
abbrev S131072 : Shape := ⟨1, ![131072]⟩
abbrev S_ : Shape := ⟨0, ![]⟩
abbrev S131072x1 : Shape := ⟨2, ![131072, 1]⟩
abbrev S3072x256 : Shape := ⟨2, ![3072, 256]⟩
abbrev S3072 : Shape := ⟨1, ![3072]⟩
abbrev S2x1x3072 : Shape := ⟨3, ![2, 1, 3072]⟩
abbrev S2x3072x256 : Shape := ⟨3, ![2, 3072, 256]⟩
abbrev S1024x256 : Shape := ⟨2, ![1024, 256]⟩
abbrev S1024x1 : Shape := ⟨2, ![1024, 1]⟩
abbrev S1x1x3072 : Shape := ⟨3, ![1, 1, 3072]⟩
abbrev S1x3072x256 : Shape := ⟨3, ![1, 3072, 256]⟩
abbrev S1x3072 : Shape := ⟨2, ![1, 3072]⟩
abbrev S1024x3072 : Shape := ⟨2, ![1024, 3072]⟩
abbrev S3072x1 : Shape := ⟨2, ![3072, 1]⟩

abbrev nBuf : Space → Nat
  | .hbm => 88
  | .vmem => 28
  | .smem => 0
  | _ => 0

abbrev bufTy : (tb : Table) → Fin (tcTables nBuf tb) → BufTy
  | .hbm, ⟨0, _⟩ => ⟨S128x1024x256, .f32⟩
  | .hbm, ⟨1, _⟩ => ⟨S128x1024, .i32⟩
  | .hbm, ⟨2, _⟩ => ⟨S128x1024, .i32⟩
  | .hbm, ⟨3, _⟩ => ⟨S128x1024, .i32⟩
  | .hbm, ⟨4, _⟩ => ⟨S128x1024, .i1⟩
  | .hbm, ⟨5, _⟩ => ⟨S3x32x32, .f32⟩
  | .hbm, ⟨6, _⟩ => ⟨S3x32x32x256, .f32⟩
  | .hbm, ⟨7, _⟩ => ⟨S3x32x32x256, .f32⟩
  | .hbm, ⟨8, _⟩ => ⟨S131072x256, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S128x1024, .i1⟩
  | .hbm, ⟨22, _⟩ => ⟨S131072x1, .i1⟩
  | .hbm, ⟨23, _⟩ => ⟨S131072x1, .f32⟩
  | .hbm, ⟨24, _⟩ => ⟨S3072x256, .f32⟩
  | .hbm, ⟨25, _⟩ => ⟨S3072x256, .f32⟩
  | .hbm, ⟨26, _⟩ => ⟨S3072, .f32⟩
  | .hbm, ⟨27, _⟩ => ⟨S3072x256, .bf16⟩
  | .hbm, ⟨28, _⟩ => ⟨S3072x256, .f32⟩
  | .hbm, ⟨29, _⟩ => ⟨S3072x256, .f32⟩
  | .hbm, ⟨30, _⟩ => ⟨S3072x256, .bf16⟩
  | .hbm, ⟨31, _⟩ => ⟨S131072x256, .f32⟩
  | .hbm, ⟨32, _⟩ => ⟨S2x1x3072, .f32⟩
  | .hbm, ⟨33, _⟩ => ⟨S2x3072x256, .f32⟩
  | .hbm, ⟨34, _⟩ => ⟨S2x3072x256, .f32⟩
  | .hbm, ⟨35, _⟩ => ⟨S_, .f32⟩
  | .hbm, ⟨36, _⟩ => ⟨S1x3072, .f32⟩
  | .hbm, ⟨37, _⟩ => ⟨S3072, .f32⟩
  | .hbm, ⟨38, _⟩ => ⟨S_, .f32⟩
  | .hbm, ⟨39, _⟩ => ⟨S3072x256, .f32⟩
  | .hbm, ⟨40, _⟩ => ⟨S_, .f32⟩
  | .hbm, ⟨41, _⟩ => ⟨S3072x256, .f32⟩
  | .hbm, ⟨42, _⟩ => ⟨S3072, .f32⟩
  | .hbm, ⟨43, _⟩ => ⟨S_, .f32⟩
  | .hbm, ⟨44, _⟩ => ⟨S3072, .f32⟩
  | .hbm, ⟨45, _⟩ => ⟨S3072, .f32⟩
  | .hbm, ⟨46, _⟩ => ⟨S3072x1, .f32⟩
  | .hbm, ⟨47, _⟩ => ⟨S3072x256, .f32⟩
  | .hbm, ⟨48, _⟩ => ⟨S3072x256, .f32⟩
  | .hbm, ⟨49, _⟩ => ⟨S3072x256, .f32⟩
  | .hbm, ⟨50, _⟩ => ⟨S3072x1, .f32⟩
  | .hbm, ⟨51, _⟩ => ⟨S3072x256, .f32⟩
  | .hbm, ⟨52, _⟩ => ⟨S3072x256, .f32⟩
  | .hbm, ⟨53, _⟩ => ⟨S3072x256, .f32⟩
  | .hbm, ⟨54, _⟩ => ⟨S3072x1, .f32⟩
  | .hbm, ⟨55, _⟩ => ⟨S3072x256, .f32⟩
  | .hbm, ⟨56, _⟩ => ⟨S3072x256, .f32⟩
  | .hbm, ⟨57, _⟩ => ⟨S3072x256, .f32⟩
  | .hbm, ⟨58, _⟩ => ⟨S3072x256, .f32⟩
  | .hbm, ⟨59, _⟩ => ⟨S3072x1, .f32⟩
  | .hbm, ⟨60, _⟩ => ⟨S3072x256, .f32⟩
  | .hbm, ⟨61, _⟩ => ⟨S3072x256, .f32⟩
  | .hbm, ⟨62, _⟩ => ⟨S_, .f32⟩
  | .hbm, ⟨63, _⟩ => ⟨S3072, .f32⟩
  | .hbm, ⟨64, _⟩ => ⟨S3072, .i1⟩
  | .hbm, ⟨65, _⟩ => ⟨S3072x1, .i1⟩
  | .hbm, ⟨66, _⟩ => ⟨S_, .f32⟩
  | .hbm, ⟨67, _⟩ => ⟨S_, .f32⟩
  | .hbm, ⟨68, _⟩ => ⟨S3072x256, .i1⟩
  | .hbm, ⟨69, _⟩ => ⟨S3072x256, .f32⟩
  | .hbm, ⟨70, _⟩ => ⟨S3072x256, .f32⟩
  | .hbm, ⟨71, _⟩ => ⟨S3072x256, .f32⟩
  | .hbm, ⟨72, _⟩ => ⟨S_, .f32⟩
  | .hbm, ⟨73, _⟩ => ⟨S3072x256, .f32⟩
  | .hbm, ⟨74, _⟩ => ⟨S3072x256, .f32⟩
  | .hbm, ⟨75, _⟩ => ⟨S_, .f32⟩
  | .hbm, ⟨76, _⟩ => ⟨S3072x256, .f32⟩
  | .hbm, ⟨77, _⟩ => ⟨S3072x256, .f32⟩
  | .hbm, ⟨78, _⟩ => ⟨S3072x256, .bf16⟩
  | .hbm, ⟨79, _⟩ => ⟨S3072x256, .f32⟩
  | .hbm, ⟨80, _⟩ => ⟨S3072x256, .f32⟩
  | .hbm, ⟨81, _⟩ => ⟨S3072x256, .bf16⟩
  | .hbm, ⟨82, _⟩ => ⟨S3072x256, .bf16⟩
  | .hbm, ⟨83, _⟩ => ⟨S3072x256, .f32⟩
  | .hbm, ⟨84, _⟩ => ⟨S3072x256, .f32⟩
  | .hbm, ⟨85, _⟩ => ⟨S3072x256, .bf16⟩
  | .hbm, ⟨86, _⟩ => ⟨S131072x256, .f32⟩
  | .hbm, ⟨87, _⟩ => ⟨S128x1024x256, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S3072x256, .bf16⟩
  | .local _ .vmem, ⟨7, _⟩ => ⟨S3072x256, .bf16⟩
  | .local _ .vmem, ⟨8, _⟩ => ⟨S1024x256, .f32⟩
  | .local _ .vmem, ⟨9, _⟩ => ⟨S1024x256, .f32⟩
  | .local _ .vmem, ⟨10, _⟩ => ⟨S1x1x3072, .f32⟩
  | .local _ .vmem, ⟨11, _⟩ => ⟨S1x1x3072, .f32⟩
  | .local _ .vmem, ⟨12, _⟩ => ⟨S1x3072x256, .f32⟩
  | .local _ .vmem, ⟨13, _⟩ => ⟨S1x3072x256, .f32⟩
  | .local _ .vmem, ⟨14, _⟩ => ⟨S1x3072x256, .f32⟩
  | .local _ .vmem, ⟨15, _⟩ => ⟨S1x3072x256, .f32⟩
  | .local _ .vmem, ⟨16, _⟩ => ⟨S1024x256, .f32⟩
  | .local _ .vmem, ⟨17, _⟩ => ⟨S1024x256, .f32⟩
  | .local _ .vmem, ⟨18, _⟩ => ⟨S1024x1, .i32⟩
  | .local _ .vmem, ⟨19, _⟩ => ⟨S1024x1, .i32⟩
  | .local _ .vmem, ⟨20, _⟩ => ⟨S1024x1, .f32⟩
  | .local _ .vmem, ⟨21, _⟩ => ⟨S1024x1, .f32⟩
  | .local _ .vmem, ⟨22, _⟩ => ⟨S3072x256, .bf16⟩
  | .local _ .vmem, ⟨23, _⟩ => ⟨S3072x256, .bf16⟩
  | .local _ .vmem, ⟨24, _⟩ => ⟨S3072x256, .bf16⟩
  | .local _ .vmem, ⟨25, _⟩ => ⟨S3072x256, .bf16⟩
  | .local _ .vmem, ⟨26, _⟩ => ⟨S1024x256, .f32⟩
  | .local _ .vmem, ⟨27, _⟩ => ⟨S1024x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3072x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3072x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x3072x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3072x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S3072x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S3072x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S3072x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S128x1024x256_S131072x256 : S128x1024x256.ShapeCasts S131072x256
  shapeCasts_S128x1024_S131072 : S128x1024.ShapeCasts S131072
  bcast_S_S131072 : S_.BroadcastsInDim S131072 (![] : Fin 0 → Fin S131072.rank)
  shapeCasts_S131072_S131072x1 : S131072.ShapeCasts S131072x1
  shapeCasts_S128x1024_S131072x1 : S128x1024.ShapeCasts S131072x1
  shapeCasts_S3x32x32x256_S3072x256 : S3x32x32x256.ShapeCasts S3072x256
  shapeCasts_S3x32x32_S3072 : S3x32x32.ShapeCasts S3072
  bitsLt_bf16_f32 : FTy.bits .bf16 < FTy.bits .f32
  inb_S1x1x3072_S1x1x3072_0_0_0 : ∀ a, (![0, 0, 0] : Fin 3 → Nat) a + S1x1x3072.size a ≤ S1x1x3072.size a
  h_S1x1x3072 : 0 < S1x1x3072.numel
  inb_S1x3072x256_S1x3072x256_0_0_0 : ∀ a, (![0, 0, 0] : Fin 3 → Nat) a + S1x3072x256.size a ≤ S1x3072x256.size a
  h_S1x3072x256 : 0 < S1x3072x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x3072_d1_w32 : S1x3072.Iotas .tc 32 [1]
  broadcasts_S1024x1_S1024x3072 : S1024x1.Broadcasts S1024x3072
  broadcasts_S1x3072_S1024x3072 : S1x3072.Broadcasts S1024x3072
  natLt_1_32 : 1 < 32
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1x1x3072_S1x3072 : S1x1x3072.ShapeCasts S1x3072
  shapeCasts_S1x3072_S1x1x3072 : S1x3072.ShapeCasts S1x1x3072
  broadcasts_S1024x1_S1024x256 : S1024x1.Broadcasts S1024x256
  shapeCasts_S1x3072x256_S3072x256 : S1x3072x256.ShapeCasts S3072x256
  shapeCasts_S3072x256_S1x3072x256 : S3072x256.ShapeCasts S1x3072x256
  reducesTo_S2x1x3072_S1x3072_d0 : S2x1x3072.ReducesTo [0] S1x3072
  h_S_ : 0 < S_.numel
  shapeCasts_S1x3072_S3072 : S1x3072.ShapeCasts S3072
  reducesTo_S2x3072x256_S3072x256_d0 : S2x3072x256.ReducesTo [0] S3072x256
  bcast_S_S3072 : S_.BroadcastsInDim S3072 (![] : Fin 0 → Fin S3072.rank)
  bcast_S3072_S3072x1_0 : S3072.BroadcastsInDim S3072x1 (![0] : Fin 1 → Fin S3072x1.rank)
  bcast_S3072x1_S3072x256_0_1 : S3072x1.BroadcastsInDim S3072x256 (![0, 1] : Fin 2 → Fin S3072x256.rank)
  bcast_S_S3072x256 : S_.BroadcastsInDim S3072x256 (![] : Fin 0 → Fin S3072x256.rank)
  shapeCasts_S131072x256_S128x1024x256 : S131072x256.ShapeCasts S128x1024x256
  dot_S1024x3072_S3072x256_S1024x256_1_0_0_1_n_n_wf : DotDims.WF S1024x3072 S3072x256 S1024x256 [1] [0] [0] [1] [] []
  dot_S1024x1_S1024x3072_S1x3072_0_0_1_1_n_n_wf : DotDims.WF S1024x1 S1024x3072 S1x3072 [0] [0] [1] [1] [] []
  dot_S1024x3072_S1024x256_S3072x256_0_0_1_1_n_n_wf : DotDims.WF S1024x3072 S1024x256 S3072x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .f32 = 32 ∨ (Rect.block (s := S131072x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x256.size a
  hwx0_3 : ∀ i : grid0.Coords, EltTy.bits .bf16 = 32 ∨ (Rect.block (s := S3072x256) S3072x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x256.size a ≤ S3072x256.size a
  hwx0_4 : ∀ i : grid0.Coords, EltTy.bits .bf16 = 32 ∨ (Rect.block (s := S3072x256) S3072x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S131072x256.size a
  hwx0_5 : ∀ i : grid0.Coords, EltTy.bits .f32 = 32 ∨ (Rect.block (s := S131072x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x3072.size a ≤ S2x1x3072.size a
  hwx0_6 : ∀ i : grid0.Coords, EltTy.bits .f32 = 32 ∨ (Rect.block (s := S2x1x3072) S1x1x3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3072x256.size a ≤ S2x3072x256.size a
  hwx0_7 : ∀ i : grid0.Coords, EltTy.bits .f32 = 32 ∨ (Rect.block (s := S2x3072x256) S1x3072x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x3072x256.size a ≤ S2x3072x256.size a
  hwx0_8 : ∀ i : grid0.Coords, EltTy.bits .f32 = 32 ∨ (Rect.block (s := S2x3072x256) S1x3072x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S131072x256.size a
  hwx1_0 : ∀ i : grid1.Coords, EltTy.bits .f32 = 32 ∨ (Rect.block (s := S131072x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S131072x1.size a
  hwx1_1 : ∀ i : grid1.Coords, EltTy.bits .i32 = 32 ∨ (Rect.block (s := S131072x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S131072x1.size a
  hwx1_2 : ∀ i : grid1.Coords, EltTy.bits .f32 = 32 ∨ (Rect.block (s := S131072x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x256.size a ≤ S3072x256.size a
  hwx1_3 : ∀ i : grid1.Coords, EltTy.bits .bf16 = 32 ∨ (Rect.block (s := S3072x256) S3072x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3072x256.size a ≤ S3072x256.size a
  hwx1_4 : ∀ i : grid1.Coords, EltTy.bits .bf16 = 32 ∨ (Rect.block (s := S3072x256) S3072x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3072x256.size a ≤ S3072x256.size a
  hwx1_5 : ∀ i : grid1.Coords, EltTy.bits .bf16 = 32 ∨ (Rect.block (s := S3072x256) S3072x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3072x256.size a ≤ S3072x256.size a
  hwx1_6 : ∀ i : grid1.Coords, EltTy.bits .bf16 = 32 ∨ (Rect.block (s := S3072x256) S3072x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x256.size a ≤ S131072x256.size a
  hwx1_7 : ∀ i : grid1.Coords, EltTy.bits .f32 = 32 ∨ (Rect.block (s := S131072x256) S1024x256.size (cc1_transform_7 i) (hinb1_7 i)).WholeWords (EltTy.packing .f32)

variable [Facts₀]

def dot_S1024x3072_S3072x256_S1024x256_1_0_0_1_n_n : DotDims S1024x3072 S3072x256 S1024x256 where
  lhsContracting := [1]
  rhsContracting := [0]
  lhsNonContracting := [0]
  rhsNonContracting := [1]
  lhsBatch := []
  rhsBatch := []
  wf := dot_S1024x3072_S3072x256_S1024x256_1_0_0_1_n_n_wf
def dot_S1024x1_S1024x3072_S1x3072_0_0_1_1_n_n : DotDims S1024x1 S1024x3072 S1x3072 where
  lhsContracting := [0]
  rhsContracting := [0]
  lhsNonContracting := [1]
  rhsNonContracting := [1]
  lhsBatch := []
  rhsBatch := []
  wf := dot_S1024x1_S1024x3072_S1x3072_0_0_1_1_n_n_wf
def dot_S1024x3072_S1024x256_S3072x256_0_0_1_1_n_n : DotDims S1024x3072 S1024x256 S3072x256 where
  lhsContracting := [0]
  rhsContracting := [0]
  lhsNonContracting := [1]
  rhsNonContracting := [1]
  lhsBatch := []
  rhsBatch := []
  wf := dot_S1024x3072_S1024x256_S3072x256_0_0_1_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S3072x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S3072x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x1x3072.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x3072x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_3) S1x3072x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v21_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S3072x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S3072x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S3072x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S3072x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1024x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S128x1024x256 : Shape := ⟨3, ![128, 1024, 256]⟩
abbrev S128x1024 : Shape := ⟨2, ![128, 1024]⟩
abbrev S3x32x32 : Shape := ⟨3, ![3, 32, 32]⟩
abbrev S3x32x32x256 : Shape := ⟨4, ![3, 32, 32, 256]⟩
abbrev S131072x256 : Shape := ⟨2, ![131072, 256]⟩
abbrev S131072 : Shape := ⟨1, ![131072]⟩
abbrev S_ : Shape := ⟨0, ![]⟩
abbrev S3072 : Shape := ⟨1, ![3072]⟩
abbrev S3072x256 : Shape := ⟨2, ![3072, 256]⟩
abbrev S131072x1 : Shape := ⟨2, ![131072, 1]⟩
abbrev S3072x1 : Shape := ⟨2, ![3072, 1]⟩

abbrev nBuf : Space → Nat
  | .hbm => 144
  | .vmem => 0
  | .smem => 0
  | _ => 0

abbrev hbmTy0_0 (i : Nat) : BufTy := match i % 128 with
  | 0 => ⟨S128x1024x256, .f32⟩
  | 1 => ⟨S128x1024, .i32⟩
  | 2 => ⟨S128x1024, .i32⟩
  | 3 => ⟨S128x1024, .i32⟩
  | 4 => ⟨S128x1024, .i1⟩
  | 5 => ⟨S3x32x32, .f32⟩
  | 6 => ⟨S3x32x32x256, .f32⟩
  | 7 => ⟨S3x32x32x256, .f32⟩
  | 8 => ⟨S131072x256, .f32⟩
  | 9 => ⟨S128x1024, .i1⟩
  | 10 => ⟨S131072, .i1⟩
  | 11 => ⟨S131072, .f32⟩
  | 12 => ⟨S_, .i32⟩
  | 13 => ⟨S128x1024, .i32⟩
  | 14 => ⟨S128x1024, .i32⟩
  | 15 => ⟨S_, .i32⟩
  | 16 => ⟨S128x1024, .i32⟩
  | 17 => ⟨S128x1024, .i32⟩
  | 18 => ⟨S128x1024, .i32⟩
  | 19 => ⟨S128x1024, .i32⟩
  | 20 => ⟨S131072, .i32⟩
  | 21 => ⟨S3072, .f32⟩
  | 22 => ⟨S3072x256, .f32⟩
  | 23 => ⟨S3072x256, .f32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S3072, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S131072x1, .i32⟩
  | 41 => ⟨S131072x256, .f32⟩
  | 42 => ⟨S131072x256, .f32⟩
  | 43 => ⟨S131072x1, .f32⟩
  | 44 => ⟨S131072x256, .f32⟩
  | 45 => ⟨S131072x256, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072, .f32⟩
  | 55 => ⟨S_, .f32⟩
  | 56 => ⟨S131072, .f32⟩
  | 57 => ⟨S131072, .f32⟩
  | 58 => ⟨S131072x1, .f32⟩
  | 59 => ⟨S131072x256, .f32⟩
  | 60 => ⟨S131072x256, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S3072x256, .f32⟩
  | 70 => ⟨S_, .i32⟩
  | 71 => ⟨S131072, .i32⟩
  | 72 => ⟨S131072, .i1⟩
  | 73 => ⟨S_, .i32⟩
  | 74 => ⟨S131072, .i32⟩
  | 75 => ⟨S131072, .i32⟩
  | 76 => ⟨S131072, .i32⟩
  | 77 => ⟨S131072x1, .i32⟩
  | 78 => ⟨S131072x256, .f32⟩
  | 79 => ⟨S131072x256, .f32⟩
  | 80 => ⟨S131072x256, .f32⟩
  | 81 => ⟨S131072x1, .f32⟩
  | 82 => ⟨S131072x256, .f32⟩
  | 83 => ⟨S131072x256, .f32⟩
  | 84 => ⟨S_, .i32⟩
  | 85 => ⟨S131072, .i32⟩
  | 86 => ⟨S131072, .i1⟩
  | 87 => ⟨S_, .i32⟩
  | 88 => ⟨S131072, .i32⟩
  | 89 => ⟨S131072, .i32⟩
  | 90 => ⟨S131072, .i32⟩
  | 91 => ⟨S131072x1, .i32⟩
  | 92 => ⟨S3072x256, .f32⟩
  | 93 => ⟨S_, .f32⟩
  | 94 => ⟨S3072, .f32⟩
  | 95 => ⟨S3072, .f32⟩
  | 96 => ⟨S3072x1, .f32⟩
  | 97 => ⟨S3072x256, .f32⟩
  | 98 => ⟨S3072x256, .f32⟩
  | 99 => ⟨S_, .f32⟩
  | 100 => ⟨S3072, .f32⟩
  | 101 => ⟨S3072, .i1⟩
  | 102 => ⟨S3072x1, .i1⟩
  | 103 => ⟨S_, .f32⟩
  | 104 => ⟨S_, .f32⟩
  | 105 => ⟨S3072x256, .i1⟩
  | 106 => ⟨S3072x256, .f32⟩
  | 107 => ⟨S3072x256, .f32⟩
  | 108 => ⟨S3072x256, .f32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S131072x256, .f32⟩
  | 118 => ⟨S131072x256, .f32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x256, .f32⟩
  | _ => ⟨S128x1024x256, .f32⟩

abbrev hbmTy0_1 (i : Nat) : BufTy := match i % 128 with
  | 0 => ⟨S_, .f32⟩
  | 1 => ⟨S131072x256, .f32⟩
  | 2 => ⟨S131072x256, .f32⟩
  | 3 => ⟨S131072x256, .f32⟩
  | 4 => ⟨S_, .f32⟩
  | 5 => ⟨S_, .f32⟩
  | 6 => ⟨S_, .f32⟩
  | 7 => ⟨S131072x256, .f32⟩
  | 8 => ⟨S131072x256, .f32⟩
  | 9 => ⟨S_, .f32⟩
  | 10 => ⟨S131072x256, .f32⟩
  | 11 => ⟨S131072x256, .f32⟩
  | 12 => ⟨S131072x1, .f32⟩
  | 13 => ⟨S131072x256, .f32⟩
  | 14 => ⟨S131072x256, .f32⟩
  | 15 => ⟨S128x1024x256, .f32⟩
  | _ => ⟨S128x1024x256, .f32⟩

abbrev hbmTy (i : Nat) : BufTy := match i / 128 with
  | 0 => hbmTy0_0 i
  | 1 => hbmTy0_1 i
  | _ => ⟨S128x1024x256, .f32⟩

abbrev bufTy : (tb : Table) → Fin (tcTables nBuf tb) → BufTy
  | .hbm, ⟨i, _⟩ => hbmTy i
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_18 : Ref sig .tc := ⟨.hbm, 119, rfl⟩
abbrev main_v88 : Ref sig .tc := ⟨.hbm, 120, rfl⟩
abbrev main_v89 : Ref sig .tc := ⟨.hbm, 121, rfl⟩
abbrev main_c_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_21 : Ref sig .tc := ⟨.hbm, 132, rfl⟩
abbrev main_cst_22 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  shapeCasts_S128x1024x256_S131072x256 : S128x1024x256.ShapeCasts S131072x256
  shapeCasts_S128x1024_S131072 : S128x1024.ShapeCasts S131072
  bcast_S_S128x1024 : S_.BroadcastsInDim S128x1024 (![] : Fin 0 → Fin S128x1024.rank)
  shapeCasts_S3x32x32_S3072 : S3x32x32.ShapeCasts S3072
  shapeCasts_S3x32x32x256_S3072x256 : S3x32x32x256.ShapeCasts S3072x256
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  bcast_S_S3072 : S_.BroadcastsInDim S3072 (![] : Fin 0 → Fin S3072.rank)
  bcast_S3072_S3072x1_0 : S3072.BroadcastsInDim S3072x1 (![0] : Fin 1 → Fin S3072x1.rank)
  bcast_S3072x1_S3072x256_0_1 : S3072x1.BroadcastsInDim S3072x256 (![0, 1] : Fin 2 → Fin S3072x256.rank)
  bcast_S_S3072x256 : S_.BroadcastsInDim S3072x256 (![] : Fin 0 → Fin S3072x256.rank)
  bcast_S_S131072x256 : S_.BroadcastsInDim S131072x256 (![] : Fin 0 → Fin S131072x256.rank)
  shapeCasts_S131072x256_S128x1024x256 : S131072x256.ShapeCasts S128x1024x256
  scatter_S3072_S131072x1_S131072_n_0_0_1_wf : ScatterDims.WF S3072 S131072x1 S131072 [] [0] [0] 1
  gather_S3072x256_S131072x1_S131072x256_1_0_n_n_0_1_1256_wf : GatherDims.WF S3072x256 S131072x1 S131072x256 [1] [0] [] [0] [] 1 ![1, 256]
  gather_S3072_S131072x1_S131072_n_0_n_n_0_1_1_wf : GatherDims.WF S3072 S131072x1 S131072 [] [0] [] [0] [] 1 ![1]
  scatter_S3072x256_S131072x1_S131072x256_1_0_0_1_wf : ScatterDims.WF S3072x256 S131072x1 S131072x256 [1] [0] [0] 1

variable [Facts₀]

def scatter_S3072_S131072x1_S131072_n_0_0_1 : ScatterDims S3072 S131072x1 S131072 where
  updateWindowDims := []
  insertedWindowDims := [0]
  scatterDimsToOperandDims := [0]
  indexVectorDim := 1
  wf := scatter_S3072_S131072x1_S131072_n_0_0_1_wf
def gather_S3072x256_S131072x1_S131072x256_1_0_n_n_0_1_1256 : GatherDims S3072x256 S131072x1 S131072x256 where
  offsetDims := [1]
  collapsedSliceDims := [0]
  operandBatchingDims := []
  startIndicesBatchingDims := []
  startIndexMap := [0]
  indexVectorDim := 1
  sliceSizes := ![1, 256]
  wf := gather_S3072x256_S131072x1_S131072x256_1_0_n_n_0_1_1256_wf
def gather_S3072_S131072x1_S131072_n_0_n_n_0_1_1 : GatherDims S3072 S131072x1 S131072 where
  offsetDims := []
  collapsedSliceDims := [0]
  operandBatchingDims := []
  startIndicesBatchingDims := []
  startIndexMap := [0]
  indexVectorDim := 1
  sliceSizes := ![1]
  wf := gather_S3072_S131072x1_S131072_n_0_n_n_0_1_1_wf
def scatter_S3072x256_S131072x1_S131072x256_1_0_0_1 : ScatterDims S3072x256 S131072x1 S131072x256 where
  updateWindowDims := [1]
  insertedWindowDims := [0]
  scatterDimsToOperandDims := [0]
  indexVectorDim := 1
  wf := scatter_S3072x256_S131072x1_S131072x256_1_0_0_1_wf

class Facts : Prop extends Facts₀ where

variable [Facts]
-- ==== Proof.Spec.lean ====
/-
  The mathematics of the statement, over the reals, with no program in sight.

  A batch of N = 131072 tokens, each with a feature row of Z = 256 entries, a bin number among K = 3072 bins and a
  validity weight (0 or 1), updates running statistics kept per bin — a count, a mean row and a sum of squared
  deviations — by one Welford step, and is then normalised by the UPDATED statistics of its own bin, clamped to
  [-5, 5] and zeroed where invalid.

  Two ways of writing the update are defined side by side.
  * "token by token" (the suffix R): every token adds  δ·v / d  to its bin's mean and  δ·δ'·v  to its bin's sum of
    squares, where δ is its deviation from the OLD mean, δ' its deviation from the NEW mean, v its weight and d the
    bin's new count (at least 1).
  * "bin by bin" (the suffix K): per bin the weighted sums  Σ v,  Σ p·v  and  Σ δ²·v  are formed first; the mean moves by
    md = (Σ p·v − (Σ v)·mean) / d  and the sum of squares by  Σ δ²·v − md²·d.
  The two agree: `Algebra.lean`.
-/
import Idealize.ShloMosaic.PureOps.Ideal

noncomputable section

open scoped BigOperators

namespace Cert.Spec

/-- Tokens, bins and features. -/
abbrev Tok := Fin 131072
abbrev Bin := Fin 3072
abbrev Ft := Fin 256

/-- The data of one update: the tokens' feature rows, bins and weights, and the running statistics per bin. -/
structure Inp where
  P : Tok → Ft → ℝ
  fl : Tok → Bin
  vl : Tok → ℝ
  n0 : Bin → ℝ
  mean0 : Bin → Ft → ℝ
  m20 : Bin → Ft → ℝ

variable (I : Inp)

/-- The two halves of the batch (tokens 0 … 65535 and 65536 … 131071): partial sums are formed per half. -/
def half (t : Tok) : Fin 2 := ⟨t.val / 65536, by have := t.isLt; omega⟩

/-- The weight landing on bin `k`. -/
def cnt (k : Bin) : ℝ := ∑ t : Tok, if I.fl t = k then I.vl t else 0
/-- The same, over one half of the batch. -/
def cntH (h : Fin 2) (k : Bin) : ℝ := ∑ t : Tok, if half t = h ∧ I.fl t = k then I.vl t else 0
/-- The new count of a bin, and the divisor made from it. -/
def nnew (k : Bin) : ℝ := I.n0 k + cnt I k
def den (k : Bin) : ℝ := max (nnew I k) 1
/-- A token's deviation from its bin's OLD mean. -/
def dlt (t : Tok) (z : Ft) : ℝ := I.P t z - I.mean0 (I.fl t) z
/-- Weighted feature sums per bin, whole and per half. -/
def spv (k : Bin) (z : Ft) : ℝ := ∑ t : Tok, if I.fl t = k then I.P t z * I.vl t else 0
def spvH (h : Fin 2) (k : Bin) (z : Ft) : ℝ := ∑ t : Tok, if half t = h ∧ I.fl t = k then I.P t z * I.vl t else 0
/-- Weighted squared deviations per bin, whole and per half. -/
def s2 (k : Bin) (z : Ft) : ℝ := ∑ t : Tok, if I.fl t = k then dlt I t z * dlt I t z * I.vl t else 0
def s2H (h : Fin 2) (k : Bin) (z : Ft) : ℝ := ∑ t : Tok, if half t = h ∧ I.fl t = k then dlt I t z * dlt I t z * I.vl t else 0

/-- Bin by bin: the move of the mean, and the new sum of squares. -/
def md (k : Bin) (z : Ft) : ℝ := (spv I k z - cnt I k * I.mean0 k z) / den I k
def m2K (k : Bin) (z : Ft) : ℝ := I.m20 k z + (s2 I k z - md I k z * md I k z * den I k)

/-- Token by token: the new mean, and the new sum of squares. -/
def mR (k : Bin) (z : Ft) : ℝ := I.mean0 k z + ∑ t : Tok, if I.fl t = k then dlt I t z * I.vl t / den I (I.fl t) else 0
def m2R (k : Bin) (z : Ft) : ℝ :=
  I.m20 k z + ∑ t : Tok, if I.fl t = k then dlt I t z * (I.P t z - mR I (I.fl t) z) * I.vl t else 0

/-- The variance read off a sum of squares: 1 for a bin seen fewer than twice. -/
def varOf (m2x : Bin → Ft → ℝ) (k : Bin) (z : Ft) : ℝ := if nnew I k < 2 then 1 else m2x k z / den I k

/-- The factor 1 / (√v + ε); for a negative v (where the square root has no value and the quotient by it is 0) it is 0. -/
def rs (eps v : ℝ) : ℝ := if v < 0 then 0 else 1 / (Real.sqrt v + eps)

/-- Clamping to [-5, 5]. -/
def clip (x : ℝ) : ℝ := min 5 (max (-5) x)

/-- The normalised token, bin by bin and token by token. -/
def outK (eps : ℝ) (t : Tok) (z : Ft) : ℝ :=
  clip ((dlt I t z - md I (I.fl t) z) * rs eps (varOf I (m2K I) (I.fl t) z)) * I.vl t
def outR (eps : ℝ) (t : Tok) (z : Ft) : ℝ :=
  clip ((I.P t z - mR I (I.fl t) z) * rs eps (varOf I (m2R I) (I.fl t) z)) * I.vl t

end Cert.Spec

end
-- ==== Proof.Inputs.lean ====
/-
  The data of the statement read off the eight argument arrays, at explicit indices.

  Token `t` is row `t / 1024`, position `t % 1024` of the [128 × 1024] batch; bin `k` is entry (k / 1024, k / 32 % 32, k % 32) of
  the [3 × 32 × 32] tables. A token's bin is  channel · 1024 + row · 32 + column  of its three coordinates, in 32-bit
  arithmetic; its weight is 1 unless its padding bit is set.
  `Good` says what the precondition gives: every float entry is a real number, and every token's bin word is below 3072.
-/
import Idealize.ShloMosaic.PureOps.Ideal
import Idealize.ShloMosaic.Lib.ValueIdx
import proofs.«414065_j58420145160519_3_alg».proof.Proof.Spec

noncomputable section

namespace Cert.Inputs

open Idealize.ShloMosaic Idealize.ShloMosaic.ValueIdx Cert.Spec

/-- The shapes of the arguments. -/
abbrev A3 : Shape := ⟨3, ![128, 1024, 256]⟩
abbrev A2 : Shape := ⟨2, ![128, 1024]⟩
abbrev T3 : Shape := ⟨3, ![3, 32, 32]⟩
abbrev T4 : Shape := ⟨4, ![3, 32, 32, 256]⟩

/-- A token's row and position in the batch. -/
def tb (t : Tok) : Fin 128 := ⟨t.val / 1024, by have := t.isLt; omega⟩
def ts (t : Tok) : Fin 1024 := ⟨t.val % 1024, Nat.mod_lt _ (by decide)⟩
/-- A bin's channel, row and column in the tables. -/
def kc (k : Bin) : Fin 3 := ⟨k.val / 1024, by have := k.isLt; omega⟩
def kh (k : Bin) : Fin 32 := ⟨k.val / 32 % 32, Nat.mod_lt _ (by decide)⟩
def kw (k : Bin) : Fin 32 := ⟨k.val % 32, Nat.mod_lt _ (by decide)⟩

/-- The bin word of a token: channel · 1024 + row · 32 + column, in 32-bit arithmetic. -/
def binWord (x1 x2 x3 : A2.Idx → BitVec 32) (t : Tok) : BitVec 32 :=
  x1 (ix2 (tb t) (ts t)) * 1024#32 + x2 (ix2 (tb t) (ts t)) * 32#32 + x3 (ix2 (tb t) (ts t))

/-- The update's data, read off the arguments. -/
def inpOf (x0 : A3.Idx → EReal) (x1 x2 x3 : A2.Idx → BitVec 32) (x4 : A2.Idx → BitVec 1) (x5 : T3.Idx → EReal)
    (x6 x7 : T4.Idx → EReal) : Inp where
  P t z := (x0 (ix3 (tb t) (ts t) z)).toReal
  fl t := ⟨(binWord x1 x2 x3 t).toNat % 3072, Nat.mod_lt _ (by decide)⟩
  vl t := if x4 (ix2 (tb t) (ts t)) = 1#1 then 0 else 1
  n0 k := (x5 (ix3 (kc k) (kh k) (kw k))).toReal
  mean0 k z := (x6 (ix4 (kc k) (kh k) (kw k) z)).toReal
  m20 k z := (x7 (ix4 (kc k) (kh k) (kw k) z)).toReal

/-- What the precondition gives of the arguments. -/
structure Good (x0 : A3.Idx → EReal) (x1 x2 x3 : A2.Idx → BitVec 32) (x5 : T3.Idx → EReal) (x6 x7 : T4.Idx → EReal) : Prop where
  fin0 : ∀ j, x0 j = (((x0 j).toReal : ℝ) : EReal)
  fin5 : ∀ j, x5 j = (((x5 j).toReal : ℝ) : EReal)
  fin6 : ∀ j, x6 j = (((x6 j).toReal : ℝ) : EReal)
  fin7 : ∀ j, x7 j = (((x7 j).toReal : ℝ) : EReal)
  rng : ∀ t, (binWord x1 x2 x3 t).toNat < 3072

end Cert.Inputs

end
-- ==== Proof.Consts.lean ====
/-
  The float constants the two programs spell, as the extended reals their patterns denote.
  ε = 0x358637BD (the single-precision number nearest 10⁻⁶) is kept as a named positive real: only its sign is used.
-/
import Idealize.ShloMosaic.PureOps.Ideal

noncomputable section

namespace Cert.Consts

open Idealize.ShloMosaic

/-- The pattern of `+0.0` denotes 0. -/
theorem ofBits_zero : Ideal.ofBits .f32 0x00000000#32 = ((0 : ℝ) : EReal) := by
  simp [Ideal.ofBits, Ideal.ieee]

/-- The pattern of `1.0` denotes 1. -/
theorem ofBits_one : Ideal.ofBits .f32 0x3F800000#32 = ((1 : ℝ) : EReal) := by
  simp [Ideal.ofBits, Ideal.ieee, -EReal.coe_mul]; norm_num

/-- The pattern of `2.0` denotes 2. -/
theorem ofBits_two : Ideal.ofBits .f32 0x40000000#32 = ((2 : ℝ) : EReal) := by
  simp [Ideal.ofBits, Ideal.ieee, -EReal.coe_mul]; norm_num

/-- The pattern of `5.0` denotes 5. -/
theorem ofBits_five : Ideal.ofBits .f32 0x40A00000#32 = ((5 : ℝ) : EReal) := by
  simp [Ideal.ofBits, Ideal.ieee, -EReal.coe_mul]; norm_num

/-- The pattern of `-5.0` denotes −5. -/
theorem ofBits_neg_five : Ideal.ofBits .f32 0xC0A00000#32 = (((-5 : ℝ)) : EReal) := by
  simp [Ideal.ofBits, Ideal.ieee, -EReal.coe_mul]; norm_num

/-- ε, the real number the pattern 0x358637BD denotes. -/
def epsR : ℝ := (Ideal.ofBits .f32 0x358637BD#32).toReal

theorem ofBits_eps : Ideal.ofBits .f32 0x358637BD#32 = ((epsR : ℝ) : EReal) := by
  unfold epsR
  simp [Ideal.ofBits, Ideal.ieee, -EReal.coe_mul]

theorem epsR_pos : 0 < epsR := by
  unfold epsR
  simp [Ideal.ofBits, Ideal.ieee, -EReal.coe_mul]

end Cert.Consts

end
-- ==== Proof.KIn.lean ====
/-
  The kernel program's memory at launch, read as the update's data: the eight argument arrays of a core, and what
  the precondition says of them.
-/
import proofs.«414065_j58420145160519_3_alg».proof.Proof.Gen.KernelIdeal.Frame
import proofs.«414065_j58420145160519_3_alg».proof.Proof.Inputs
import proofs.«414065_j58420145160519_3_alg».proof.Proof.Consts

noncomputable section

namespace Cert.KernelIdeal.KIn

open Cert.KernelIdeal Cert.KernelIdeal.Gen Cert.Inputs Cert.Spec
open Idealize.ShloMosaic Idealize.ShloMosaic.TcCoe

variable (m : (ℓ : Loc nD τ sig) → Buf (Elt Ideal) ℓ) (c : Dev nD)

/-- Core `c`'s eight argument arrays at launch. -/
abbrev x0 : A3.Idx → EReal := m ((c : Thread nD τ).loc main_arg0)
abbrev x1 : A2.Idx → BitVec 32 := m ((c : Thread nD τ).loc main_arg1)
abbrev x2 : A2.Idx → BitVec 32 := m ((c : Thread nD τ).loc main_arg2)
abbrev x3 : A2.Idx → BitVec 32 := m ((c : Thread nD τ).loc main_arg3)
abbrev x4 : A2.Idx → BitVec 1 := m ((c : Thread nD τ).loc main_arg4)
abbrev x5 : T3.Idx → EReal := m ((c : Thread nD τ).loc main_arg5)
abbrev x6 : T4.Idx → EReal := m ((c : Thread nD τ).loc main_arg6)
abbrev x7 : T4.Idx → EReal := m ((c : Thread nD τ).loc main_arg7)

/-- The update's data on core `c`. -/
def I : Inp := inpOf (x0 m c) (x1 m c) (x2 m c) (x3 m c) (x4 m c) (x5 m c) (x6 m c) (x7 m c)

/-- What the precondition gives on core `c`. -/
abbrev GoodM : Prop := Good (x0 m c) (x1 m c) (x2 m c) (x3 m c) (x5 m c) (x6 m c) (x7 m c)

end Cert.KernelIdeal.KIn

end
-- ==== Proof.IdealReal.lean ====
/-
  The exact operations on the extended reals, at real arguments: each returns the real number of the textbook
  operation. The one corner met is the square root of a negative number, which is −∞; adding ε keeps it −∞, and a
  real divided by −∞ is 0 — which is why the factor 1 / (√v + ε) is read as 0 for a negative v.
-/
import Idealize.ShloMosaic.PureOps.Ideal
import proofs.«414065_j58420145160519_3_alg».proof.Proof.Spec
import proofs.«414065_j58420145160519_3_alg».proof.Proof.Consts

noncomputable section

open scoped BigOperators

namespace Cert.IdealReal

open Idealize.ShloMosaic

variable {φ : FTy}

/-! ### Sum, difference, product, maximum, minimum -/

/-- The sum of two reals is the real sum. -/
theorem add_coe (x y : ℝ) : (x : EReal) + (y : EReal) = ((x + y : ℝ) : EReal) := (EReal.coe_add x y).symm
theorem addf_coe (x y : ℝ) :
    FloatOps.addf (F := Ideal) (φ := φ) (x : EReal) (y : EReal) = ((x + y : ℝ) : EReal) := by
  rw [Ideal.addf_def, EReal.coe_add]

/-- The difference of two reals is the real difference. -/
theorem sub_coe (x y : ℝ) : (x : EReal) - (y : EReal) = ((x - y : ℝ) : EReal) := (EReal.coe_sub x y).symm
theorem subf_coe (x y : ℝ) :
    FloatOps.subf (F := Ideal) (φ := φ) (x : EReal) (y : EReal) = ((x - y : ℝ) : EReal) := by
  rw [Ideal.subf_def, EReal.coe_sub]

/-- The product of two reals is the real product. -/
theorem mul_coe (x y : ℝ) : (x : EReal) * (y : EReal) = ((x * y : ℝ) : EReal) := (EReal.coe_mul x y).symm
theorem mulf_coe (x y : ℝ) :
    FloatOps.mulf (F := Ideal) (φ := φ) (x : EReal) (y : EReal) = ((x * y : ℝ) : EReal) := by
  rw [Ideal.mulf_def, EReal.coe_mul]

/-- The maximum of two reals is the real maximum: the embedding of the reals is monotone. -/
theorem max_coe (x y : ℝ) : max (x : EReal) (y : EReal) = ((max x y : ℝ) : EReal) :=
  (EReal.coe_strictMono.monotone.map_max (a := x) (b := y)).symm
theorem maximumf_coe (x y : ℝ) :
    FloatOps.maximumf (F := Ideal) (φ := φ) (x : EReal) (y : EReal) = ((max x y : ℝ) : EReal) := by
  rw [Ideal.maximumf_def, max_coe]

/-- The minimum of two reals is the real minimum. -/
theorem min_coe (x y : ℝ) : min (x : EReal) (y : EReal) = ((min x y : ℝ) : EReal) :=
  (EReal.coe_strictMono.monotone.map_min (a := x) (b := y)).symm
theorem minimumf_coe (x y : ℝ) :
    FloatOps.minimumf (F := Ideal) (φ := φ) (x : EReal) (y : EReal) = ((min x y : ℝ) : EReal) := by
  rw [Ideal.minimumf_def, min_coe]

/-! ### The quotient -/

/-- A real divided by a real other than 0 is the real quotient. -/
theorem div_coe_coe (x : ℝ) {y : ℝ} (hy : y ≠ 0) : Ideal.div (x : EReal) (y : EReal) = ((x / y : ℝ) : EReal) := by
  rw [Ideal.div_coe hy, ← EReal.coe_mul, mul_one_div]
theorem hostDivf_coe (x : ℝ) {y : ℝ} (hy : y ≠ 0) :
    FloatOps.hostDivf (F := Ideal) (φ := φ) (x : EReal) (y : EReal) = ((x / y : ℝ) : EReal) := by
  rw [Ideal.hostDivf_def, div_coe_coe x hy]
theorem divf_coe (x : ℝ) {y : ℝ} (hy : y ≠ 0) :
    FloatOps.divf (F := Ideal) (φ := φ) (x : EReal) (y : EReal) = ((x / y : ℝ) : EReal) := by
  rw [Ideal.divf_def, div_coe_coe x hy]

/-- A real divided by −∞ is 0: the inverse of −∞ is 0. -/
theorem div_bot (x : ℝ) : Ideal.div (x : EReal) ⊥ = ((0 : ℝ) : EReal) := by
  rw [Ideal.div, if_neg EReal.bot_ne_zero, EReal.inv_bot, mul_zero, EReal.coe_zero]

/-! ### The comparison and the choice -/

/-- "Less than" on two reals is the reals' own. -/
theorem cmp_olt_coe (x y : ℝ) : Ideal.cmp .olt (x : EReal) (y : EReal) = if x < y then 1#1 else 0#1 := by
  unfold Ideal.cmp
  by_cases h : x < y
  · have h' : (x : EReal) < (y : EReal) := EReal.coe_lt_coe_iff.mpr h
    simp [h, h']
  · have h' : ¬ (x : EReal) < (y : EReal) := fun hh => h (EReal.coe_lt_coe_iff.mp hh)
    simp [h, h']
theorem cmpf_olt_coe (x y : ℝ) :
    FloatOps.cmpf (F := Ideal) (φ := φ) .olt (x : EReal) (y : EReal) = if x < y then 1#1 else 0#1 :=
  cmp_olt_coe x y

/-- The choice on a one-bit word takes the first value exactly where the word is 1. -/
theorem select_def {α : Type} (c : BitVec 1) (a b : α) : Scalar.select c a b = if c = 1#1 then a else b := rfl

/-- The choice on "x < y" takes the first value exactly where x < y. -/
theorem select_cmpf_olt {α : Type} (x y : ℝ) (a b : α) :
    Scalar.select (FloatOps.cmpf (F := Ideal) (φ := φ) .olt (x : EReal) (y : EReal)) a b = if x < y then a else b := by
  rw [cmpf_olt_coe, select_def]
  by_cases h : x < y
  · rw [if_pos h, if_pos h, if_pos rfl]
  · rw [if_neg h, if_neg h, if_neg (by decide)]
theorem select_cmp_olt {α : Type} (x y : ℝ) (a b : α) :
    Scalar.select (Ideal.cmp .olt (x : EReal) (y : EReal)) a b = if x < y then a else b :=
  select_cmpf_olt (φ := .f32) x y a b

/-! ### The square root -/

/-- The root of a real that is not negative is the real root. -/
theorem sqrt_coe_of_nonneg {v : ℝ} (hv : 0 ≤ v) : Ideal.sqrt (v : EReal) = ((Real.sqrt v : ℝ) : EReal) := by
  rw [Ideal.sqrt_coe, if_neg (not_lt.mpr hv)]
theorem hostUnary_sqrt_coe_of_nonneg {v : ℝ} (hv : 0 ≤ v) :
    FloatOps.hostUnary (F := Ideal) .sqrt (φ := φ) (v : EReal) = ((Real.sqrt v : ℝ) : EReal) := by
  rw [Ideal.hostUnary_sqrt_def, sqrt_coe_of_nonneg hv]
theorem sqrtf_coe_of_nonneg {v : ℝ} (hv : 0 ≤ v) :
    FloatOps.sqrt (F := Ideal) (φ := φ) (v : EReal) = ((Real.sqrt v : ℝ) : EReal) := by
  rw [Ideal.sqrt_def, sqrt_coe_of_nonneg hv]

/-- The root of a negative real is −∞. -/
theorem sqrt_coe_of_neg {v : ℝ} (hv : v < 0) : Ideal.sqrt (v : EReal) = ⊥ := by
  rw [Ideal.sqrt_coe, if_pos hv]
theorem hostUnary_sqrt_coe_of_neg {v : ℝ} (hv : v < 0) :
    FloatOps.hostUnary (F := Ideal) .sqrt (φ := φ) (v : EReal) = ⊥ := by
  rw [Ideal.hostUnary_sqrt_def, sqrt_coe_of_neg hv]
theorem sqrtf_coe_of_neg {v : ℝ} (hv : v < 0) : FloatOps.sqrt (F := Ideal) (φ := φ) (v : EReal) = ⊥ := by
  rw [Ideal.sqrt_def, sqrt_coe_of_neg hv]

/-! ### The normalising factor -/

/-- √v + ε is positive for a real v that is not negative and a positive ε. -/
theorem sqrt_add_pos {eps : ℝ} (he : 0 < eps) (v : ℝ) : 0 < Real.sqrt v + eps :=
  add_pos_of_nonneg_of_pos (Real.sqrt_nonneg v) he

/-- x / (√v + ε) = x · rs ε v: for v < 0 the root is −∞, −∞ + ε = −∞ and x / −∞ = 0; otherwise the divisor is the
    positive real √v + ε. -/
theorem div_sqrt_add (x v : ℝ) {eps : ℝ} (he : 0 < eps) :
    Ideal.div (x : EReal) (Ideal.sqrt (v : EReal) + (eps : EReal)) = ((x * Cert.Spec.rs eps v : ℝ) : EReal) := by
  unfold Cert.Spec.rs
  by_cases hv : v < 0
  · rw [sqrt_coe_of_neg hv, EReal.bot_add, div_bot, if_pos hv, mul_zero]
  · rw [sqrt_coe_of_nonneg (not_lt.mp hv), add_coe, div_coe_coe x (sqrt_add_pos he v).ne', if_neg hv, mul_one_div]
theorem hostDivf_sqrt_add (x v : ℝ) {eps : ℝ} (he : 0 < eps) :
    FloatOps.hostDivf (F := Ideal) (φ := φ) (x : EReal)
        (FloatOps.addf (FloatOps.hostUnary .sqrt (v : EReal)) (eps : EReal))
      = ((x * Cert.Spec.rs eps v : ℝ) : EReal) := by
  rw [Ideal.hostDivf_def, Ideal.addf_def, Ideal.hostUnary_sqrt_def, div_sqrt_add x v he]

/-- 1 / (√v + ε) = rs ε v. -/
theorem one_div_sqrt_add (v : ℝ) {eps : ℝ} (he : 0 < eps) :
    Ideal.div ((1 : ℝ) : EReal) (Ideal.sqrt (v : EReal) + (eps : EReal)) = ((Cert.Spec.rs eps v : ℝ) : EReal) := by
  rw [div_sqrt_add 1 v he, one_mul]
theorem hostDivf_one_sqrt_add (v : ℝ) {eps : ℝ} (he : 0 < eps) :
    FloatOps.hostDivf (F := Ideal) (φ := φ) ((1 : ℝ) : EReal)
        (FloatOps.addf (FloatOps.hostUnary .sqrt (v : EReal)) (eps : EReal))
      = ((Cert.Spec.rs eps v : ℝ) : EReal) := by
  rw [hostDivf_sqrt_add 1 v he, one_mul]

/-! ### Changes of format -/

/-- Narrowing and widening a format change nothing. -/
theorem truncf_id (ψ : FTy) (h : ψ.bits < φ.bits) (x : Ideal φ) : FloatOps.truncf (F := Ideal) ψ h x = x := rfl
theorem extf_id (ψ : FTy) (h : φ.bits < ψ.bits) (x : Ideal φ) : FloatOps.extf (F := Ideal) ψ h x = x := rfl

/-- A real minus itself narrowed and widened again is 0: x − x = 0. -/
theorem subf_extf_truncf (ψ : FTy) (h : ψ.bits < φ.bits) (x : ℝ) :
    FloatOps.subf (F := Ideal) (φ := φ) (x : EReal)
        (FloatOps.extf (F := Ideal) φ h (FloatOps.truncf (F := Ideal) (φ := φ) ψ h (x : EReal)))
      = ((0 : ℝ) : EReal) := by
  rw [extf_id, truncf_id, subf_coe, sub_self]

/-! ### One-bit words as numbers -/

/-- A one-bit word read unsigned is 1 where it is 1 and 0 where it is 0. -/
theorem uitofp_bit (b : BitVec 1) :
    FloatOps.uitofp (F := Ideal) φ b = ((if b = 1#1 then 1 else 0 : ℝ) : EReal) := by
  show ((b.toNat : ℝ) : EReal) = _
  rcases BitVec.eq_zero_or_eq_one b with rfl | rfl
  · rw [if_neg (by decide)]; simp
  · rw [if_pos rfl]; simp

/-- A one-bit word widened with zeros to 32 bits and read signed is the same number. -/
theorem sitofp_setWidth_bit (b : BitVec 1) :
    FloatOps.sitofp (F := Ideal) φ (b.setWidth 32) = ((if b = 1#1 then 1 else 0 : ℝ) : EReal) := by
  show (((b.setWidth 32).toInt : ℝ) : EReal) = _
  rcases BitVec.eq_zero_or_eq_one b with rfl | rfl
  · rw [if_neg (by decide)]
    have : (BitVec.setWidth 32 0#1).toInt = 0 := by decide
    rw [this]; simp
  · rw [if_pos rfl]
    have : (BitVec.setWidth 32 1#1).toInt = 1 := by decide
    rw [this]; simp

/-! ### Finite sums -/

/-- A finite sum of reals is the real sum. -/
theorem coe_sum {ι : Type} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- A sum against the indicator of one index keeps that index's term: 0 · x = 0 and 1 · x = x for every extended real. -/
theorem sum_onehot_mul {ι : Type} [Fintype ι] [DecidableEq ι] (k0 : ι) (g : ι → EReal) :
    (∑ k, (if k = k0 then (1 : EReal) else 0) * g k) = g k0 := by
  rw [Finset.sum_eq_single k0]
  · rw [if_pos rfl, one_mul]
  · intro k _ hk
    rw [if_neg hk, zero_mul]
  · intro h
    exact absurd (Finset.mem_univ k0) h
theorem sum_mul_onehot {ι : Type} [Fintype ι] [DecidableEq ι] (k0 : ι) (g : ι → EReal) :
    (∑ k, g k * (if k = k0 then (1 : EReal) else 0)) = g k0 := by
  rw [Finset.sum_eq_single k0]
  · rw [if_pos rfl, mul_one]
  · intro k _ hk
    rw [if_neg hk, mul_zero]
  · intro h
    exact absurd (Finset.mem_univ k0) h

end Cert.IdealReal

end
-- ==== Proof.KHostA.lean ====
/-
  The arrays the first kernel is entered with, from the arguments: the flattened feature rows, bin words and weights,
  and the old mean table carried as a pair whose second member is the table minus itself.
-/
import proofs.«414065_j58420145160519_3_alg».proof.Proof.KIn
import proofs.«414065_j58420145160519_3_alg».proof.Proof.IdealReal
import Idealize.ShloMosaic.Lib.ValueIdx
import Idealize.ShloMosaic.Lib.StableHlo.Predicate
import Idealize.ShloMosaic.Lib.StableHlo.Run
import Idealize.ShloMosaic.Lib.Pipeline.Value

set_option maxRecDepth 16384

noncomputable section

namespace Cert.KernelIdeal.KHostA

open Cert.KernelIdeal Cert.KernelIdeal.Gen Cert.KernelIdeal.KIn Cert.Inputs Cert.Spec
open Idealize.ShloMosaic Idealize.ShloMosaic.TcCoe Idealize.ShloMosaic.ValueIdx Idealize.ShloMosaic.StableHlo.Predicate

variable (m : (ℓ : Loc nD τ sig) → Buf (Elt Ideal) ℓ) (ρ : Dev nD → PrngReg) (c : Dev nD)

/-! ### The reshapes read at an index: both sides have the same row-major position -/

/-- [128 × 1024 × 256] as [131072 × 256]: row t is (t / 1024, t % 1024). -/
theorem rs_feat {α : Type} (x : S128x1024x256.Idx → α) (t : Tok) (z : Ft) :
    shapeCast S131072x256 x shapeCasts_S128x1024x256_S131072x256 (ix2 t z) = x (ix3 (tb t) (ts t) z) := by
  refine shapeCast_apply x _ (ix2 t z) (ix3 (tb t) (ts t) z) ?_
  rw [Shape.rowMajor_val_three, Shape.rowMajor_val_two]
  show ((t.val / 1024) * 1024 + t.val % 1024) * 256 + z.val = t.val * 256 + z.val
  omega

/-- [128 × 1024] as [131072]: position t is (t / 1024, t % 1024). -/
theorem rs_tok {α : Type} (x : S128x1024.Idx → α) (t : Tok) :
    shapeCast S131072 x shapeCasts_S128x1024_S131072 (ix1 t) = x (ix2 (tb t) (ts t)) := by
  refine shapeCast_apply x _ (ix1 t) (ix2 (tb t) (ts t)) ?_
  rw [Shape.rowMajor_val_two, Shape.rowMajor_val_one]
  show (t.val / 1024) * 1024 + t.val % 1024 = t.val
  omega

/-- [128 × 1024] as the column [131072 × 1]. -/
theorem rs_tokcol {α : Type} (x : S128x1024.Idx → α) (t : Tok) :
    shapeCast S131072x1 x shapeCasts_S128x1024_S131072x1 (ixP t) = x (ix2 (tb t) (ts t)) := by
  refine shapeCast_apply x _ (ixP t) (ix2 (tb t) (ts t)) ?_
  rw [Shape.rowMajor_val_two, Shape.rowMajor_val_two]
  show (t.val / 1024) * 1024 + t.val % 1024 = t.val * 1 + 0
  omega

/-- [131072] as the column [131072 × 1]. -/
theorem rs_col {α : Type} (x : S131072.Idx → α) (t : Tok) :
    shapeCast S131072x1 x shapeCasts_S131072_S131072x1 (ixP t) = x (ix1 t) := by
  refine shapeCast_apply x _ (ixP t) (ix1 t) ?_
  rw [Shape.rowMajor_val_one, Shape.rowMajor_val_two]
  show t.val = t.val * 1 + 0
  omega

/-- [3 × 32 × 32 × 256] as [3072 × 256]: row k is (k / 1024, k / 32 % 32, k % 32). -/
theorem rs_tab4 {α : Type} (x : S3x32x32x256.Idx → α) (k : Bin) (z : Ft) :
    shapeCast S3072x256 x shapeCasts_S3x32x32x256_S3072x256 (ix2 k z) = x (ix4 (kc k) (kh k) (kw k) z) := by
  refine shapeCast_apply x _ (ix2 k z) (ix4 (kc k) (kh k) (kw k) z) ?_
  rw [Shape.rowMajor_val_four, Shape.rowMajor_val_two]
  show (((k.val / 1024) * 32 + k.val / 32 % 32) * 32 + k.val % 32) * 256 + z.val = k.val * 256 + z.val
  omega

/-- [3 × 32 × 32] as [3072]. -/
theorem rs_tab3 {α : Type} (x : S3x32x32.Idx → α) (k : Bin) :
    shapeCast S3072 x shapeCasts_S3x32x32_S3072 (ix1 k) = x (ix3 (kc k) (kh k) (kw k)) := by
  refine shapeCast_apply x _ (ix1 k) (ix3 (kc k) (kh k) (kw k)) ?_
  rw [Shape.rowMajor_val_three, Shape.rowMajor_val_one]
  show ((k.val / 1024) * 32 + k.val / 32 % 32) * 32 + k.val % 32 = k.val
  omega

/-! ### The arrays the first host stretch leaves, as terms of the launch arrays -/

theorem v0_eq : (V1 m ρ c main_v0 : S131072x256.Idx → EReal)
    = shapeCast S131072x256 (x0 m c) shapeCasts_S128x1024x256_S131072x256 := by
  dsimp only [Gen.V1, Gen.W1, Gen.hostOps0]; after_results; rfl

theorem v10_eq : (V1 m ρ c main_v10 : S131072x1.Idx → BitVec 32)
    = shapeCast S131072x1
        (addi
          (addi
            (muli (shapeCast S131072 (x1 m c) shapeCasts_S128x1024_S131072)
              (broadcastInDim S131072 ![] bcast_S_S131072 (constantI S_ 32 1024#32)))
            (muli (shapeCast S131072 (x2 m c) shapeCasts_S128x1024_S131072)
              (broadcastInDim S131072 ![] bcast_S_S131072 (constantI S_ 32 32#32))))
          (shapeCast S131072 (x3 m c) shapeCasts_S128x1024_S131072))
        shapeCasts_S131072_S131072x1 := by
  dsimp only [Gen.V1, Gen.W1, Gen.hostOps0]; after_results; rfl

theorem v13_eq : (V1 m ρ c main_v13 : S131072x1.Idx → EReal)
    = uitofp (F := Ideal) .f32 (shapeCast S131072x1 (noti (x4 m c)) shapeCasts_S128x1024_S131072x1) := by
  dsimp only [Gen.V1, Gen.W1, Gen.hostOps0]; after_results; rfl

theorem v14_eq : (V1 m ρ c main_v14 : S3072x256.Idx → EReal)
    = shapeCast S3072x256 (x6 m c) shapeCasts_S3x32x32x256_S3072x256 := by
  dsimp only [Gen.V1, Gen.W1, Gen.hostOps0]; after_results; rfl

theorem v15_eq : (V1 m ρ c main_v15 : S3072x256.Idx → EReal)
    = shapeCast S3072x256 (x7 m c) shapeCasts_S3x32x32x256_S3072x256 := by
  dsimp only [Gen.V1, Gen.W1, Gen.hostOps0]; after_results; rfl

theorem v16_eq : (V1 m ρ c main_v16 : S3072.Idx → EReal)
    = shapeCast S3072 (x5 m c) shapeCasts_S3x32x32_S3072 := by
  dsimp only [Gen.V1, Gen.W1, Gen.hostOps0]; after_results; rfl

theorem v17_eq : (V1 m ρ c main_v17 : S3072x256.Idx → EReal)
    = truncf (F := Ideal) .bf16 (shapeCast S3072x256 (x6 m c) shapeCasts_S3x32x32x256_S3072x256) bitsLt_bf16_f32 := by
  dsimp only [Gen.V1, Gen.W1, Gen.hostOps0]; after_results; rfl

theorem v20_eq : (V1 m ρ c main_v20 : S3072x256.Idx → EReal)
    = truncf (F := Ideal) .bf16
        (subf (shapeCast S3072x256 (x6 m c) shapeCasts_S3x32x32x256_S3072x256)
          (extf .f32 (truncf .bf16 (shapeCast S3072x256 (x6 m c) shapeCasts_S3x32x32x256_S3072x256) bitsLt_bf16_f32)
            bitsLt_bf16_f32))
        bitsLt_bf16_f32 := by
  dsimp only [Gen.V1, Gen.W1, Gen.hostOps0]; after_results; rfl

/-! ### The eight arrays at an index -/

/-- Row t of the flattened features is the argument's row (t / 1024, t % 1024), a real number. -/
theorem V1_P (hG : GoodM m c) (t : Tok) (z : Ft) :
    (V1 m ρ c main_v0 : S131072x256.Idx → EReal) (ix2 t z) = (((I m c).P t z : ℝ) : EReal) := by
  rw [v0_eq, rs_feat]
  exact hG.fin0 _

/-- channel · 1024 + row · 32 + column at one position: the broadcast constants read 1024 and 32 everywhere. -/
theorem bin_apply (a b d : IVec S131072 32) (t : Tok) :
    addi
        (addi (muli a (broadcastInDim S131072 ![] bcast_S_S131072 (constantI S_ 32 1024#32)))
          (muli b (broadcastInDim S131072 ![] bcast_S_S131072 (constantI S_ 32 32#32))))
        d (ix1 t)
      = a (ix1 t) * 1024#32 + b (ix1 t) * 32#32 + d (ix1 t) := rfl

/-- The bin word of token t; it is below 3072, so reducing it modulo 3072 and reading it back as a word changes nothing. -/
theorem V1_I (hG : GoodM m c) (t : Tok) :
    (V1 m ρ c main_v10 : S131072x1.Idx → BitVec 32) (ixP t) = BitVec.ofNat 32 ((I m c).fl t).val := by
  rw [v10_eq, rs_col, bin_apply, rs_tok, rs_tok, rs_tok]
  have h : (binWord (x1 m c) (x2 m c) (x3 m c) t).toNat < 3072 := hG.rng t
  apply BitVec.eq_of_toNat_eq
  rw [BitVec.toNat_ofNat]
  show (binWord (x1 m c) (x2 m c) (x3 m c) t).toNat = (binWord (x1 m c) (x2 m c) (x3 m c) t).toNat % 3072 % 2 ^ 32
  rw [Nat.mod_eq_of_lt h, Nat.mod_eq_of_lt (lt_trans h (by decide))]

/-- The weight: the padding bit flipped, read as a number — 1 where the bit is clear, 0 where it is set. -/
theorem V1_V (t : Tok) :
    (V1 m ρ c main_v13 : S131072x1.Idx → EReal) (ixP t) = (((I m c).vl t : ℝ) : EReal) := by
  rw [v13_eq]
  show FloatOps.uitofp (F := Ideal) .f32 (shapeCast S131072x1 (noti (x4 m c)) shapeCasts_S128x1024_S131072x1 (ixP t)) = _
  rw [rs_tokcol, Cert.IdealReal.uitofp_bit]
  show (((if ~~~(x4 m c (ix2 (tb t) (ts t))) = 1#1 then 1 else 0 : ℝ)) : EReal)
      = (((if x4 m c (ix2 (tb t) (ts t)) = 1#1 then 0 else 1 : ℝ)) : EReal)
  rcases BitVec.eq_zero_or_eq_one (x4 m c (ix2 (tb t) (ts t))) with h | h
  · rw [h, if_pos (by decide), if_neg (by decide)]
  · rw [h, if_neg (by decide), if_pos rfl]

/-- The first member of the pair: the old mean narrowed, which at the exact numbers changes nothing. -/
theorem V1_H (hG : GoodM m c) (k : Bin) (z : Ft) :
    (V1 m ρ c main_v17 : S3072x256.Idx → EReal) (ix2 k z) = (((I m c).mean0 k z : ℝ) : EReal) := by
  rw [v17_eq]
  show FloatOps.truncf (F := Ideal) .bf16 bitsLt_bf16_f32
      (shapeCast S3072x256 (x6 m c) shapeCasts_S3x32x32x256_S3072x256 (ix2 k z)) = _
  rw [Cert.IdealReal.truncf_id, rs_tab4]
  exact hG.fin6 _

/-- The second member: the old mean minus itself narrowed and widened, x − x = 0 for a real x. -/
theorem V1_L (hG : GoodM m c) (k : Bin) (z : Ft) :
    (V1 m ρ c main_v20 : S3072x256.Idx → EReal) (ix2 k z) = ((0 : ℝ) : EReal) := by
  rw [v20_eq]
  show FloatOps.truncf (F := Ideal) .bf16 bitsLt_bf16_f32
      (FloatOps.subf (F := Ideal) (shapeCast S3072x256 (x6 m c) shapeCasts_S3x32x32x256_S3072x256 (ix2 k z))
        (FloatOps.extf (F := Ideal) .f32 bitsLt_bf16_f32
          (FloatOps.truncf (F := Ideal) .bf16 bitsLt_bf16_f32
            (shapeCast S3072x256 (x6 m c) shapeCasts_S3x32x32x256_S3072x256 (ix2 k z))))) = _
  rw [Cert.IdealReal.truncf_id, rs_tab4, hG.fin6 _]
  exact Cert.IdealReal.subf_extf_truncf .bf16 bitsLt_bf16_f32 _

/-- Row k of the flattened old mean table is the argument's entry (k / 1024, k / 32 % 32, k % 32), a real number. -/
theorem V1_mean (hG : GoodM m c) (k : Bin) (z : Ft) :
    (V1 m ρ c main_v14 : S3072x256.Idx → EReal) (ix2 k z) = (((I m c).mean0 k z : ℝ) : EReal) := by
  rw [v14_eq, rs_tab4]
  exact hG.fin6 _

theorem V1_m2 (hG : GoodM m c) (k : Bin) (z : Ft) :
    (V1 m ρ c main_v15 : S3072x256.Idx → EReal) (ix2 k z) = (((I m c).m20 k z : ℝ) : EReal) := by
  rw [v15_eq, rs_tab4]
  exact hG.fin7 _

theorem V1_n (hG : GoodM m c) (k : Bin) :
    (V1 m ρ c main_v16 : S3072.Idx → EReal) (ix1 k) = (((I m c).n0 k : ℝ) : EReal) := by
  rw [v16_eq, rs_tab3]
  exact hG.fin5 _

end Cert.KernelIdeal.KHostA

end
-- ==== Proof.KPay.lean ====
/-
  The two kernel bodies' arithmetic, read at one entry, on the extended reals.

  A block holds 1024 tokens. The body compares each token's bin word with the bin numbers 0 … 3071: the one-hot entry
  (r, k) is 1 where token r's word is k and 0 elsewhere. A product of the one-hot matrix with a [3072 × 256] table
  gathers, per token, the table row of its bin; a product of its transpose with a [1024 × 256] block scatters the
  block's rows onto their bins, summing those that share one.
-/
import proofs.«414065_j58420145160519_3_alg».proof.Proof.Gen.KernelIdeal.Skeleton
import Idealize.ShloMosaic.PureOps.Ideal.Laws
import Idealize.ShloMosaic.Lib.ValueIdx
import Idealize.ShloMosaic.Lib.StableHlo.Predicate
import Idealize.ShloMosaic.Lib.Pipeline.Value

noncomputable section

open scoped BigOperators

namespace Cert.KernelIdeal.KPay

open Cert.KernelIdeal Cert.KernelIdeal.Gen
open Idealize.ShloMosaic Idealize.ShloMosaic.ValueIdx Idealize.ShloMosaic.StableHlo.Predicate

/-- The one-hot entry of a bin word against bin `k`. -/
def oh (w : BitVec 32) (k : Fin 3072) : EReal := if w = BitVec.ofNat 32 k.val then 1 else 0

/-! ## The one-hot matrix -/

/-- A bit widened to 32 bits and converted is 1 where set and 0 where clear. -/
theorem sitofp_bit (b : BitVec 1) :
    FloatOps.sitofp (F := Ideal) .f32 (b.setWidth 32) = if b = 1#1 then (1 : EReal) else 0 := by
  rcases BitVec.eq_zero_or_eq_one b with rfl | rfl
  · show (((BitVec.setWidth 32 0#1).toInt : ℝ) : EReal) = _
    simp
  · show (((BitVec.setWidth 32 1#1).toInt : ℝ) : EReal) = _
    simp

/-- A column of words broadcast along the bins reads, at (r, k), the word of row r. -/
theorem bcast_col_apply {α : Type} (v : S1024x1.Idx → α) (r : Fin 1024) (k : Fin 3072) :
    broadcastTo S1024x3072 v broadcasts_S1024x1_S1024x3072 (ix2 r k) = v (ixP r) :=
  broadcastTo_apply v _ _ _ fun a => match a with | ⟨0, _⟩ => rfl | ⟨1, _⟩ => rfl

/-- A column broadcast along the 256 features reads, at (r, z), the entry of row r. -/
theorem bcast_col256_apply {α : Type} (v : S1024x1.Idx → α) (r : Fin 1024) (z : Fin 256) :
    broadcastTo S1024x256 v broadcasts_S1024x1_S1024x256 (ix2 r z) = v (ixP r) :=
  broadcastTo_apply v _ _ _ fun a => match a with | ⟨0, _⟩ => rfl | ⟨1, _⟩ => rfl

/-- The row of bin numbers broadcast down the tokens reads, at (r, k), the number k. -/
theorem bcast_iota_apply (r : Fin 1024) (k : Fin 3072) :
    broadcastTo S1024x3072 (iota Kind.tc S1x3072 32 [1] iota_S1x3072_d1_w32) broadcasts_S1x3072_S1024x3072 (ix2 r k)
      = BitVec.ofNat 32 k.val := by
  refine (broadcastTo_apply _ _ _ (i1q k) fun a => match a with | ⟨0, _⟩ => rfl | ⟨1, _⟩ => rfl).trans ?_
  show BitVec.ofNat 32 (0 * 3072 + k.val) = _
  rw [Nat.zero_mul, Nat.zero_add]

/-- The one-hot matrix of a column of words, as both bodies write it: the column broadcast along the bins compared for
    equality with the bin numbers broadcast down the rows, the bit widened and converted. -/
def ohm (v : IVec S1024x1 32) : FVec Ideal S1024x3072 .bf16 :=
  truncf .bf16 (sitofp .f32 (extui 32 (cmpi .eq (broadcastTo S1024x3072 v broadcasts_S1024x1_S1024x3072)
    (broadcastTo S1024x3072 (iota Kind.tc S1x3072 32 [1] iota_S1x3072_d1_w32) broadcasts_S1x3072_S1024x3072)) natLt_1_32))
    bitsLt_bf16_f32

theorem ohm_apply (v : IVec S1024x1 32) (r : Fin 1024) (k : Fin 3072) : ohm v (ix2 r k) = oh (v (ixP r)) k := by
  -- the format change is the identity; the entry is the converted, widened bit of the comparison at (r, k)
  show FloatOps.sitofp (F := Ideal) .f32 ((IntOp.cmpi .eq (broadcastTo S1024x3072 v broadcasts_S1024x1_S1024x3072 (ix2 r k))
    (broadcastTo S1024x3072 (iota Kind.tc S1x3072 32 [1] iota_S1x3072_d1_w32) broadcasts_S1x3072_S1024x3072 (ix2 r k))).setWidth 32) = _
  rw [sitofp_bit, bcast_col_apply, bcast_iota_apply]
  exact if_congr cmpi_eq_iff rfl rfl

/-- The one-hot matrix of a block of bin words. -/
theorem pay6_apply (v3 : Vec Ideal S1024x1 .i32) (r : Fin 1024) (k : Fin 3072) :
    k0_pay6 (F := Ideal) v3 (ix2 r k) = oh (v3 (ixP r)) k := by
  unfold k0_pay6
  rw [shapeCast_self]
  exact ohm_apply v3 r k

/-! ## The gather: [1024 × 3072] · [3072 × 256], contracted over the 3072 bins -/

abbrev DG := dot_S1024x3072_S3072x256_S1024x256_1_0_0_1_n_n

/-- The operand indices of the gather's product, axis by axis: the left reads (row, bin), the right (bin, column). -/
theorem lhsG_0 (j : S1024x256.Idx) (q : DG.contr.Idx) : (DG.lhsIdx j q 0 : ℕ) = j 0 := by
  simp [DotDims.lhsIdx, DG, dot_S1024x3072_S3072x256_S1024x256_1_0_0_1_n_n]; rfl
theorem lhsG_1 (j : S1024x256.Idx) (q : DG.contr.Idx) : (DG.lhsIdx j q 1 : ℕ) = q ⟨0, by decide⟩ :=
  DG.lhsIdx_val_of_single (cl := 1) rfl j q
theorem rhsG_0 (j : S1024x256.Idx) (q : DG.contr.Idx) : (DG.rhsIdx j q 0 : ℕ) = q ⟨0, by decide⟩ :=
  DG.rhsIdx_val_of_single (cr := 0) rfl j q
theorem rhsG_1 (j : S1024x256.Idx) (q : DG.contr.Idx) : (DG.rhsIdx j q 1 : ℕ) = j 1 := by
  simp [DotDims.rhsIdx, DG, dot_S1024x3072_S3072x256_S1024x256_1_0_0_1_n_n]; rfl

/-- The gather's contraction index is the bin number. -/
def eG : DG.contr.Idx ≃ Fin 3072 := contrEquiv1 DG 3072 rfl rfl

theorem lhsG_eq (r : Fin 1024) (z : Fin 256) (k : Fin 3072) : DG.lhsIdx (ix2 r z) (eG.symm k) = ix2 r k := by
  funext a
  match a with
  | ⟨0, _⟩ => exact Fin.ext (lhsG_0 _ _)
  | ⟨1, _⟩ => exact Fin.ext ((lhsG_1 _ _).trans (contrEquiv1_symm_val DG 3072 rfl rfl k))

theorem rhsG_eq (r : Fin 1024) (z : Fin 256) (k : Fin 3072) : DG.rhsIdx (ix2 r z) (eG.symm k) = ix2 k z := by
  funext a
  match a with
  | ⟨0, _⟩ => exact Fin.ext ((rhsG_0 _ _).trans (contrEquiv1_symm_val DG 3072 rfl rfl k))
  | ⟨1, _⟩ => exact Fin.ext (rhsG_1 _ _)

/-- The gather into a zero block, at (r, z): the sum over the bins of  left (r, k) · right (k, z). -/
theorem gather_apply {φ₁ φ₂ : FTy} (A : FVec Ideal S1024x3072 φ₁) (B : FVec Ideal S3072x256 φ₂) (r : Fin 1024) (z : Fin 256) :
    matmul DG none A B (constant S1024x256 .f32 0x00000000#32) (ix2 r z) = ∑ k : Fin 3072, A (ix2 r k) * B (ix2 k z) := by
  refine (Ideal.matmul_constant_zero_apply DG none A B (ix2 r z)).trans ?_
  rw [← Equiv.sum_comp eG.symm]
  exact Finset.sum_congr rfl fun k _ => by rw [lhsG_eq, rhsG_eq]

/-- The deviation block: the feature entry minus the two gathered table entries' sum. -/
theorem pay8_apply (v3 : Vec Ideal S1024x1 .i32) (v12 v15 : Vec Ideal S3072x256 .bf16) (v19 : Vec Ideal S1024x256 .f32)
    (r : Fin 1024) (z : Fin 256) :
    k0_pay8 (F := Ideal) v3 v12 v15 v19 (ix2 r z)
      = v19 (ix2 r z) - ((∑ k : Fin 3072, oh (v3 (ixP r)) k * v12 (ix2 k z)) + ∑ k : Fin 3072, oh (v3 (ixP r)) k * v15 (ix2 k z)) := by
  unfold k0_pay8 k0_pay7
  rw [shapeCast_self, shapeCast_self, shapeCast_self]
  -- the difference and the sum are entrywise; each product is a gather into a zero block
  show v19 (ix2 r z) - (matmul DG none (k0_pay6 v3) v12 (constant S1024x256 .f32 0x00000000#32) (ix2 r z)
    + matmul DG none (k0_pay6 v3) v15 (constant S1024x256 .f32 0x00000000#32) (ix2 r z)) = _
  rw [gather_apply, gather_apply]
  simp only [pay6_apply]

/-! ## The count: [1024 × 1]ᵀ · [1024 × 3072], contracted over the 1024 rows -/

abbrev DC := dot_S1024x1_S1024x3072_S1x3072_0_0_1_1_n_n

/-- The operand indices of the count's product, axis by axis: the left reads (row, 0), the right (row, bin). -/
theorem lhsC_0 (j : S1x3072.Idx) (q : DC.contr.Idx) : (DC.lhsIdx j q 0 : ℕ) = q ⟨0, by decide⟩ :=
  DC.lhsIdx_val_of_single (cl := 0) rfl j q
theorem lhsC_1 (j : S1x3072.Idx) (q : DC.contr.Idx) : (DC.lhsIdx j q 1 : ℕ) = 0 :=
  Nat.lt_one_iff.1 (DC.lhsIdx j q 1).isLt
theorem rhsC_0 (j : S1x3072.Idx) (q : DC.contr.Idx) : (DC.rhsIdx j q 0 : ℕ) = q ⟨0, by decide⟩ :=
  DC.rhsIdx_val_of_single (cr := 0) rfl j q
theorem rhsC_1 (j : S1x3072.Idx) (q : DC.contr.Idx) : (DC.rhsIdx j q 1 : ℕ) = j 1 := by
  simp [DotDims.rhsIdx, DC, dot_S1024x1_S1024x3072_S1x3072_0_0_1_1_n_n]; rfl

/-- The count's contraction index is the row number. -/
def eC : DC.contr.Idx ≃ Fin 1024 := contrEquiv1 DC 1024 rfl rfl

theorem lhsC_eq (k : Fin 3072) (r : Fin 1024) : DC.lhsIdx (i1q k) (eC.symm r) = ixP r := by
  funext a
  match a with
  | ⟨0, _⟩ => exact Fin.ext ((lhsC_0 _ _).trans (contrEquiv1_symm_val DC 1024 rfl rfl r))
  | ⟨1, _⟩ => exact Fin.ext (lhsC_1 _ _)

theorem rhsC_eq (k : Fin 3072) (r : Fin 1024) : DC.rhsIdx (i1q k) (eC.symm r) = ix2 r k := by
  funext a
  match a with
  | ⟨0, _⟩ => exact Fin.ext ((rhsC_0 _ _).trans (contrEquiv1_symm_val DC 1024 rfl rfl r))
  | ⟨1, _⟩ => exact Fin.ext (rhsC_1 _ _)

/-- The count into a zero row, at bin k: the sum over the rows of  weight r · right (r, k). -/
theorem count_apply {φ₁ φ₂ : FTy} (A : FVec Ideal S1024x1 φ₁) (B : FVec Ideal S1024x3072 φ₂) (k : Fin 3072) :
    matmul DC none A B (constant S1x3072 .f32 0x00000000#32) (i1q k) = ∑ r : Fin 1024, A (ixP r) * B (ix2 r k) := by
  refine (Ideal.matmul_constant_zero_apply DC none A B (i1q k)).trans ?_
  rw [← Equiv.sum_comp eC.symm]
  exact Finset.sum_congr rfl fun r _ => by rw [lhsC_eq, rhsC_eq]

/-- The count row: what was there plus the block's weights scattered onto their bins. -/
theorem pay10_apply (v3 : Vec Ideal S1024x1 .i32) (v23 : Vec Ideal S1024x1 .f32) (v27 : Vec Ideal S1x1x3072 .f32) (k : Fin 3072) :
    k0_pay10 (F := Ideal) v3 v23 v27 (ix3 (0 : Fin 1) (0 : Fin 1) k)
      = v27 (ix3 (0 : Fin 1) (0 : Fin 1) k) + ∑ r : Fin 1024, v23 (ixP r) * oh (v3 (ixP r)) k := by
  unfold k0_pay10 k0_pay9
  -- the two casts between [1 × 3072] and [1 × 1 × 3072] keep the entries; the sum is entrywise
  refine (shapeCast_apply _ _ _ (i1q k) ?_).trans ?_
  · rw [Shape.rowMajor_val_two, Shape.rowMajor_val_three]; rfl
  show shapeCast S1x3072 v27 shapeCasts_S1x1x3072_S1x3072 (i1q k)
    + matmul DC none (shapeCast S1024x1 v23 shapeCasts_S1024x1_S1024x1) (k0_pay6 v3) (constant S1x3072 .f32 0x00000000#32) (i1q k) = _
  rw [shapeCast_self, count_apply]
  refine congrArg₂ (· + ·) (shapeCast_apply _ _ _ (ix3 (0 : Fin 1) (0 : Fin 1) k) ?_) ?_
  · rw [Shape.rowMajor_val_two, Shape.rowMajor_val_three]; rfl
  · simp only [pay6_apply]

/-! ## The scatter: [1024 × 3072]ᵀ · [1024 × 256], contracted over the 1024 rows -/

abbrev DS := dot_S1024x3072_S1024x256_S3072x256_0_0_1_1_n_n

/-- The operand indices of the scatter's product, axis by axis: the left reads (row, bin), the right (row, column). -/
theorem lhsS_0 (j : S3072x256.Idx) (q : DS.contr.Idx) : (DS.lhsIdx j q 0 : ℕ) = q ⟨0, by decide⟩ :=
  DS.lhsIdx_val_of_single (cl := 0) rfl j q
theorem lhsS_1 (j : S3072x256.Idx) (q : DS.contr.Idx) : (DS.lhsIdx j q 1 : ℕ) = j 0 := by
  simp [DotDims.lhsIdx, DS, dot_S1024x3072_S1024x256_S3072x256_0_0_1_1_n_n]; rfl
theorem rhsS_0 (j : S3072x256.Idx) (q : DS.contr.Idx) : (DS.rhsIdx j q 0 : ℕ) = q ⟨0, by decide⟩ :=
  DS.rhsIdx_val_of_single (cr := 0) rfl j q
theorem rhsS_1 (j : S3072x256.Idx) (q : DS.contr.Idx) : (DS.rhsIdx j q 1 : ℕ) = j 1 := by
  simp [DotDims.rhsIdx, DS, dot_S1024x3072_S1024x256_S3072x256_0_0_1_1_n_n]; rfl

/-- The scatter's contraction index is the row number. -/
def eS : DS.contr.Idx ≃ Fin 1024 := contrEquiv1 DS 1024 rfl rfl

theorem lhsS_eq (k : Fin 3072) (z : Fin 256) (r : Fin 1024) : DS.lhsIdx (ix2 k z) (eS.symm r) = ix2 r k := by
  funext a
  match a with
  | ⟨0, _⟩ => exact Fin.ext ((lhsS_0 _ _).trans (contrEquiv1_symm_val DS 1024 rfl rfl r))
  | ⟨1, _⟩ => exact Fin.ext (lhsS_1 _ _)

theorem rhsS_eq (k : Fin 3072) (z : Fin 256) (r : Fin 1024) : DS.rhsIdx (ix2 k z) (eS.symm r) = ix2 r z := by
  funext a
  match a with
  | ⟨0, _⟩ => exact Fin.ext ((rhsS_0 _ _).trans (contrEquiv1_symm_val DS 1024 rfl rfl r))
  | ⟨1, _⟩ => exact Fin.ext (rhsS_1 _ _)

/-- The scatter into a zero table, at (k, z): the sum over the rows of  left (r, k) · right (r, z). -/
theorem scatter_apply {φ₁ φ₂ : FTy} (A : FVec Ideal S1024x3072 φ₁) (B : FVec Ideal S1024x256 φ₂) (k : Fin 3072) (z : Fin 256) :
    matmul DS none A B (constant S3072x256 .f32 0x00000000#32) (ix2 k z) = ∑ r : Fin 1024, A (ix2 r k) * B (ix2 r z) := by
  refine (Ideal.matmul_constant_zero_apply DS none A B (ix2 k z)).trans ?_
  rw [← Equiv.sum_comp eS.symm]
  exact Finset.sum_congr rfl fun r _ => by rw [lhsS_eq, rhsS_eq]

/-- The weighted feature sums: what was there plus the block's weighted rows scattered onto their bins. -/
theorem pay1_apply (v11 : FVec Ideal S1024x3072 .bf16) (v20 : FVec Ideal S1024x256 .f32) (v24 : FVec Ideal S1024x1 .f32)
    (v37 : Vec Ideal S1x3072x256 .f32) (k : Fin 3072) (z : Fin 256) :
    k0_pay1 (F := Ideal) v11 v20 v24 v37 (ix3 (0 : Fin 1) k z)
      = v37 (ix3 (0 : Fin 1) k z) + ∑ r : Fin 1024, v11 (ix2 r k) * (v20 (ix2 r z) * v24 (ixP r)) := by
  unfold k0_pay1
  -- the two casts between [3072 × 256] and [1 × 3072 × 256] keep the entries; the sum is entrywise
  refine (shapeCast_apply _ _ _ (ix2 k z) ?_).trans ?_
  · rw [Shape.rowMajor_val_two, Shape.rowMajor_val_three]
    show k.val * 256 + z.val = (0 * 3072 + k.val) * 256 + z.val
    omega
  show shapeCast S3072x256 v37 shapeCasts_S1x3072x256_S3072x256 (ix2 k z)
    + matmul DS none v11 (mulf v20 (broadcastTo S1024x256 v24 broadcasts_S1024x1_S1024x256)) (constant S3072x256 .f32 0x00000000#32) (ix2 k z) = _
  rw [scatter_apply]
  refine congrArg₂ (· + ·) (shapeCast_apply _ _ _ (ix3 (0 : Fin 1) k z) ?_) ?_
  · rw [Shape.rowMajor_val_two, Shape.rowMajor_val_three]
    show (0 * 3072 + k.val) * 256 + z.val = k.val * 256 + z.val
    omega
  · exact Finset.sum_congr rfl fun r _ => by rw [mulf_apply, bcast_col256_apply]

/-- The weighted squared deviations, likewise. -/
theorem pay2_apply (v11 : FVec Ideal S1024x3072 .bf16) (v21 : FVec Ideal S1024x256 .f32) (v24 : FVec Ideal S1024x1 .f32)
    (v48 : Vec Ideal S1x3072x256 .f32) (k : Fin 3072) (z : Fin 256) :
    k0_pay2 (F := Ideal) v11 v21 v24 v48 (ix3 (0 : Fin 1) k z)
      = v48 (ix3 (0 : Fin 1) k z) + ∑ r : Fin 1024, v11 (ix2 r k) * (v21 (ix2 r z) * v21 (ix2 r z) * v24 (ixP r)) := by
  unfold k0_pay2
  refine (shapeCast_apply _ _ _ (ix2 k z) ?_).trans ?_
  · rw [Shape.rowMajor_val_two, Shape.rowMajor_val_three]
    show k.val * 256 + z.val = (0 * 3072 + k.val) * 256 + z.val
    omega
  show shapeCast S3072x256 v48 shapeCasts_S1x3072x256_S3072x256 (ix2 k z)
    + matmul DS none v11 (mulf (mulf v21 v21) (broadcastTo S1024x256 v24 broadcasts_S1024x1_S1024x256)) (constant S3072x256 .f32 0x00000000#32) (ix2 k z) = _
  rw [scatter_apply]
  refine congrArg₂ (· + ·) (shapeCast_apply _ _ _ (ix3 (0 : Fin 1) k z) ?_) ?_
  · rw [Shape.rowMajor_val_two, Shape.rowMajor_val_three]
    show (0 * 3072 + k.val) * 256 + z.val = k.val * 256 + z.val
    omega
  · exact Finset.sum_congr rfl fun r _ => by rw [mulf_apply, mulf_apply, bcast_col256_apply]

/-- The three resets write zero everywhere. -/
theorem pay3_apply (j : S1x1x3072.Idx) : k0_pay3 (F := Ideal) j = 0 := by
  show Ideal.ofBits .f32 0x00000000#32 = 0
  exact Ideal.ofBits_zero_f32
theorem pay4_apply (j : S1x3072x256.Idx) : k0_pay4 (F := Ideal) j = 0 := by
  show Ideal.ofBits .f32 0x00000000#32 = 0
  exact Ideal.ofBits_zero_f32
theorem pay5_apply (j : S1x3072x256.Idx) : k0_pay5 (F := Ideal) j = 0 := by
  show Ideal.ofBits .f32 0x00000000#32 = 0
  exact Ideal.ofBits_zero_f32

/-- The second kernel's block: (deviation − gathered move of the mean) · gathered factor, clamped to [−5, 5], times the weight. -/
theorem k1_pay1_apply (v0 : Vec Ideal S1024x1 .i32) (v9 v12 v16 v19 : Vec Ideal S3072x256 .bf16) (v23 : Vec Ideal S1024x256 .f32)
    (v31 : Vec Ideal S1024x1 .f32) (r : Fin 1024) (z : Fin 256) :
    k1_pay1 (F := Ideal) v0 v9 v12 v16 v19 v23 v31 (ix2 r z)
      = min (Ideal.ofBits .f32 0x40A00000#32) (max (Ideal.ofBits .f32 0xC0A00000#32)
          ((v23 (ix2 r z) - ((∑ k : Fin 3072, oh (v0 (ixP r)) k * v9 (ix2 k z)) + ∑ k : Fin 3072, oh (v0 (ixP r)) k * v12 (ix2 k z)))
            * ((∑ k : Fin 3072, oh (v0 (ixP r)) k * v16 (ix2 k z)) + ∑ k : Fin 3072, oh (v0 (ixP r)) k * v19 (ix2 k z))))
        * v31 (ixP r) := by
  unfold k1_pay1
  simp only [shapeCast_self]
  -- entrywise: a clamp of (difference · sum), times the weight column broadcast along the features
  show min (Ideal.ofBits .f32 0x40A00000#32) (max (Ideal.ofBits .f32 0xC0A00000#32)
      ((v23 (ix2 r z) - (matmul DG none (ohm v0) v9 (constant S1024x256 .f32 0x00000000#32) (ix2 r z)
          + matmul DG none (ohm v0) v12 (constant S1024x256 .f32 0x00000000#32) (ix2 r z)))
        * (matmul DG none (ohm v0) v16 (constant S1024x256 .f32 0x00000000#32) (ix2 r z)
          + matmul DG none (ohm v0) v19 (constant S1024x256 .f32 0x00000000#32) (ix2 r z))))
    * broadcastTo S1024x256 v31 broadcasts_S1024x1_S1024x256 (ix2 r z) = _
  simp only [gather_apply, ohm_apply, bcast_col256_apply]

end Cert.KernelIdeal.KPay

end
-- ==== Proof.KPieces0.lean ====
/-
  The first kernel's body, run once in each of its two control cases (a half's first block resets the three
  accumulators before adding; a later block adds to what is there): what each output's staging buffer then holds is
  the body's payload — one pure term of the loaded blocks — for that output.
-/
import proofs.«414065_j58420145160519_3_alg».proof.Proof.Gen.KernelIdeal.Frame
import Idealize.ShloMosaic.Lib.Pipeline.Value

set_option maxRecDepth 16384

noncomputable section

namespace Cert.KernelIdeal.KPieces0

open Cert.KernelIdeal Cert.KernelIdeal.Gen
open Idealize.ShloMosaic Idealize.ShloMosaic.TcCoe Idealize.ShloMosaic.Tactic
open Idealize.SL Idealize.SL.Sem

variable {F : FTy → Type} [FloatOps F]

/-- The offset vector of a whole-buffer rectangle of rank 2 is zero on every axis. -/
private theorem hz2 : (![0, 0] : Fin 2 → Nat) = fun _ => 0 := funext fun a => by fin_cases a <;> rfl

/-- The offset vector of a whole-buffer rectangle of rank 3 is zero on every axis. -/
private theorem hz3 : (![0, 0, 0] : Fin 3 → Nat) = fun _ => 0 := funext fun a => by fin_cases a <;> rfl

/-! Every store of this body writes a whole buffer, so what a buffer holds at the end is the payload of its last
    store; a load of a whole buffer reads the buffer's contents, and a load that follows a store of the same buffer
    reads that store's payload back. In the first case of the control the three accumulators are stored the reset
    value, read back, and stored the update over it; in the second they are read at what the block before left. -/

/-- At a half's first block output 5's buffer holds its payload of the point's input blocks. -/
theorem out0_A_5_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : cond0_0 i)
    (x0 : Vec F S1024x256 .f32) (x1 : Vec F S1024x1 .i32) (x2 : Vec F S1024x1 .f32) (x3 : Vec F S3072x256 .bf16) (x4 : Vec F S3072x256 .bf16) :
    out0_A_5 c i arg2 harg2 arg3 harg3 arg4 harg4 arg5 harg5 arg6 harg6 arg7 harg7 arg8 harg8 arg9 harg9 arg10 harg10 hc0 x0 x1 x2 x3 x4 = k0_pay8 x1 x3 x4 x0 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (S := S1024x256) hz2]
  simp only [View.readAt_eq_ld, harg2.read_unread, harg3.read_unread, harg5.read_unread, harg6.read_unread,
    View.ld_unit_zero (S := S1024x256) hz2, View.ld_unit_zero (S := S1024x1) hz2,
    View.ld_unit_zero (S := S3072x256) hz2]

/-- At a half's first block output 6's buffer holds its payload of the point's input blocks, over the reset value. -/
theorem out0_A_6_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : cond0_0 i)
    (x0 : Vec F S1024x256 .f32) (x1 : Vec F S1024x1 .i32) (x2 : Vec F S1024x1 .f32) (x3 : Vec F S3072x256 .bf16) (x4 : Vec F S3072x256 .bf16) :
    out0_A_6 c i arg2 harg2 arg3 harg3 arg4 harg4 arg5 harg5 arg6 harg6 arg7 harg7 arg8 harg8 arg9 harg9 arg10 harg10 hc0 x0 x1 x2 x3 x4 = k0_pay10 x1 x2 (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x1x3072) hz3, View.readCov_unit_zero (S := S1x1x3072) _ hz3]
  simp only [View.readAt_eq_ld, harg3.read_unread, harg4.read_unread, View.ld_unit_zero (S := S1024x1) hz2]

/-- At a half's first block output 7's buffer holds its payload of the point's input blocks, over the reset value. -/
theorem out0_A_7_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : cond0_0 i)
    (x0 : Vec F S1024x256 .f32) (x1 : Vec F S1024x1 .i32) (x2 : Vec F S1024x1 .f32) (x3 : Vec F S3072x256 .bf16) (x4 : Vec F S3072x256 .bf16) :
    out0_A_7 c i arg2 harg2 arg3 harg3 arg4 harg4 arg5 harg5 arg6 harg6 arg7 harg7 arg8 harg8 arg9 harg9 arg10 harg10 hc0 x0 x1 x2 x3 x4 = k0_pay1 (k0_pay6 x1) (k0_pay7 x0) (k0_pay9 x2) (k0_pay4 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x3072x256) hz3, View.readCov_unit_zero (S := S1x3072x256) _ hz3]
  simp only [View.readAt_eq_ld, harg2.read_unread, harg3.read_unread, harg4.read_unread,
    View.ld_unit_zero (S := S1024x256) hz2, View.ld_unit_zero (S := S1024x1) hz2]

/-- At a half's first block output 8's buffer holds its payload of the point's input blocks, over the reset value. -/
theorem out0_A_8_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : cond0_0 i)
    (x0 : Vec F S1024x256 .f32) (x1 : Vec F S1024x1 .i32) (x2 : Vec F S1024x1 .f32) (x3 : Vec F S3072x256 .bf16) (x4 : Vec F S3072x256 .bf16) :
    out0_A_8 c i arg2 harg2 arg3 harg3 arg4 harg4 arg5 harg5 arg6 harg6 arg7 harg7 arg8 harg8 arg9 harg9 arg10 harg10 hc0 x0 x1 x2 x3 x4 = k0_pay2 (k0_pay6 x1) (k0_pay8 x1 x3 x4 x0) (k0_pay9 x2) (k0_pay5 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x3072x256) hz3, View.readCov_unit_zero (S := S1x3072x256) _ hz3]
  simp only [View.readAt_eq_ld, harg2.read_unread, harg3.read_unread, harg4.read_unread, harg5.read_unread,
    harg6.read_unread, View.ld_unit_zero (S := S1024x256) hz2, View.ld_unit_zero (S := S1024x1) hz2,
    View.ld_unit_zero (S := S3072x256) hz2]

/-- At a later block output 5's buffer holds its payload of the point's input blocks. -/
theorem out0_B_5_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : ¬cond0_0 i)
    (x0 : Vec F S1024x256 .f32) (x1 : Vec F S1024x1 .i32) (x2 : Vec F S1024x1 .f32) (x3 : Vec F S3072x256 .bf16) (x4 : Vec F S3072x256 .bf16) (xo6 : Vec F S1x1x3072 .f32) (xo7 : Vec F S1x3072x256 .f32) (xo8 : Vec F S1x3072x256 .f32) :
    out0_B_5 c i arg2 harg2 arg3 harg3 arg4 harg4 arg5 harg5 arg6 harg6 arg7 harg7 arg8 harg8 arg9 harg9 arg10 harg10 hc0 x0 x1 x2 x3 x4 xo6 xo7 xo8 = k0_pay8 x1 x3 x4 x0 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo6 xo7 xo8)]
  unfold kernelRun0_B
  dsimp only
  sl_unfold_words
  rw [View.canon_unit_zero (S := S1024x256) hz2]
  simp only [View.readAt_eq_ld, harg2.read_unread, harg3.read_unread, harg5.read_unread, harg6.read_unread,
    View.ld_unit_zero (S := S1024x256) hz2, View.ld_unit_zero (S := S1024x1) hz2,
    View.ld_unit_zero (S := S3072x256) hz2]

/-- At a later block output 6's buffer holds its payload of the point's input blocks, over what the block before left. -/
theorem out0_B_6_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : ¬cond0_0 i)
    (x0 : Vec F S1024x256 .f32) (x1 : Vec F S1024x1 .i32) (x2 : Vec F S1024x1 .f32) (x3 : Vec F S3072x256 .bf16) (x4 : Vec F S3072x256 .bf16) (xo6 : Vec F S1x1x3072 .f32) (xo7 : Vec F S1x3072x256 .f32) (xo8 : Vec F S1x3072x256 .f32) :
    out0_B_6 c i arg2 harg2 arg3 harg3 arg4 harg4 arg5 harg5 arg6 harg6 arg7 harg7 arg8 harg8 arg9 harg9 arg10 harg10 hc0 x0 x1 x2 x3 x4 xo6 xo7 xo8 = k0_pay10 x1 x2 xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo6 xo7 xo8)]
  unfold kernelRun0_B
  dsimp only
  sl_unfold_words
  rw [View.canon_unit_zero (S := S1x1x3072) hz3]
  simp only [View.readAt_eq_ld, harg3.read_unread, harg4.read_unread, harg8.read_unread,
    View.ld_unit_zero (S := S1024x1) hz2, View.ld_unit_zero (S := S1x1x3072) hz3]

/-- At a later block output 7's buffer holds its payload of the point's input blocks, over what the block before left. -/
theorem out0_B_7_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : ¬cond0_0 i)
    (x0 : Vec F S1024x256 .f32) (x1 : Vec F S1024x1 .i32) (x2 : Vec F S1024x1 .f32) (x3 : Vec F S3072x256 .bf16) (x4 : Vec F S3072x256 .bf16) (xo6 : Vec F S1x1x3072 .f32) (xo7 : Vec F S1x3072x256 .f32) (xo8 : Vec F S1x3072x256 .f32) :
    out0_B_7 c i arg2 harg2 arg3 harg3 arg4 harg4 arg5 harg5 arg6 harg6 arg7 harg7 arg8 harg8 arg9 harg9 arg10 harg10 hc0 x0 x1 x2 x3 x4 xo6 xo7 xo8 = k0_pay1 (k0_pay6 x1) (k0_pay7 x0) (k0_pay9 x2) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 xo6 xo7 xo8)]
  unfold kernelRun0_B
  dsimp only
  sl_unfold_words
  rw [View.canon_unit_zero (S := S1x3072x256) hz3]
  simp only [View.readAt_eq_ld, harg2.read_unread, harg3.read_unread, harg4.read_unread, harg9.read_unread,
    View.ld_unit_zero (S := S1024x256) hz2, View.ld_unit_zero (S := S1024x1) hz2,
    View.ld_unit_zero (S := S1x3072x256) hz3]

/-- At a later block output 8's buffer holds its payload of the point's input blocks, over what the block before left. -/
theorem out0_B_8_eq (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S3072x256 .bf16) (harg5 : arg5.IsWhole) (arg6 : Memref sig .tc .vmem S3072x256 .bf16) (harg6 : arg6.IsWhole) (arg7 : Memref sig .tc .vmem S1024x256 .f32) (harg7 : arg7.IsWhole) (arg8 : Memref sig .tc .vmem S1x1x3072 .f32) (harg8 : arg8.IsWhole) (arg9 : Memref sig .tc .vmem S1x3072x256 .f32) (harg9 : arg9.IsWhole) (arg10 : Memref sig .tc .vmem S1x3072x256 .f32) (harg10 : arg10.IsWhole) (hc0 : ¬cond0_0 i)
    (x0 : Vec F S1024x256 .f32) (x1 : Vec F S1024x1 .i32) (x2 : Vec F S1024x1 .f32) (x3 : Vec F S3072x256 .bf16) (x4 : Vec F S3072x256 .bf16) (xo6 : Vec F S1x1x3072 .f32) (xo7 : Vec F S1x3072x256 .f32) (xo8 : Vec F S1x3072x256 .f32) :
    out0_B_8 c i arg2 harg2 arg3 harg3 arg4 harg4 arg5 harg5 arg6 harg6 arg7 harg7 arg8 harg8 arg9 harg9 arg10 harg10 hc0 x0 x1 x2 x3 x4 xo6 xo7 xo8 = k0_pay2 (k0_pay6 x1) (k0_pay8 x1 x3 x4 x0) (k0_pay9 x2) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 xo6 xo7 xo8)]
  unfold kernelRun0_B
  dsimp only
  sl_unfold_words
  rw [View.canon_unit_zero (S := S1x3072x256) hz3]
  simp only [View.readAt_eq_ld, harg2.read_unread, harg3.read_unread, harg4.read_unread, harg5.read_unread,
    harg6.read_unread, harg10.read_unread, View.ld_unit_zero (S := S1024x256) hz2,
    View.ld_unit_zero (S := S1024x1) hz2, View.ld_unit_zero (S := S3072x256) hz2,
    View.ld_unit_zero (S := S1x3072x256) hz3]

end Cert.KernelIdeal.KPieces0

end
-- ==== Proof.KReg0.lean ====
/-
  What the first kernel leaves in its four output arrays, from the arrays it is entered with.

  The grid is 2 halves × 64 blocks of 1024 tokens: token (h, i, r) is number (h·64 + i)·1024 + r. The deviation array
  is written block by block. The three per-half accumulators are reset at a half's first block and added to at each
  of its 64 blocks, so after the run half h's accumulator holds the sum over its 64 · 1024 tokens.
-/
import proofs.«414065_j58420145160519_3_alg».proof.Proof.Gen.KernelIdeal.Frame
import proofs.«414065_j58420145160519_3_alg».proof.Proof.KPay
import proofs.«414065_j58420145160519_3_alg».proof.Proof.KPieces0
import Idealize.ShloMosaic.Lib.Pipeline.Value

set_option maxRecDepth 16384

noncomputable section

open scoped BigOperators

namespace Cert.KernelIdeal.KReg0

open Cert.KernelIdeal Cert.KernelIdeal.Gen Cert.KernelIdeal.KPay
open Idealize.ShloMosaic Idealize.ShloMosaic.TcCoe Idealize.ShloMosaic.ValueIdx Idealize.ShloMosaic.StableHlo.Predicate

variable (V : (c : Dev nD) → (b : Ref sig .tc) → Buf (Elt Ideal) ((c : Thread nD τ).loc b))

/-- Token (half, block, row). -/
def tok (h : Fin 2) (i : Fin 64) (r : Fin 1024) : Fin 131072 :=
  ⟨(h.val * 64 + i.val) * 1024 + r.val, by have := h.isLt; have := i.isLt; have := r.isLt; omega⟩

/-- The region's five input arrays, at their literal types: features, bin words, weights, and the two tables. -/
abbrev aP (c : Dev nD) : S131072x256.Idx → EReal := V c main_v0
abbrev aI (c : Dev nD) : S131072x1.Idx → BitVec 32 := V c main_v10
abbrev aV (c : Dev nD) : S131072x1.Idx → EReal := V c main_v13
abbrev aH (c : Dev nD) : S3072x256.Idx → EReal := V c main_v17
abbrev aL (c : Dev nD) : S3072x256.Idx → EReal := V c main_v20

/-- A token's deviation: its feature entry minus the two table entries gathered at its bin. -/
def dev (c : Dev nD) (t : Fin 131072) (z : Fin 256) : EReal :=
  aP V c (ix2 t z) - ((∑ k : Fin 3072, oh (aI V c (ixP t)) k * aH V c (ix2 k z)) + ∑ k : Fin 3072, oh (aI V c (ixP t)) k * aL V c (ix2 k z))

/-! ## The windows' blocks as rows of the arrays -/

/-- The printed index maps of the input windows, over the grid: a token-indexed window is at block n of 1024
    rows at point n, the two tables at block 0. -/
theorem idxIn : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The printed index maps of the output windows: the deviation's is at block n, an accumulator's at block n / 64
    (its half). -/
theorem idxOut : ∀ t : Fin cfg0.N,
    win0_5.index t (0 : Fin 2) = t.val ∧ win0_5.index t (1 : Fin 2) = 0
    ∧ win0_6.index t (0 : Fin 3) = t.val / 64 ∧ win0_6.index t (1 : Fin 3) = 0 ∧ win0_6.index t (2 : Fin 3) = 0
    ∧ win0_7.index t (0 : Fin 3) = t.val / 64 ∧ win0_7.index t (1 : Fin 3) = 0 ∧ win0_7.index t (2 : Fin 3) = 0
    ∧ win0_8.index t (0 : Fin 3) = t.val / 64 ∧ win0_8.index t (1 : Fin 3) = 0 ∧ win0_8.index t (2 : Fin 3) = 0 :=
  (by decide +kernel : ∀ t : Fin grid0.N, _)

/-- The five input blocks at a point, at their literal types. -/
abbrev bP (c : Dev nD) (t : Fin cfg0.N) : Vec Ideal S1024x256 .f32 := iblk0 V c 0 t
abbrev bI (c : Dev nD) (t : Fin cfg0.N) : Vec Ideal S1024x1 .i32 := iblk0 V c 1 t
abbrev bV (c : Dev nD) (t : Fin cfg0.N) : Vec Ideal S1024x1 .f32 := iblk0 V c 2 t
abbrev bH (c : Dev nD) (t : Fin cfg0.N) : Vec Ideal S3072x256 .bf16 := iblk0 V c 3 t
abbrev bL (c : Dev nD) (t : Fin cfg0.N) : Vec Ideal S3072x256 .bf16 := iblk0 V c 4 t

/-- Row r of the feature block at point n is row n · 1024 + r of the feature array. -/
theorem bP_apply (c : Dev nD) (t : Fin cfg0.N) (r : Fin 1024) (z : Fin 256) (T : Fin 131072)
    (hT : T.val = t.val * 1024 + r.val) :
    bP V c t (ix2 r z) = aP V c (ix2 T z) := by
  unfold bP iblk0
  rw [View.read_apply]
  show V c main_v0 _ = V c main_v0 _
  congr 1
  funext a
  apply Fin.ext
  match a with
  | ⟨0, _⟩ => show win0_0.index t (0 : Fin 2) * 1024 + 1 * r.val = T.val; rw [(idxIn t).1, hT]; omega
  | ⟨1, _⟩ => show win0_0.index t (1 : Fin 2) * 256 + 1 * z.val = z.val; rw [(idxIn t).2.1]; omega

/-- Row r of the bin-word block at point n is row n · 1024 + r of the bin-word array. -/
theorem bI_apply (c : Dev nD) (t : Fin cfg0.N) (r : Fin 1024) (T : Fin 131072)
    (hT : T.val = t.val * 1024 + r.val) :
    bI V c t (ixP r) = aI V c (ixP T) := by
  unfold bI iblk0
  rw [View.read_apply]
  show V c main_v10 _ = V c main_v10 _
  congr 1
  funext a
  apply Fin.ext
  match a with
  | ⟨0, _⟩ => show win0_1.index t (0 : Fin 2) * 1024 + 1 * r.val = T.val; rw [(idxIn t).2.2.1, hT]; omega
  | ⟨1, _⟩ => show win0_1.index t (1 : Fin 2) * 1 + 1 * 0 = 0; rw [(idxIn t).2.2.2.1]

/-- Row r of the weight block at point n is row n · 1024 + r of the weight array. -/
theorem bV_apply (c : Dev nD) (t : Fin cfg0.N) (r : Fin 1024) (T : Fin 131072)
    (hT : T.val = t.val * 1024 + r.val) :
    bV V c t (ixP r) = aV V c (ixP T) := by
  unfold bV iblk0
  rw [View.read_apply]
  show V c main_v13 _ = V c main_v13 _
  congr 1
  funext a
  apply Fin.ext
  match a with
  | ⟨0, _⟩ => show win0_2.index t (0 : Fin 2) * 1024 + 1 * r.val = T.val; rw [(idxIn t).2.2.2.2.1, hT]; omega
  | ⟨1, _⟩ => show win0_2.index t (1 : Fin 2) * 1 + 1 * 0 = 0; rw [(idxIn t).2.2.2.2.2.1]

/-- The first table's block at any point is the whole table. -/
theorem bH_apply (c : Dev nD) (t : Fin cfg0.N) (k : Fin 3072) (z : Fin 256) :
    bH V c t (ix2 k z) = aH V c (ix2 k z) := by
  unfold bH iblk0
  rw [View.read_apply]
  show V c main_v17 _ = V c main_v17 _
  congr 1
  funext a
  apply Fin.ext
  match a with
  | ⟨0, _⟩ => show win0_3.index t (0 : Fin 2) * 3072 + 1 * k.val = k.val; rw [(idxIn t).2.2.2.2.2.2.1]; omega
  | ⟨1, _⟩ => show win0_3.index t (1 : Fin 2) * 256 + 1 * z.val = z.val; rw [(idxIn t).2.2.2.2.2.2.2.1]; omega

/-- The second table's block at any point is the whole table. -/
theorem bL_apply (c : Dev nD) (t : Fin cfg0.N) (k : Fin 3072) (z : Fin 256) :
    bL V c t (ix2 k z) = aL V c (ix2 k z) := by
  unfold bL iblk0
  rw [View.read_apply]
  show V c main_v20 _ = V c main_v20 _
  congr 1
  funext a
  apply Fin.ext
  match a with
  | ⟨0, _⟩ => show win0_4.index t (0 : Fin 2) * 3072 + 1 * k.val = k.val; rw [(idxIn t).2.2.2.2.2.2.2.2.1]; omega
  | ⟨1, _⟩ => show win0_4.index t (1 : Fin 2) * 256 + 1 * z.val = z.val; rw [(idxIn t).2.2.2.2.2.2.2.2.2]; omega

/-- The two identity shape casts of the body. -/
theorem pay7_eq (v : Vec Ideal S1024x256 .f32) : k0_pay7 (F := Ideal) v = v := by
  unfold k0_pay7; exact shapeCast_self v _
theorem pay9_eq (v : Vec Ideal S1024x1 .f32) : k0_pay9 (F := Ideal) v = v := by
  unfold k0_pay9; exact shapeCast_self v _

/-- The deviation block at point n, read at row r: the deviation of token n · 1024 + r. -/
theorem pay8_blk (c : Dev nD) (t : Fin cfg0.N) (r : Fin 1024) (z : Fin 256) (T : Fin 131072)
    (hT : T.val = t.val * 1024 + r.val) :
    k0_pay8 (F := Ideal) (bI V c t) (bH V c t) (bL V c t) (bP V c t) (ix2 r z) = dev V c T z := by
  refine (pay8_apply (bI V c t) (bH V c t) (bL V c t) (bP V c t) r z).trans ?_
  unfold dev
  rw [bP_apply V c t r z T hT, bI_apply V c t r T hT]
  congr 2
  · exact Finset.sum_congr rfl fun k _ => by rw [bH_apply V c t k z]
  · exact Finset.sum_congr rfl fun k _ => by rw [bL_apply V c t k z]

/-! ## Output 5: the deviation array, written block by block -/

/-- After every point the deviation's buffer holds the deviation block of the point's input blocks, in both control cases. -/
theorem out5_at (c : Dev nD) (t : Fin cfg0.N) :
    (outsAt0 V c t.val t.isLt).1 = k0_pay8 (F := Ideal) (bI V c t) (bH V c t) (bL V c t) (bP V c t) := by
  by_cases h0 : t.val % 64 = 0
  · rw [outsAt0_A V c t h0]
    dsimp only
    exact KPieces0.out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bP V c t) (bI V c t) (bV V c t) (bH V c t) (bL V c t)
  · rw [outsAt0_B V c t h0]
    dsimp only
    exact KPieces0.out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (bP V c t) (bI V c t) (bV V c t) (bH V c t) (bL V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- The whole deviation array: entry (t, z) is token t's deviation at feature z. -/
abbrev G5 (c : Dev nD) : S131072x256.Idx → EReal := fun j => dev V c (j 0) (j 1)

/-- The deviation array read at an index given by its coordinates. -/
theorem G5_at (c : Dev nD) (j : S131072x256.Idx) (T : Fin 131072) (z : Fin 256) (h0 : (j 0).val = T.val) (h1 : (j 1).val = z.val) :
    G5 V c j = dev V c T z := by
  obtain rfl : j = ix2 T z := funext fun a => Fin.ext (match a with | ⟨0, _⟩ => h0 | ⟨1, _⟩ => h1)
  rfl

/-- What point n writes back is block n of the deviation array: row r of the block is token n · 1024 + r. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5, out5_at]
  funext j
  obtain ⟨r, z, rfl⟩ : ∃ (r : Fin 1024) (z : Fin 256), j = ix2 r z := ⟨j 0, j 1, eq_ix2 j⟩
  rw [View.read_apply]
  have hN : t.val < 128 := lt_of_lt_of_eq t.isLt (show cfg0.N = 128 from N_0)
  refine (pay8_blk V c t r z ⟨t.val * 1024 + r.val, by have := r.isLt; omega⟩ rfl).trans (G5_at V c _ _ z ?_ ?_).symm
  · show win0_5.index t (0 : Fin 2) * 1024 + 1 * r.val = t.val * 1024 + r.val
    rw [(idxOut t).1]; omega
  · show win0_5.index t (1 : Fin 2) * 256 + 1 * z.val = z.val
    rw [(idxOut t).2.1]; omega

/-- Row i of the deviation array lies in the block of point i / 1024, and every point writes its block back. -/
theorem cover5 (i : S131072x256.Idx) :
    ∃ t : Fin cfg0.N, (cfg0.win 5).flush t = true ∧ i ∈ ((cfg0.win 5).blk t).view.set := by
  have h0 : (i 0).val < 131072 := (i 0).isLt
  have h1 : (i 1).val < 256 := (i 1).isLt
  have hn : (i 0).val / 1024 < cfg0.N := by show _ < grid0.N; rw [N_0]; omega
  refine ⟨⟨(i 0).val / 1024, hn⟩, flush0_5 _, ?_⟩
  show i ∈ ((View.whole main_v21_0).slice (win0_5.rect ⟨(i 0).val / 1024, hn⟩)).set
  rw [View.set_slice_whole, Rect.mem_set_unit]
  intro a
  match a with
  | ⟨0, _⟩ =>
    show win0_5.index ⟨(i 0).val / 1024, hn⟩ (0 : Fin 2) * 1024 ≤ (i 0).val ∧ (i 0).val < win0_5.index ⟨(i 0).val / 1024, hn⟩ (0 : Fin 2) * 1024 + 1024
    rw [(idxOut ⟨(i 0).val / 1024, hn⟩).1]; dsimp only; omega
  | ⟨1, _⟩ =>
    show win0_5.index ⟨(i 0).val / 1024, hn⟩ (1 : Fin 2) * 256 ≤ (i 1).val ∧ (i 1).val < win0_5.index ⟨(i 0).val / 1024, hn⟩ (1 : Fin 2) * 256 + 256
    rw [(idxOut ⟨(i 0).val / 1024, hn⟩).2.1]; omega

theorem arr5 (c : Dev nD) (t : Fin 131072) (z : Fin 256) :
    ((dat0 V c).arrAt 5 cfg0.N : S131072x256.Idx → EReal) (ix2 t z) = dev V c t z := by
  -- every point's write-back is its block of one array, and the blocks cover it
  have hfin : (dat0 V c).arrAt 5 cfg0.N = G5 V c :=
    (dat0 V c).arrAt_eq_of_cover 5 (G5 V c) (fun n _ => flushed5_eq V c n) cover5
  exact congrFun hfin (ix2 t z)

/-! ## The accumulators: the fold over a half's 64 blocks -/

/-- Token n · 1024 + r of grid point n (reduced into the token range, which no grid point leaves). -/
def tk (n : ℕ) (r : Fin 1024) : Fin 131072 := ⟨(n * 1024 + r.val) % 131072, Nat.mod_lt _ (by norm_num)⟩

theorem tk_val (t : Fin cfg0.N) (r : Fin 1024) : (tk t.val r).val = t.val * 1024 + r.val := by
  have hN : t.val < 128 := lt_of_lt_of_eq t.isLt (show cfg0.N = 128 from N_0)
  have hr := r.isLt
  show (t.val * 1024 + r.val) % 131072 = _
  omega

/-- A point-indexed quantity, read through e, that is set to the point's addend at the multiples of 64 and grows by the
    point's addend at every other point is, at point 64 q + j, the sum of the addends of points 64 q … 64 q + j. -/
theorem run_sum {α : Type} {N : ℕ} (f : (n : ℕ) → n < N → α) (e : α → EReal) (M : ℕ → EReal)
    (h0 : ∀ (n : ℕ) (h : n < N), n % 64 = 0 → e (f n h) = M n)
    (hs : ∀ (n : ℕ) (h : n + 1 < N), ¬(n + 1) % 64 = 0 → e (f (n + 1) h) = e (f n (Nat.lt_of_succ_lt h)) + M (n + 1))
    (q : ℕ) : ∀ (j : ℕ) (_ : j < 64) (h : 64 * q + j < N),
      e (f (64 * q + j) h) = ∑ s ∈ Finset.range (j + 1), M (64 * q + s)
  | 0, _, h => by rw [Finset.sum_range_one]; exact h0 _ h (by omega)
  | j + 1, hj, h => by
    rw [Finset.sum_range_succ, ← run_sum f e M h0 hs q j (Nat.lt_of_succ_lt hj) (Nat.lt_of_succ_lt h)]
    exact hs (64 * q + j) h (by omega)

/-- The same at any point t: it lies in the run that starts at 64 (t / 64), at offset t % 64. -/
theorem run_sum_at {α : Type} {N : ℕ} (f : (n : ℕ) → n < N → α) (e : α → EReal) (M : ℕ → EReal)
    (h0 : ∀ (n : ℕ) (h : n < N), n % 64 = 0 → e (f n h) = M n)
    (hs : ∀ (n : ℕ) (h : n + 1 < N), ¬(n + 1) % 64 = 0 → e (f (n + 1) h) = e (f n (Nat.lt_of_succ_lt h)) + M (n + 1))
    (t : ℕ) (ht : t < N) :
    e (f t ht) = ∑ s ∈ Finset.range (t % 64 + 1), M (64 * (t / 64) + s) := by
  have same : ∀ (u : ℕ) (hu : u < N), u = t → e (f u hu) = e (f t ht) := fun u hu h => by subst h; rfl
  have hu : 64 * (t / 64) + t % 64 < N := by rw [Nat.div_add_mod]; exact ht
  rw [← same (64 * (t / 64) + t % 64) hu (Nat.div_add_mod t 64)]
  exact run_sum f e M h0 hs (t / 64) (t % 64) (Nat.mod_lt t (by norm_num)) hu

/-! ## Output 6: the weight of each bin, per half -/

/-- Block n's part of bin k's weight: the weights of its tokens whose bin is k. -/
def T6 (c : Dev nD) (n : ℕ) (k : Fin 3072) : EReal :=
  ∑ r : Fin 1024, aV V c (ixP (tk n r)) * oh (aI V c (ixP (tk n r))) k

/-- One point's update of the weight row: what was there plus the block's part. -/
theorem step6 (c : Dev nD) (t : Fin cfg0.N) (prev : Vec Ideal S1x1x3072 .f32) (k : Fin 3072) :
    k0_pay10 (F := Ideal) (bI V c t) (bV V c t) prev (ix3 (0 : Fin 1) (0 : Fin 1) k)
      = prev (ix3 (0 : Fin 1) (0 : Fin 1) k) + T6 V c t.val k := by
  refine (pay10_apply (bI V c t) (bV V c t) prev k).trans ?_
  unfold T6
  refine congrArg (prev (ix3 (0 : Fin 1) (0 : Fin 1) k) + ·) (Finset.sum_congr rfl fun r _ => ?_)
  rw [bV_apply V c t r (tk t.val r) (tk_val t r), bI_apply V c t r (tk t.val r) (tk_val t r)]

/-- At a half's first block the row is reset, so it then holds the block's part alone. -/
theorem acc6_A (c : Dev nD) (t : Fin cfg0.N) (h0 : t.val % 64 = 0) (k : Fin 3072) :
    (outsAt0 V c t.val t.isLt).2.1 (ix3 (0 : Fin 1) (0 : Fin 1) k) = T6 V c t.val k := by
  rw [outsAt0_A V c t h0]
  dsimp only
  refine (congrFun (KPieces0.out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bP V c t) (bI V c t) (bV V c t) (bH V c t) (bL V c t)) (ix3 (0 : Fin 1) (0 : Fin 1) k)).trans ?_
  refine (step6 V c t (k0_pay3 (F := Ideal)) k).trans ?_
  rw [pay3_apply, zero_add]

/-- At a later block the row grows by the block's part. -/
theorem acc6_B (c : Dev nD) (t : Fin cfg0.N) (h0 : ¬t.val % 64 = 0) (k : Fin 3072) :
    (outsAt0 V c t.val t.isLt).2.1 (ix3 (0 : Fin 1) (0 : Fin 1) k)
      = (outsAt0 V c (t.val - 1) (Nat.lt_of_le_of_lt (Nat.sub_le _ _) t.isLt)).2.1 (ix3 (0 : Fin 1) (0 : Fin 1) k) + T6 V c t.val k := by
  rw [outsAt0_B V c t h0]
  dsimp only
  refine (congrFun (KPieces0.out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (bP V c t) (bI V c t) (bV V c t) (bH V c t) (bL V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) (0 : Fin 1) k)).trans ?_
  exact step6 V c t _ k

/-- After point t the row holds the parts of the blocks of t's half up to t. -/
theorem acc6_at (c : Dev nD) (k : Fin 3072) (t : ℕ) (ht : t < cfg0.N) :
    (outsAt0 V c t ht).2.1 (ix3 (0 : Fin 1) (0 : Fin 1) k) = ∑ s ∈ Finset.range (t % 64 + 1), T6 V c (64 * (t / 64) + s) k :=
  run_sum_at (fun n hn => (outsAt0 V c n hn).2.1) (fun x => x (ix3 (0 : Fin 1) (0 : Fin 1) k)) (fun n => T6 V c n k)
    (fun n h hm => acc6_A V c ⟨n, h⟩ hm k)
    (fun n h hm => acc6_B V c ⟨n + 1, h⟩ hm k) t ht

/-- A half's 64 block parts are the sum over its 64 · 1024 tokens. -/
theorem half6 (c : Dev nD) (h : Fin 2) (k : Fin 3072) :
    ∑ s ∈ Finset.range 64, T6 V c (64 * h.val + s) k
      = ∑ i : Fin 64, ∑ r : Fin 1024, aV V c (ixP (tok h i r)) * oh (aI V c (ixP (tok h i r))) k := by
  rw [Finset.sum_range]
  refine Finset.sum_congr rfl fun i _ => ?_
  unfold T6
  refine Finset.sum_congr rfl fun r _ => ?_
  have e : tk (64 * h.val + i.val) r = tok h i r := Fin.ext (by
    show ((64 * h.val + i.val) * 1024 + r.val) % 131072 = (h.val * 64 + i.val) * 1024 + r.val
    have := h.isLt; have := i.isLt; have := r.isLt; omega)
  rw [e]

/-- The whole weight array: entry (h, 0, k) is the weight of bin k among half h's tokens. -/
abbrev G6 (c : Dev nD) : S2x1x3072.Idx → EReal := fun j =>
  ∑ i : Fin 64, ∑ r : Fin 1024, aV V c (ixP (tok (j 0) i r)) * oh (aI V c (ixP (tok (j 0) i r))) (j 2)

theorem G6_at (c : Dev nD) (j : S2x1x3072.Idx) (h : Fin 2) (k : Fin 3072) (h0 : (j 0).val = h.val) (h2 : (j 2).val = k.val) :
    G6 V c j = ∑ i : Fin 64, ∑ r : Fin 1024, aV V c (ixP (tok h i r)) * oh (aI V c (ixP (tok h i r))) k := by
  have h1 : (j 1).val < 1 := (j 1).isLt
  obtain rfl : j = ix3 h (0 : Fin 1) k := funext fun a => Fin.ext (match a with
    | ⟨0, _⟩ => h0
    | ⟨1, _⟩ => (by show (j 1).val = 0; omega)
    | ⟨2, _⟩ => h2)
  rfl

/-- What a half's last point writes back is that half's block of the weight array. -/
theorem flushed6_eq (c : Dev nD) (t : Fin cfg0.N) (hf : (cfg0.win 6).flush t = true) :
    (dat0 V c).flushed 6 t = ((cfg0.win 6).blk t).view.read (Elt Ideal) (G6 V c) := by
  have hN : t.val < 128 := lt_of_lt_of_eq t.isLt (show cfg0.N = 128 from N_0)
  have h63 : t.val % 64 = 63 := (flush0_6 t).mp hf
  have hq : t.val / 64 < 2 := by omega
  show (cfg0.win 6).cut (grid0.coords t) ((dat0 V c).after 6 t) = _
  rw [after0_6]
  funext j
  have hj0 : (j 0).val < 1 := (j 0).isLt
  have hj1 : (j 1).val < 1 := (j 1).isLt
  obtain ⟨k, rfl⟩ : ∃ (k : Fin 3072), j = ix3 (0 : Fin 1) (0 : Fin 1) k := ⟨j 2, funext fun a => Fin.ext (match a with
    | ⟨0, _⟩ => (by show (j 0).val = 0; omega)
    | ⟨1, _⟩ => (by show (j 1).val = 0; omega)
    | ⟨2, _⟩ => rfl)⟩
  rw [View.read_apply]
  refine (acc6_at V c k t.val t.isLt).trans ?_
  rw [h63]
  refine (half6 V c ⟨t.val / 64, hq⟩ k).trans (G6_at V c _ ⟨t.val / 64, hq⟩ k ?_ ?_).symm
  · show win0_6.index t (0 : Fin 3) * 1 + 1 * 0 = t.val / 64
    rw [(idxOut t).2.2.1]; omega
  · show win0_6.index t (2 : Fin 3) * 3072 + 1 * k.val = k.val
    rw [(idxOut t).2.2.2.2.1]; omega

/-- Half h's block of the weight array is written back by the half's last point, 64 h + 63. -/
theorem cover6 (i : S2x1x3072.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 3072 := (i 2).isLt
  have hn : (i 0).val * 64 + 63 < cfg0.N := by show _ < grid0.N; rw [N_0]; omega
  refine ⟨⟨(i 0).val * 64 + 63, hn⟩, (flush0_6 _).mpr (by show ((i 0).val * 64 + 63) % 64 = 63; omega), ?_⟩
  show i ∈ ((View.whole main_v21_1).slice (win0_6.rect ⟨(i 0).val * 64 + 63, hn⟩)).set
  rw [View.set_slice_whole, Rect.mem_set_unit]
  intro a
  match a with
  | ⟨0, _⟩ =>
    show win0_6.index ⟨(i 0).val * 64 + 63, hn⟩ (0 : Fin 3) * 1 ≤ (i 0).val ∧ (i 0).val < win0_6.index ⟨(i 0).val * 64 + 63, hn⟩ (0 : Fin 3) * 1 + 1
    rw [(idxOut ⟨(i 0).val * 64 + 63, hn⟩).2.2.1]; dsimp only; omega
  | ⟨1, _⟩ =>
    show win0_6.index ⟨(i 0).val * 64 + 63, hn⟩ (1 : Fin 3) * 1 ≤ (i 1).val ∧ (i 1).val < win0_6.index ⟨(i 0).val * 64 + 63, hn⟩ (1 : Fin 3) * 1 + 1
    rw [(idxOut ⟨(i 0).val * 64 + 63, hn⟩).2.2.2.1]; omega
  | ⟨2, _⟩ =>
    show win0_6.index ⟨(i 0).val * 64 + 63, hn⟩ (2 : Fin 3) * 3072 ≤ (i 2).val ∧ (i 2).val < win0_6.index ⟨(i 0).val * 64 + 63, hn⟩ (2 : Fin 3) * 3072 + 3072
    rw [(idxOut ⟨(i 0).val * 64 + 63, hn⟩).2.2.2.2.1]; omega

theorem arr6 (c : Dev nD) (h : Fin 2) (k : Fin 3072) :
    ((dat0 V c).arrAt 6 cfg0.N : S2x1x3072.Idx → EReal) (ix3 h (0 : Fin 1) k)
      = ∑ i : Fin 64, ∑ r : Fin 1024, aV V c (ixP (tok h i r)) * oh (aI V c (ixP (tok h i r))) k := by
  -- each half's last point writes that half's block of one array, and the two blocks cover it
  have hfin : (dat0 V c).arrAt 6 cfg0.N = G6 V c :=
    (dat0 V c).arrAt_eq_of_cover 6 (G6 V c) (fun n hf => flushed6_eq V c n hf) cover6
  exact (congrFun hfin (ix3 h (0 : Fin 1) k)).trans (G6_at V c _ h k rfl rfl)

/-! ## Output 7: the weighted feature sums of each bin, per half -/

/-- Block n's part of entry (k, z): over its tokens whose bin is k. -/
def T7 (c : Dev nD) (n : ℕ) (k : Fin 3072) (z : Fin 256) : EReal :=
  ∑ r : Fin 1024, oh (aI V c (ixP (tk n r))) k * (aP V c (ix2 (tk n r) z) * aV V c (ixP (tk n r)))

/-- One point's update of the accumulator: what was there plus the block's part. -/
theorem step7 (c : Dev nD) (t : Fin cfg0.N) (prev : Vec Ideal S1x3072x256 .f32) (k : Fin 3072) (z : Fin 256) :
    k0_pay1 (F := Ideal) (k0_pay6 (F := Ideal) (bI V c t)) (k0_pay7 (F := Ideal) (bP V c t)) (k0_pay9 (F := Ideal) (bV V c t)) prev (ix3 (0 : Fin 1) k z)
      = prev (ix3 (0 : Fin 1) k z) + T7 V c t.val k z := by
  refine (pay1_apply (k0_pay6 (F := Ideal) (bI V c t)) (k0_pay7 (F := Ideal) (bP V c t)) (k0_pay9 (F := Ideal) (bV V c t)) prev k z).trans ?_
  unfold T7
  refine congrArg (prev (ix3 (0 : Fin 1) k z) + ·) (Finset.sum_congr rfl fun r _ => ?_)
  rw [pay6_apply (bI V c t) r k, pay7_eq (bP V c t), pay9_eq (bV V c t), bI_apply V c t r (tk t.val r) (tk_val t r),
    bP_apply V c t r z (tk t.val r) (tk_val t r), bV_apply V c t r (tk t.val r) (tk_val t r)]

/-- At a half's first block the accumulator is reset, so it then holds the block's part alone. -/
theorem acc7_A (c : Dev nD) (t : Fin cfg0.N) (h0 : t.val % 64 = 0) (k : Fin 3072) (z : Fin 256) :
    (outsAt0 V c t.val t.isLt).2.2.1 (ix3 (0 : Fin 1) k z) = T7 V c t.val k z := by
  rw [outsAt0_A V c t h0]
  dsimp only
  refine (congrFun (KPieces0.out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bP V c t) (bI V c t) (bV V c t) (bH V c t) (bL V c t)) (ix3 (0 : Fin 1) k z)).trans ?_
  refine (step7 V c t (k0_pay4 (F := Ideal)) k z).trans ?_
  rw [pay4_apply, zero_add]

/-- At a later block the accumulator grows by the block's part. -/
theorem acc7_B (c : Dev nD) (t : Fin cfg0.N) (h0 : ¬t.val % 64 = 0) (k : Fin 3072) (z : Fin 256) :
    (outsAt0 V c t.val t.isLt).2.2.1 (ix3 (0 : Fin 1) k z)
      = (outsAt0 V c (t.val - 1) (Nat.lt_of_le_of_lt (Nat.sub_le _ _) t.isLt)).2.2.1 (ix3 (0 : Fin 1) k z) + T7 V c t.val k z := by
  rw [outsAt0_B V c t h0]
  dsimp only
  refine (congrFun (KPieces0.out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (bP V c t) (bI V c t) (bV V c t) (bH V c t) (bL V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) k z)).trans ?_
  exact step7 V c t _ k z

/-- After point t the accumulator holds the parts of the blocks of t's half up to t. -/
theorem acc7_at (c : Dev nD) (k : Fin 3072) (z : Fin 256) (t : ℕ) (ht : t < cfg0.N) :
    (outsAt0 V c t ht).2.2.1 (ix3 (0 : Fin 1) k z) = ∑ s ∈ Finset.range (t % 64 + 1), T7 V c (64 * (t / 64) + s) k z :=
  run_sum_at (fun n hn => (outsAt0 V c n hn).2.2.1) (fun x => x (ix3 (0 : Fin 1) k z)) (fun n => T7 V c n k z)
    (fun n h hm => acc7_A V c ⟨n, h⟩ hm k z)
    (fun n h hm => acc7_B V c ⟨n + 1, h⟩ hm k z) t ht

/-- A half's 64 block parts are the sum over its 64 · 1024 tokens. -/
theorem half7 (c : Dev nD) (h : Fin 2) (k : Fin 3072) (z : Fin 256) :
    ∑ s ∈ Finset.range 64, T7 V c (64 * h.val + s) k z
      = ∑ i : Fin 64, ∑ r : Fin 1024, oh (aI V c (ixP (tok h i r))) k * (aP V c (ix2 (tok h i r) z) * aV V c (ixP (tok h i r))) := by
  rw [Finset.sum_range]
  refine Finset.sum_congr rfl fun i _ => ?_
  unfold T7
  refine Finset.sum_congr rfl fun r _ => ?_
  have e : tk (64 * h.val + i.val) r = tok h i r := Fin.ext (by
    show ((64 * h.val + i.val) * 1024 + r.val) % 131072 = (h.val * 64 + i.val) * 1024 + r.val
    have := h.isLt; have := i.isLt; have := r.isLt; omega)
  rw [e]

/-- The whole array: entry (h, k, z) sums over half h's tokens whose bin is k. -/
abbrev G7 (c : Dev nD) : S2x3072x256.Idx → EReal := fun j =>
  ∑ i : Fin 64, ∑ r : Fin 1024, oh (aI V c (ixP (tok (j 0) i r))) (j 1) * (aP V c (ix2 (tok (j 0) i r) (j 2)) * aV V c (ixP (tok (j 0) i r)))

theorem G7_at (c : Dev nD) (j : S2x3072x256.Idx) (h : Fin 2) (k : Fin 3072) (z : Fin 256)
    (h0 : (j 0).val = h.val) (h1 : (j 1).val = k.val) (h2 : (j 2).val = z.val) :
    G7 V c j = ∑ i : Fin 64, ∑ r : Fin 1024, oh (aI V c (ixP (tok h i r))) k * (aP V c (ix2 (tok h i r) z) * aV V c (ixP (tok h i r))) := by
  obtain rfl : j = ix3 h k z := funext fun a => Fin.ext (match a with
    | ⟨0, _⟩ => h0
    | ⟨1, _⟩ => h1
    | ⟨2, _⟩ => h2)
  rfl

/-- What a half's last point writes back is that half's block of the array. -/
theorem flushed7_eq (c : Dev nD) (t : Fin cfg0.N) (hf : (cfg0.win 7).flush t = true) :
    (dat0 V c).flushed 7 t = ((cfg0.win 7).blk t).view.read (Elt Ideal) (G7 V c) := by
  have hN : t.val < 128 := lt_of_lt_of_eq t.isLt (show cfg0.N = 128 from N_0)
  have h63 : t.val % 64 = 63 := (flush0_7 t).mp hf
  have hq : t.val / 64 < 2 := by omega
  show (cfg0.win 7).cut (grid0.coords t) ((dat0 V c).after 7 t) = _
  rw [after0_7]
  funext j
  have hj0 : (j 0).val < 1 := (j 0).isLt
  obtain ⟨k, z, rfl⟩ : ∃ (k : Fin 3072) (z : Fin 256), j = ix3 (0 : Fin 1) k z := ⟨j 1, j 2, funext fun a => Fin.ext (match a with
    | ⟨0, _⟩ => (by show (j 0).val = 0; omega)
    | ⟨1, _⟩ => rfl
    | ⟨2, _⟩ => rfl)⟩
  rw [View.read_apply]
  refine (acc7_at V c k z t.val t.isLt).trans ?_
  rw [h63]
  refine (half7 V c ⟨t.val / 64, hq⟩ k z).trans (G7_at V c _ ⟨t.val / 64, hq⟩ k z ?_ ?_ ?_).symm
  · show win0_7.index t (0 : Fin 3) * 1 + 1 * 0 = t.val / 64
    rw [(idxOut t).2.2.2.2.2.1]; omega
  · show win0_7.index t (1 : Fin 3) * 3072 + 1 * k.val = k.val
    rw [(idxOut t).2.2.2.2.2.2.1]; omega
  · show win0_7.index t (2 : Fin 3) * 256 + 1 * z.val = z.val
    rw [(idxOut t).2.2.2.2.2.2.2.1]; omega

/-- Half h's block of the array is written back by the half's last point, 64 h + 63. -/
theorem cover7 (i : S2x3072x256.Idx) :
    ∃ t : Fin cfg0.N, (cfg0.win 7).flush t = true ∧ i ∈ ((cfg0.win 7).blk t).view.set := by
  have h0 : (i 0).val < 2 := (i 0).isLt
  have h1 : (i 1).val < 3072 := (i 1).isLt
  have h2 : (i 2).val < 256 := (i 2).isLt
  have hn : (i 0).val * 64 + 63 < cfg0.N := by show _ < grid0.N; rw [N_0]; omega
  refine ⟨⟨(i 0).val * 64 + 63, hn⟩, (flush0_7 _).mpr (by show ((i 0).val * 64 + 63) % 64 = 63; omega), ?_⟩
  show i ∈ ((View.whole main_v21_2).slice (win0_7.rect ⟨(i 0).val * 64 + 63, hn⟩)).set
  rw [View.set_slice_whole, Rect.mem_set_unit]
  intro a
  match a with
  | ⟨0, _⟩ =>
    show win0_7.index ⟨(i 0).val * 64 + 63, hn⟩ (0 : Fin 3) * 1 ≤ (i 0).val ∧ (i 0).val < win0_7.index ⟨(i 0).val * 64 + 63, hn⟩ (0 : Fin 3) * 1 + 1
    rw [(idxOut ⟨(i 0).val * 64 + 63, hn⟩).2.2.2.2.2.1]; dsimp only; omega
  | ⟨1, _⟩ =>
    show win0_7.index ⟨(i 0).val * 64 + 63, hn⟩ (1 : Fin 3) * 3072 ≤ (i 1).val ∧ (i 1).val < win0_7.index ⟨(i 0).val * 64 + 63, hn⟩ (1 : Fin 3) * 3072 + 3072
    rw [(idxOut ⟨(i 0).val * 64 + 63, hn⟩).2.2.2.2.2.2.1]; omega
  | ⟨2, _⟩ =>
    show win0_7.index ⟨(i 0).val * 64 + 63, hn⟩ (2 : Fin 3) * 256 ≤ (i 2).val ∧ (i 2).val < win0_7.index ⟨(i 0).val * 64 + 63, hn⟩ (2 : Fin 3) * 256 + 256
    rw [(idxOut ⟨(i 0).val * 64 + 63, hn⟩).2.2.2.2.2.2.2.1]; omega

theorem arr7 (c : Dev nD) (h : Fin 2) (k : Fin 3072) (z : Fin 256) :
    ((dat0 V c).arrAt 7 cfg0.N : S2x3072x256.Idx → EReal) (ix3 h k z)
      = ∑ i : Fin 64, ∑ r : Fin 1024, oh (aI V c (ixP (tok h i r))) k * (aP V c (ix2 (tok h i r) z) * aV V c (ixP (tok h i r))) := by
  -- each half's last point writes that half's block of one array, and the two blocks cover it
  have hfin : (dat0 V c).arrAt 7 cfg0.N = G7 V c :=
    (dat0 V c).arrAt_eq_of_cover 7 (G7 V c) (fun n hf => flushed7_eq V c n hf) cover7
  exact (congrFun hfin (ix3 h k z)).trans (G7_at V c _ h k z rfl rfl rfl)

/-! ## Output 8: the weighted squared deviations of each bin, per half -/

/-- Block n's part of entry (k, z): over its tokens whose bin is k. -/
def T8 (c : Dev nD) (n : ℕ) (k : Fin 3072) (z : Fin 256) : EReal :=
  ∑ r : Fin 1024, oh (aI V c (ixP (tk n r))) k * (dev V c (tk n r) z * dev V c (tk n r) z * aV V c (ixP (tk n r)))

/-- One point's update of the accumulator: what was there plus the block's part. -/
theorem step8 (c : Dev nD) (t : Fin cfg0.N) (prev : Vec Ideal S1x3072x256 .f32) (k : Fin 3072) (z : Fin 256) :
    k0_pay2 (F := Ideal) (k0_pay6 (F := Ideal) (bI V c t)) (k0_pay8 (F := Ideal) (bI V c t) (bH V c t) (bL V c t) (bP V c t)) (k0_pay9 (F := Ideal) (bV V c t)) prev (ix3 (0 : Fin 1) k z)
      = prev (ix3 (0 : Fin 1) k z) + T8 V c t.val k z := by
  refine (pay2_apply (k0_pay6 (F := Ideal) (bI V c t)) (k0_pay8 (F := Ideal) (bI V c t) (bH V c t) (bL V c t) (bP V c t)) (k0_pay9 (F := Ideal) (bV V c t)) prev k z).trans ?_
  unfold T8
  refine congrArg (prev (ix3 (0 : Fin 1) k z) + ·) (Finset.sum_congr rfl fun r _ => ?_)
  rw [pay6_apply (bI V c t) r k, pay8_blk V c t r z (tk t.val r) (tk_val t r), pay9_eq (bV V c t),
    bI_apply V c t r (tk t.val r) (tk_val t r), bV_apply V c t r (tk t.val r) (tk_val t r)]

/-- At a half's first block the accumulator is reset, so it then holds the block's part alone. -/
theorem acc8_A (c : Dev nD) (t : Fin cfg0.N) (h0 : t.val % 64 = 0) (k : Fin 3072) (z : Fin 256) :
    (outsAt0 V c t.val t.isLt).2.2.2 (ix3 (0 : Fin 1) k z) = T8 V c t.val k z := by
  rw [outsAt0_A V c t h0]
  dsimp only
  refine (congrFun (KPieces0.out0_A_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bP V c t) (bI V c t) (bV V c t) (bH V c t) (bL V c t)) (ix3 (0 : Fin 1) k z)).trans ?_
  refine (step8 V c t (k0_pay5 (F := Ideal)) k z).trans ?_
  rw [pay5_apply, zero_add]

/-- At a later block the accumulator grows by the block's part. -/
theorem acc8_B (c : Dev nD) (t : Fin cfg0.N) (h0 : ¬t.val % 64 = 0) (k : Fin 3072) (z : Fin 256) :
    (outsAt0 V c t.val t.isLt).2.2.2 (ix3 (0 : Fin 1) k z)
      = (outsAt0 V c (t.val - 1) (Nat.lt_of_le_of_lt (Nat.sub_le _ _) t.isLt)).2.2.2 (ix3 (0 : Fin 1) k z) + T8 V c t.val k z := by
  rw [outsAt0_B V c t h0]
  dsimp only
  refine (congrFun (KPieces0.out0_B_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (bP V c t) (bI V c t) (bV V c t) (bH V c t) (bL V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 (0 : Fin 1) k z)).trans ?_
  exact step8 V c t _ k z

/-- After point t the accumulator holds the parts of the blocks of t's half up to t. -/
theorem acc8_at (c : Dev nD) (k : Fin 3072) (z : Fin 256) (t : ℕ) (ht : t < cfg0.N) :
    (outsAt0 V c t ht).2.2.2 (ix3 (0 : Fin 1) k z) = ∑ s ∈ Finset.range (t % 64 + 1), T8 V c (64 * (t / 64) + s) k z :=
  run_sum_at (fun n hn => (outsAt0 V c n hn).2.2.2) (fun x => x (ix3 (0 : Fin 1) k z)) (fun n => T8 V c n k z)
    (fun n h hm => acc8_A V c ⟨n, h⟩ hm k z)
    (fun n h hm => acc8_B V c ⟨n + 1, h⟩ hm k z) t ht

/-- A half's 64 block parts are the sum over its 64 · 1024 tokens. -/
theorem half8 (c : Dev nD) (h : Fin 2) (k : Fin 3072) (z : Fin 256) :
    ∑ s ∈ Finset.range 64, T8 V c (64 * h.val + s) k z
      = ∑ i : Fin 64, ∑ r : Fin 1024, oh (aI V c (ixP (tok h i r))) k * (dev V c (tok h i r) z * dev V c (tok h i r) z * aV V c (ixP (tok h i r))) := by
  rw [Finset.sum_range]
  refine Finset.sum_congr rfl fun i _ => ?_
  unfold T8
  refine Finset.sum_congr rfl fun r _ => ?_
  have e : tk (64 * h.val + i.val) r = tok h i r := Fin.ext (by
    show ((64 * h.val + i.val) * 1024 + r.val) % 131072 = (h.val * 64 + i.val) * 1024 + r.val
    have := h.isLt; have := i.isLt; have := r.isLt; omega)
  rw [e]

/-- The whole array: entry (h, k, z) sums over half h's tokens whose bin is k. -/
abbrev G8 (c : Dev nD) : S2x3072x256.Idx → EReal := fun j =>
  ∑ i : Fin 64, ∑ r : Fin 1024, oh (aI V c (ixP (tok (j 0) i r))) (j 1) * (dev V c (tok (j 0) i r) (j 2) * dev V c (tok (j 0) i r) (j 2) * aV V c (ixP (tok (j 0) i r)))

theorem G8_at (c : Dev nD) (j : S2x3072x256.Idx) (h : Fin 2) (k : Fin 3072) (z : Fin 256)
    (h0 : (j 0).val = h.val) (h1 : (j 1).val = k.val) (h2 : (j 2).val = z.val) :
    G8 V c j = ∑ i : Fin 64, ∑ r : Fin 1024, oh (aI V c (ixP (tok h i r))) k * (dev V c (tok h i r) z * dev V c (tok h i r) z * aV V c (ixP (tok h i r))) := by
  obtain rfl : j = ix3 h k z := funext fun a => Fin.ext (match a with
    | ⟨0, _⟩ => h0
    | ⟨1, _⟩ => h1
    | ⟨2, _⟩ => h2)
  rfl

/-- What a half's last point writes back is that half's block of the array. -/
theorem flushed8_eq (c : Dev nD) (t : Fin cfg0.N) (hf : (cfg0.win 8).flush t = true) :
    (dat0 V c).flushed 8 t = ((cfg0.win 8).blk t).view.read (Elt Ideal) (G8 V c) := by
  have hN : t.val < 128 := lt_of_lt_of_eq t.isLt (show cfg0.N = 128 from N_0)
  have h63 : t.val % 64 = 63 := (flush0_8 t).mp hf
  have hq : t.val / 64 < 2 := by omega
  show (cfg0.win 8).cut (grid0.coords t) ((dat0 V c).after 8 t) = _
  rw [after0_8]
  funext j
  have hj0 : (j 0).val < 1 := (j 0).isLt
  obtain ⟨k, z, rfl⟩ : ∃ (k : Fin 3072) (z : Fin 256), j = ix3 (0 : Fin 1) k z := ⟨j 1, j 2, funext fun a => Fin.ext (match a with
    | ⟨0, _⟩ => (by show (j 0).val = 0; omega)
    | ⟨1, _⟩ => rfl
    | ⟨2, _⟩ => rfl)⟩
  rw [View.read_apply]
  refine (acc8_at V c k z t.val t.isLt).trans ?_
  rw [h63]
  refine (half8 V c ⟨t.val / 64, hq⟩ k z).trans (G8_at V c _ ⟨t.val / 64, hq⟩ k z ?_ ?_ ?_).symm
  · show win0_8.index t (0 : Fin 3) * 1 + 1 * 0 = t.val / 64
    rw [(idxOut t).2.2.2.2.2.2.2.2.1]; omega
  · show win0_8.index t (1 : Fin 3) * 3072 + 1 * k.val = k.val
    rw [(idxOut t).2.2.2.2.2.2.2.2.2.1]; omega
  · show win0_8.index t (2 : Fin 3) * 256 + 1 * z.val = z.val
    rw [(idxOut t).2.2.2.2.2.2.2.2.2.2]; omega

/-- Half h's block of the array is written back by the half's last point, 64 h + 63. -/
theorem cover8 (i : S2x3072x256.Idx) :
    ∃ t : Fin cfg0.N, (cfg0.win 8).flush t = true ∧ i ∈ ((cfg0.win 8).blk t).view.set := by
  have h0 : (i 0).val < 2 := (i 0).isLt
  have h1 : (i 1).val < 3072 := (i 1).isLt
  have h2 : (i 2).val < 256 := (i 2).isLt
  have hn : (i 0).val * 64 + 63 < cfg0.N := by show _ < grid0.N; rw [N_0]; omega
  refine ⟨⟨(i 0).val * 64 + 63, hn⟩, (flush0_8 _).mpr (by show ((i 0).val * 64 + 63) % 64 = 63; omega), ?_⟩
  show i ∈ ((View.whole main_v21_3).slice (win0_8.rect ⟨(i 0).val * 64 + 63, hn⟩)).set
  rw [View.set_slice_whole, Rect.mem_set_unit]
  intro a
  match a with
  | ⟨0, _⟩ =>
    show win0_8.index ⟨(i 0).val * 64 + 63, hn⟩ (0 : Fin 3) * 1 ≤ (i 0).val ∧ (i 0).val < win0_8.index ⟨(i 0).val * 64 + 63, hn⟩ (0 : Fin 3) * 1 + 1
    rw [(idxOut ⟨(i 0).val * 64 + 63, hn⟩).2.2.2.2.2.2.2.2.1]; dsimp only; omega
  | ⟨1, _⟩ =>
    show win0_8.index ⟨(i 0).val * 64 + 63, hn⟩ (1 : Fin 3) * 3072 ≤ (i 1).val ∧ (i 1).val < win0_8.index ⟨(i 0).val * 64 + 63, hn⟩ (1 : Fin 3) * 3072 + 3072
    rw [(idxOut ⟨(i 0).val * 64 + 63, hn⟩).2.2.2.2.2.2.2.2.2.1]; omega
  | ⟨2, _⟩ =>
    show win0_8.index ⟨(i 0).val * 64 + 63, hn⟩ (2 : Fin 3) * 256 ≤ (i 2).val ∧ (i 2).val < win0_8.index ⟨(i 0).val * 64 + 63, hn⟩ (2 : Fin 3) * 256 + 256
    rw [(idxOut ⟨(i 0).val * 64 + 63, hn⟩).2.2.2.2.2.2.2.2.2.2]; omega

theorem arr8 (c : Dev nD) (h : Fin 2) (k : Fin 3072) (z : Fin 256) :
    ((dat0 V c).arrAt 8 cfg0.N : S2x3072x256.Idx → EReal) (ix3 h k z)
      = ∑ i : Fin 64, ∑ r : Fin 1024, oh (aI V c (ixP (tok h i r))) k * (dev V c (tok h i r) z * dev V c (tok h i r) z * aV V c (ixP (tok h i r))) := by
  -- each half's last point writes that half's block of one array, and the two blocks cover it
  have hfin : (dat0 V c).arrAt 8 cfg0.N = G8 V c :=
    (dat0 V c).arrAt_eq_of_cover 8 (G8 V c) (fun n hf => flushed8_eq V c n hf) cover8
  exact (congrFun hfin (ix3 h k z)).trans (G8_at V c _ h k z rfl rfl rfl)

end Cert.KernelIdeal.KReg0

end
-- ==== Proof.Reindex.lean ====
/-
  Re-indexing the batch: the tokens of half h are the 64 blocks of 1024 rows (h·64 + i)·1024 + r.
-/
import proofs.«414065_j58420145160519_3_alg».proof.Proof.Spec

noncomputable section

open scoped BigOperators

namespace Cert.Spec

/-- Token (half, block, row). -/
def tok3 (h : Fin 2) (i : Fin 64) (r : Fin 1024) : Tok :=
  ⟨(h.val * 64 + i.val) * 1024 + r.val, by have := h.isLt; have := i.isLt; have := r.isLt; omega⟩

/-- A sum over a half's blocks and rows is the sum over the half's tokens. -/
theorem sum_tok3 (h : Fin 2) (f : Tok → ℝ) :
    ∑ i : Fin 64, ∑ r : Fin 1024, f (tok3 h i r) = ∑ t : Tok, if half t = h then f t else 0 := by
  rw [← Finset.sum_filter, ← Finset.sum_product']
  -- both sides range over the same tokens: (block, row) ↦ token, token ↦ (its block in the half, its row)
  refine Finset.sum_nbij' (fun x : Fin 64 × Fin 1024 => tok3 h x.1 x.2)
    (fun t : Tok => ((⟨t.val / 1024 % 64, Nat.mod_lt _ (by decide)⟩ : Fin 64), (⟨t.val % 1024, Nat.mod_lt _ (by decide)⟩ : Fin 1024)))
    ?_ ?_ ?_ ?_ ?_
  · intro x _
    refine Finset.mem_filter.2 ⟨Finset.mem_univ _, Fin.ext ?_⟩
    have h1 := x.1.isLt
    have h2 := x.2.isLt
    have h3 := h.isLt
    show ((h.val * 64 + x.1.val) * 1024 + x.2.val) / 65536 = h.val
    omega
  · intro t _
    exact Finset.mem_product.2 ⟨Finset.mem_univ _, Finset.mem_univ _⟩
  · intro x _
    have h1 := x.1.isLt
    have h2 := x.2.isLt
    have h3 := h.isLt
    refine Prod.ext (Fin.ext ?_) (Fin.ext ?_)
    · show ((h.val * 64 + x.1.val) * 1024 + x.2.val) / 1024 % 64 = x.1.val
      omega
    · show ((h.val * 64 + x.1.val) * 1024 + x.2.val) % 1024 = x.2.val
      omega
  · intro t ht
    have e : t.val / 65536 = h.val := congrArg Fin.val (Finset.mem_filter.1 ht).2
    have h4 := t.isLt
    refine Fin.ext ?_
    show (h.val * 64 + t.val / 1024 % 64) * 1024 + t.val % 1024 = t.val
    omega
  · intro x _
    rfl

end Cert.Spec

end
-- ==== Proof.KHostB.lean ====
/-
  The arrays after the first kernel: its four outputs as real numbers — every token's deviation from its bin's old
  mean, and per half and bin the weight, the weighted feature sums and the weighted squared deviations — and the
  arrays it does not write, unchanged.
-/
import proofs.«414065_j58420145160519_3_alg».proof.Proof.KHostA
import proofs.«414065_j58420145160519_3_alg».proof.Proof.KReg0
import proofs.«414065_j58420145160519_3_alg».proof.Proof.Reindex

set_option maxRecDepth 16384

noncomputable section

namespace Cert.KernelIdeal.KHostB

open Cert.KernelIdeal Cert.KernelIdeal.Gen Cert.KernelIdeal.KIn Cert.Inputs Cert.Spec
open Idealize.ShloMosaic Idealize.ShloMosaic.TcCoe Idealize.ShloMosaic.ValueIdx Idealize.ShloMosaic.StableHlo.Predicate

variable (m : (ℓ : Loc nD τ sig) → Buf (Elt Ideal) ℓ) (ρ : Dev nD → PrngReg) (c : Dev nD)

/-- The indicator of a bin's own word: two bin numbers give the same 32-bit word only if they are equal. -/
private theorem oh_ofNat (a k : Bin) : KPay.oh (BitVec.ofNat 32 a.val) k = if k = a then (1 : EReal) else 0 := by
  unfold KPay.oh
  refine if_congr ⟨fun h => ?_, fun h => by rw [h]⟩ rfl rfl
  have e := congrArg BitVec.toNat h
  simp only [BitVec.toNat_ofNat] at e
  have ha := a.isLt
  have hk := k.isLt
  exact Fin.ext (by omega)

/-- A table row gathered by the indicator of bin `a` is row `a`. -/
private theorem gather_oh (a : Bin) (g : Bin → EReal) :
    (∑ k : Fin 3072, KPay.oh (BitVec.ofNat 32 a.val) k * g k) = g a :=
  calc (∑ k : Fin 3072, KPay.oh (BitVec.ofNat 32 a.val) k * g k)
      = ∑ k : Fin 3072, (if k = a then (1 : EReal) else 0) * g k :=
        Finset.sum_congr rfl (fun k _ => by rw [oh_ofNat])
    _ = g a := Cert.IdealReal.sum_onehot_mul a g

/-- The indicator times a real: the real where the bins agree, 0 elsewhere. -/
private theorem oh_mul (a k : Bin) (x : ℝ) :
    KPay.oh (BitVec.ofNat 32 a.val) k * ((x : ℝ) : EReal) = (((if a = k then x else 0 : ℝ)) : EReal) := by
  rw [oh_ofNat]
  by_cases h : a = k
  · rw [if_pos h.symm, if_pos h, one_mul]
  · rw [if_neg (fun h' => h h'.symm), if_neg h, zero_mul, EReal.coe_zero]
private theorem mul_oh (a k : Bin) (x : ℝ) :
    ((x : ℝ) : EReal) * KPay.oh (BitVec.ofNat 32 a.val) k = (((if a = k then x else 0 : ℝ)) : EReal) := by
  rw [mul_comm, oh_mul]

/-- The entry arrays of the first kernel, at an index. -/
private theorem aP_eq (hG : GoodM m c) (t : Tok) (z : Ft) :
    KReg0.aP (V1 m ρ) c (ix2 t z) = (((I m c).P t z : ℝ) : EReal) := KHostA.V1_P m ρ c hG t z
private theorem aI_eq (hG : GoodM m c) (t : Tok) :
    KReg0.aI (V1 m ρ) c (ixP t) = BitVec.ofNat 32 ((I m c).fl t).val := KHostA.V1_I m ρ c hG t
private theorem aV_eq (t : Tok) :
    KReg0.aV (V1 m ρ) c (ixP t) = (((I m c).vl t : ℝ) : EReal) := KHostA.V1_V m ρ c t
private theorem aH_eq (hG : GoodM m c) (k : Bin) (z : Ft) :
    KReg0.aH (V1 m ρ) c (ix2 k z) = (((I m c).mean0 k z : ℝ) : EReal) := KHostA.V1_H m ρ c hG k z
private theorem aL_eq (hG : GoodM m c) (k : Bin) (z : Ft) :
    KReg0.aL (V1 m ρ) c (ix2 k z) = ((0 : ℝ) : EReal) := KHostA.V1_L m ρ c hG k z

/-- A token's deviation: its feature entry minus its bin's old mean (the second table is all 0). -/
private theorem dev_eq (hG : GoodM m c) (t : Tok) (z : Ft) :
    KReg0.dev (V1 m ρ) c t z = ((dlt (I m c) t z : ℝ) : EReal) := by
  unfold KReg0.dev
  rw [aP_eq m ρ c hG, aI_eq m ρ c hG, gather_oh, gather_oh, aH_eq m ρ c hG, aL_eq m ρ c hG,
    Cert.IdealReal.add_coe, Cert.IdealReal.sub_coe, add_zero]
  rfl

theorem V2_dev (hG : GoodM m c) (t : Tok) (z : Ft) :
    (V2 m ρ c main_v21_0 : S131072x256.Idx → EReal) (ix2 t z) = ((dlt (I m c) t z : ℝ) : EReal) := by
  have e : (V2 m ρ c main_v21_0 : S131072x256.Idx → EReal)
      = ((dat0 (V1 m ρ) c).arrAt 5 cfg0.N : S131072x256.Idx → EReal) := (hF0 m ρ c 5).symm
  rw [e, KReg0.arr5, dev_eq m ρ c hG]

/-- A sum over a half's blocks and rows of real terms is the real sum over the half's tokens. -/
private theorem acc_eq (h : Fin 2) (G : Fin 131072 → EReal) (F : Tok → ℝ) (hGF : ∀ t, G t = ((F t : ℝ) : EReal)) :
    (∑ i : Fin 64, ∑ r : Fin 1024, G (KReg0.tok h i r))
      = ((∑ t : Tok, if half t = h then F t else 0 : ℝ) : EReal) := by
  rw [← sum_tok3 h F, Cert.IdealReal.coe_sum]
  refine Finset.sum_congr rfl (fun i _ => ?_)
  rw [Cert.IdealReal.coe_sum]
  exact Finset.sum_congr rfl (fun r _ => hGF _)

theorem V2_cnt (hG : GoodM m c) (h : Fin 2) (k : Bin) :
    (V2 m ρ c main_v21_1 : S2x1x3072.Idx → EReal) (ix3 h (0 : Fin 1) k) = ((cntH (I m c) h k : ℝ) : EReal) := by
  have e : (V2 m ρ c main_v21_1 : S2x1x3072.Idx → EReal)
      = ((dat0 (V1 m ρ) c).arrAt 6 cfg0.N : S2x1x3072.Idx → EReal) := (hF0 m ρ c 6).symm
  rw [e, KReg0.arr6]
  rw [acc_eq h (fun t => KReg0.aV (V1 m ρ) c (ixP t) * KPay.oh (KReg0.aI (V1 m ρ) c (ixP t)) k)
    (fun t => if (I m c).fl t = k then (I m c).vl t else 0)
    (fun t => by rw [aV_eq m ρ c, aI_eq m ρ c hG, mul_oh])]
  -- the two guards are one
  unfold cntH
  rw [Finset.sum_congr rfl (fun t _ => ite_and (half t = h) ((I m c).fl t = k) ((I m c).vl t) 0)]
theorem V2_spv (hG : GoodM m c) (h : Fin 2) (k : Bin) (z : Ft) :
    (V2 m ρ c main_v21_2 : S2x3072x256.Idx → EReal) (ix3 h k z) = ((spvH (I m c) h k z : ℝ) : EReal) := by
  have e : (V2 m ρ c main_v21_2 : S2x3072x256.Idx → EReal)
      = ((dat0 (V1 m ρ) c).arrAt 7 cfg0.N : S2x3072x256.Idx → EReal) := (hF0 m ρ c 7).symm
  rw [e, KReg0.arr7]
  rw [acc_eq h (fun t => KPay.oh (KReg0.aI (V1 m ρ) c (ixP t)) k
      * (KReg0.aP (V1 m ρ) c (ix2 t z) * KReg0.aV (V1 m ρ) c (ixP t)))
    (fun t => if (I m c).fl t = k then (I m c).P t z * (I m c).vl t else 0)
    (fun t => by rw [aP_eq m ρ c hG, aV_eq m ρ c, aI_eq m ρ c hG, Cert.IdealReal.mul_coe, oh_mul])]
  unfold spvH
  rw [Finset.sum_congr rfl (fun t _ => ite_and (half t = h) ((I m c).fl t = k) ((I m c).P t z * (I m c).vl t) 0)]
theorem V2_s2 (hG : GoodM m c) (h : Fin 2) (k : Bin) (z : Ft) :
    (V2 m ρ c main_v21_3 : S2x3072x256.Idx → EReal) (ix3 h k z) = ((s2H (I m c) h k z : ℝ) : EReal) := by
  have e : (V2 m ρ c main_v21_3 : S2x3072x256.Idx → EReal)
      = ((dat0 (V1 m ρ) c).arrAt 8 cfg0.N : S2x3072x256.Idx → EReal) := (hF0 m ρ c 8).symm
  rw [e, KReg0.arr8]
  rw [acc_eq h (fun t => KPay.oh (KReg0.aI (V1 m ρ) c (ixP t)) k
      * (KReg0.dev (V1 m ρ) c t z * KReg0.dev (V1 m ρ) c t z * KReg0.aV (V1 m ρ) c (ixP t)))
    (fun t => if (I m c).fl t = k then dlt (I m c) t z * dlt (I m c) t z * (I m c).vl t else 0)
    (fun t => by rw [dev_eq m ρ c hG, aV_eq m ρ c, aI_eq m ρ c hG, Cert.IdealReal.mul_coe, Cert.IdealReal.mul_coe, oh_mul])]
  unfold s2H
  rw [Finset.sum_congr rfl (fun t _ => ite_and (half t = h) ((I m c).fl t = k) (dlt (I m c) t z * dlt (I m c) t z * (I m c).vl t) 0)]
/-- The arrays the kernel only reads (or does not touch) are as it found them. -/
theorem V2_keep (b : Ref sig .tc) (hb : ∀ w, Pipeline.arrRef spec0 w ≠ b) : V2 m ρ c b = V1 m ρ c b :=
  W2_of_ne m ρ c b hb

end Cert.KernelIdeal.KHostB

end
-- ==== Proof.Algebra.lean ====
/-
  The two ways of writing the update agree: pure algebra over the reals.

  * Each token lies in exactly one half of the batch, so a sum over a bin is the sum of its two half sums.
  * Inside the sum that moves a bin's mean the divisor is the bin's own (the summand vanishes off the bin), so it
    comes out of the sum, and  Σ_{bin k} δ·v = Σ p·v − (Σ v)·mean.
  * Inside the sum of squares  p − (new mean) = δ − md, so the summand is  δ²·v − md·(δ·v),  and
    md·Σ δ·v = md·(md·d).
-/
import proofs.«414065_j58420145160519_3_alg».proof.Proof.Spec

noncomputable section

open scoped BigOperators

namespace Cert.Spec

variable (I : Inp)

/-- An index of a half is 0 or 1. -/
theorem fin_two_cases : ∀ h : Fin 2, h = 0 ∨ h = 1 :=
  Fin.forall_fin_two.mpr ⟨Or.inl rfl, Or.inr rfl⟩

/-- A sum over the tokens with a property is the sum over those of the first half plus the sum over those of the second. -/
theorem sum_halves (q : Tok → Prop) [DecidablePred q] (a : Tok → ℝ) :
    (∑ t : Tok, if q t then a t else 0)
      = (∑ t : Tok, if half t = 0 ∧ q t then a t else 0) + (∑ t : Tok, if half t = 1 ∧ q t then a t else 0) := by
  rw [← Finset.sum_add_distrib]
  refine Finset.sum_congr rfl (fun t _ => ?_)
  rcases fin_two_cases (half t) with h | h <;> by_cases hq : q t <;> simp [h, hq]

/-- The weight on a bin is the sum of the weights its two halves put there. -/
theorem cnt_halves (k : Bin) : cnt I k = cntH I 0 k + cntH I 1 k := by
  unfold cnt cntH
  exact sum_halves (fun t => I.fl t = k) (fun t => I.vl t)

/-- The weighted feature sum of a bin is the sum of its two half sums. -/
theorem spv_halves (k : Bin) (z : Ft) : spv I k z = spvH I 0 k z + spvH I 1 k z := by
  unfold spv spvH
  exact sum_halves (fun t => I.fl t = k) (fun t => I.P t z * I.vl t)

/-- The weighted sum of squared deviations of a bin is the sum of its two half sums. -/
theorem s2_halves (k : Bin) (z : Ft) : s2 I k z = s2H I 0 k z + s2H I 1 k z := by
  unfold s2 s2H
  exact sum_halves (fun t => I.fl t = k) (fun t => dlt I t z * dlt I t z * I.vl t)

/-- The divisor max(n, 1) is at least 1, hence positive. -/
theorem den_pos (k : Bin) : 0 < den I k := by
  unfold den
  exact lt_of_lt_of_le one_pos (le_max_right _ _)

/-- Over a bin, Σ δ·v = Σ p·v − (Σ v)·mean: on the bin δ = p − mean with the bin's own old mean. -/
theorem sum_dlt (k : Bin) (z : Ft) :
    (∑ t : Tok, if I.fl t = k then dlt I t z * I.vl t else 0) = spv I k z - cnt I k * I.mean0 k z := by
  have h1 : ∀ t : Tok, (if I.fl t = k then dlt I t z * I.vl t else 0)
      = (if I.fl t = k then I.P t z * I.vl t else 0) - (if I.fl t = k then I.vl t else 0) * I.mean0 k z := by
    intro t
    split_ifs with h
    · subst h
      unfold dlt
      ring
    · ring
  unfold spv cnt
  rw [Finset.sum_congr rfl (fun t _ => h1 t), Finset.sum_sub_distrib, ← Finset.sum_mul]

/-- The move of the mean times the divisor is the numerator it was made from (the divisor is not zero). -/
theorem md_mul_den (k : Bin) (z : Ft) : md I k z * den I k = spv I k z - cnt I k * I.mean0 k z := by
  unfold md
  exact div_mul_cancel₀ _ (den_pos I k).ne'

/-- Token by token the mean moves by md: the divisor is constant on the bin and comes out of the sum. -/
theorem mR_eq (k : Bin) (z : Ft) : mR I k z = I.mean0 k z + md I k z := by
  have h1 : ∀ t : Tok, (if I.fl t = k then dlt I t z * I.vl t / den I (I.fl t) else 0)
      = (if I.fl t = k then dlt I t z * I.vl t else 0) / den I k := by
    intro t
    split_ifs with h
    · rw [h]
    · rw [zero_div]
  unfold mR md
  rw [Finset.sum_congr rfl (fun t _ => h1 t), ← Finset.sum_div, sum_dlt]

/-- Token by token the sum of squares is the bin-by-bin one: Σ δ·(δ − md)·v = Σ δ²·v − md·(md·d). -/
theorem m2R_eq (k : Bin) (z : Ft) : m2R I k z = m2K I k z := by
  have h1 : ∀ t : Tok, (if I.fl t = k then dlt I t z * (I.P t z - mR I (I.fl t) z) * I.vl t else 0)
      = (if I.fl t = k then dlt I t z * dlt I t z * I.vl t else 0)
        - md I k z * (if I.fl t = k then dlt I t z * I.vl t else 0) := by
    intro t
    split_ifs with h
    · have hd : dlt I t z = I.P t z - I.mean0 k z := by unfold dlt; rw [h]
      rw [h, mR_eq, hd]
      ring
    · ring
  unfold m2R m2K s2
  rw [Finset.sum_congr rfl (fun t _ => h1 t), Finset.sum_sub_distrib, ← Finset.mul_sum, sum_dlt, ← md_mul_den]
  ring

/-- The two normalised tokens agree: δ − md = p − (new mean), and the two sums of squares are equal. -/
theorem outK_eq_outR (eps : ℝ) (t : Tok) (z : Ft) : outK I eps t z = outR I eps t z := by
  unfold outK outR
  have h1 : dlt I t z - md I (I.fl t) z = I.P t z - mR I (I.fl t) z := by
    rw [mR_eq]
    unfold dlt
    ring
  have h2 : varOf I (m2K I) (I.fl t) z = varOf I (m2R I) (I.fl t) z := by
    unfold varOf
    rw [m2R_eq]
  rw [h1, h2]

end Cert.Spec

end
-- ==== Proof.KHostC.lean ====
/-
  The arrays the second kernel is entered with: from the per-half sums, bin by bin, the move of the mean and the
  factor 1 / (√variance + ε), each carried as a pair whose second member is zero; the deviations, bin words and
  weights as the first kernel left or found them.
-/
import proofs.«414065_j58420145160519_3_alg».proof.Proof.KHostB
import proofs.«414065_j58420145160519_3_alg».proof.Proof.Algebra
import Idealize.ShloMosaic.Lib.IdealHost
import Idealize.ShloMosaic.PureOps.Ideal.Laws

set_option maxRecDepth 16384

noncomputable section

namespace Cert.KernelIdeal.KHostC

open Cert.KernelIdeal Cert.KernelIdeal.Gen Cert.KernelIdeal.KIn Cert.Inputs Cert.Spec Cert.Consts
open Idealize.ShloMosaic Idealize.ShloMosaic.TcCoe Idealize.ShloMosaic.ValueIdx Idealize.ShloMosaic.StableHlo.Predicate

variable (m : (ℓ : Loc nD τ sig) → Buf (Elt Ideal) ℓ) (ρ : Dev nD → PrngReg) (c : Dev nD)

/-- A buffer that none of the operations between the two kernels writes holds, at the second kernel's entry, what the
    first kernel left in it. -/
theorem V5_eq_V2 (b : Ref sig .tc)
    (h2 : ∀ op ∈ (hostOps1_2 : List (HloOp τ sig (Elt Ideal))), Proc.devRef (τ := τ) .tc b ∉ op.writes)
    (h1 : ∀ op ∈ (hostOps1_1 : List (HloOp τ sig (Elt Ideal))), Proc.devRef (τ := τ) .tc b ∉ op.writes)
    (h0 : ∀ op ∈ (hostOps1 : List (HloOp τ sig (Elt Ideal))), Proc.devRef (τ := τ) .tc b ∉ op.writes) :
    V5 m ρ c b = V2 m ρ c b :=
  calc W5 m ρ c (Proc.devRef .tc b)
    _ = W4 m ρ c (Proc.devRef .tc b) := StableHlo.after_of_forall_not_mem _ _ h2
    _ = W3 m ρ c (Proc.devRef .tc b) := StableHlo.after_of_forall_not_mem _ _ h1
    _ = W2 m ρ c (Proc.devRef .tc b) := StableHlo.after_of_forall_not_mem _ _ h0

/-- "No operation of the list writes this buffer": the list is literal, each operation writes its one result, and the
    result is another reference. -/
local macro "no_write " ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The deviations: written by the first kernel, by nothing after it. -/
theorem V5_dev_eq : V5 m ρ c main_v21_0 = V2 m ρ c main_v21_0 :=
  V5_eq_V2 m ρ c main_v21_0 (by no_write hostOps1_2) (by no_write hostOps1_1) (by no_write hostOps1)

/-- An array the first kernel only reads through a window is never written back: it leaves the kernel as it entered. -/
theorem V2_in (w : Fin cfg0.W) (hin : (cfg0.win w).isOut = false) :
    V2 m ρ c (Pipeline.arrRef spec0 w) = V1 m ρ c (Pipeline.arrRef spec0 w) :=
  ((hF0 m ρ c w).symm.trans ((dat0 (V1 m ρ) c).arrAt_in w hin cfg0.N)).trans (A_eq0 (V1 m ρ) c w)

/-- The bin words: written before the first kernel, which only reads them, and by nothing after. -/
theorem V5_I_eq : V5 m ρ c main_v10 = V1 m ρ c main_v10 :=
  (V5_eq_V2 m ρ c main_v10 (by no_write hostOps1_2) (by no_write hostOps1_1) (by no_write hostOps1)).trans
    (V2_in m ρ c 1 rfl)

/-- The weights likewise. -/
theorem V5_V_eq : V5 m ρ c main_v13 = V1 m ρ c main_v13 :=
  (V5_eq_V2 m ρ c main_v13 (by no_write hostOps1_2) (by no_write hostOps1_1) (by no_write hostOps1)).trans
    (V2_in m ρ c 2 rfl)

theorem V5_dev (hG : GoodM m c) (t : Tok) (z : Ft) :
    (V5 m ρ c main_v21_0 : S131072x256.Idx → EReal) (ix2 t z) = ((dlt (I m c) t z : ℝ) : EReal) := by
  rw [V5_dev_eq]; exact KHostB.V2_dev m ρ c hG t z
theorem V5_I (hG : GoodM m c) (t : Tok) :
    (V5 m ρ c main_v10 : S131072x1.Idx → BitVec 32) (ixP t) = BitVec.ofNat 32 ((I m c).fl t).val := by
  rw [V5_I_eq]; exact KHostA.V1_I m ρ c hG t
theorem V5_V (t : Tok) :
    (V5 m ρ c main_v13 : S131072x1.Idx → EReal) (ixP t) = (((I m c).vl t : ℝ) : EReal) := by
  rw [V5_V_eq]; exact KHostA.V1_V m ρ c t

/-! ## What the host computes between the two kernels, as functions of the arrays it reads

o1, o2, o3: the first kernel's per-half sums (weights, weighted features, weighted squared deviations);
a14, a15, a16: the old mean table, the old sums of squares, the old counts. Each term is the composition the
program's operations spell, array by array. -/

section Terms

variable (o1 : FVec Ideal S2x1x3072 .f32) (o2 o3 : FVec Ideal S2x3072x256 .f32)
  (a14 a15 : FVec Ideal S3072x256 .f32) (a16 : FVec Ideal S3072 .f32)

/-- A per-bin vector laid along the rows of the bins × features rectangle. -/
def col {α : Type} (x : S3072.Idx → α) : S3072x256.Idx → α :=
  broadcastInDim S3072x256 ![0, 1] bcast_S3072x1_S3072x256_0_1 (broadcastInDim S3072x1 ![0] bcast_S3072_S3072x1_0 x)

/-- The weight on each bin: the two halves added, from zero. -/
def t23 : FVec Ideal S3072 .f32 := fun i =>
  shapeCast S3072 (Host.reduceAdd o1 (constant S_ .f32 0x00000000#32) reducesTo_S2x1x3072_S1x3072_d0 h_S_)
    shapeCasts_S1x3072_S3072 i
/-- The weighted feature sums and the weighted squared deviations of each bin: the two halves added, from zero. -/
def t24 : FVec Ideal S3072x256 .f32 :=
  Host.reduceAdd o2 (constant S_ .f32 0x00000000#32) reducesTo_S2x3072x256_S3072x256_d0 h_S_
def t25 : FVec Ideal S3072x256 .f32 :=
  Host.reduceAdd o3 (constant S_ .f32 0x00000000#32) reducesTo_S2x3072x256_S3072x256_d0 h_S_
/-- The new count, and the divisor max(new count, 1). -/
def t26 : FVec Ideal S3072 .f32 := addf a16 (t23 o1)
def t28 : FVec Ideal S3072 .f32 :=
  maximumf (t26 o1 a16) (broadcastInDim S3072 ![] bcast_S_S3072 (constant S_ .f32 0x3F800000#32))
/-- The move of the mean: (feature sum − weight · old mean) / divisor. -/
def t35 : FVec Ideal S3072x256 .f32 :=
  Host.divf (subf (t24 o2) (mulf (col (t23 o1)) a14)) (col (t28 o1 a16))
/-- The new sum of squares: old + (squared deviations − (move · move) · divisor). -/
def t41 : FVec Ideal S3072x256 .f32 :=
  addf a15 (subf (t25 o3) (mulf (mulf (t35 o1 o2 a14 a16) (t35 o1 o2 a14 a16)) (col (t28 o1 a16))))
/-- The variance: 1 where the new count is below 2, else the new sum of squares over the divisor. -/
def t48 : FVec Ideal S3072x256 .f32 :=
  select
    (broadcastInDim S3072x256 ![0, 1] bcast_S3072x1_S3072x256_0_1
      (broadcastInDim S3072x1 ![0] bcast_S3072_S3072x1_0
        (cmpf .olt (t26 o1 a16) (broadcastInDim S3072 ![] bcast_S_S3072 (constant S_ .f32 0x40000000#32)))))
    (broadcastInDim S3072x256 ![] bcast_S_S3072x256 (id (constant S_ .f32 0x3F800000#32)))
    (Host.divf (t41 o1 o2 o3 a14 a15 a16) (col (t28 o1 a16)))
/-- 1 / (√x + ε), array-wise. -/
def f53 (x : FVec Ideal S3072x256 .f32) : FVec Ideal S3072x256 .f32 :=
  Host.divf (broadcastInDim S3072x256 ![] bcast_S_S3072x256 (constant S_ .f32 0x3F800000#32))
    (addf (Host.sqrt x) (broadcastInDim S3072x256 ![] bcast_S_S3072x256 (constant S_ .f32 0x358637BD#32)))

end Terms

section Points

open Cert.IdealReal

/-- A per-bin vector laid along the rows reads, at (bin, feature), the vector at the bin. -/
theorem col_apply {α : Type} (x : S3072.Idx → α) (k : Bin) (z : Ft) : col x (ix2 k z) = x (ix1 k) := by
  unfold col
  exact (bcast_rows bcast_S3072_S3072x1_0 bcast_S3072x1_S3072x256_0_1 x k z).trans (congrArg x (funext fun a => by
    match a with
    | ⟨0, _⟩ => rfl))

/-- A scalar constant spread over the bins, or over the rectangle, reads the constant's value. -/
theorem splat1_apply (b : BitVec 32) (k : Bin) :
    (broadcastInDim S3072 ![] bcast_S_S3072 (constant (F := Ideal) S_ .f32 b) : FVec Ideal S3072 .f32) (ix1 k)
      = Ideal.ofBits .f32 b :=
  bcast_scalar bcast_S_S3072 h_S_ _ _
theorem splat2_apply (b : BitVec 32) (k : Bin) (z : Ft) :
    (broadcastInDim S3072x256 ![] bcast_S_S3072x256 (constant (F := Ideal) S_ .f32 b) : FVec Ideal S3072x256 .f32) (ix2 k z)
      = Ideal.ofBits .f32 b :=
  bcast_scalar bcast_S_S3072x256 h_S_ _ _

/-- The sum over the two halves, from zero, of the per-half weights at a bin. -/
theorem red1_apply (o1 : FVec Ideal S2x1x3072 .f32) (k : Bin) :
    Host.reduceAdd o1 (constant S_ .f32 0x00000000#32) reducesTo_S2x1x3072_S1x3072_d0 h_S_ (ix2 (0 : Fin 1) k)
      = ((0 : ℝ) : EReal) + (o1 (ix3 (0 : Fin 2) (0 : Fin 1) k) + o1 (ix3 (1 : Fin 2) (0 : Fin 1) k)) := by
  have hR : S2x1x3072.Reduces [0] S1x3072 := by decide
  rw [hostReduceAdd_apply, Ideal.hostReduceAdd_single _ hR]
  have hl : ∀ d : Fin 2, hR.lift (ix2 (0 : Fin 1) k) d = ix3 d (0 : Fin 1) k := fun d => funext fun e => by
    match e with
    | ⟨0, _⟩ => exact Fin.ext rfl
    | ⟨1, _⟩ => exact Fin.ext rfl
    | ⟨2, _⟩ => exact Fin.ext rfl
  show Ideal.ofBits .f32 0x00000000#32 + ∑ d : Fin 2, o1 (hR.lift (ix2 (0 : Fin 1) k) d) = _
  rw [Fin.sum_univ_two, hl, hl, ofBits_zero]

/-- The sum over the two halves, from zero, of a per-half bins × features array. -/
theorem red2_apply (o2 : FVec Ideal S2x3072x256 .f32) (k : Bin) (z : Ft) :
    Host.reduceAdd o2 (constant S_ .f32 0x00000000#32) reducesTo_S2x3072x256_S3072x256_d0 h_S_ (ix2 k z)
      = ((0 : ℝ) : EReal) + (o2 (ix3 (0 : Fin 2) k z) + o2 (ix3 (1 : Fin 2) k z)) := by
  have hR : S2x3072x256.Reduces [0] S3072x256 := by decide
  rw [hostReduceAdd_apply, Ideal.hostReduceAdd_single _ hR]
  have hl : ∀ d : Fin 2, hR.lift (ix2 k z) d = ix3 d k z := fun d => funext fun e => by
    match e with
    | ⟨0, _⟩ => exact Fin.ext rfl
    | ⟨1, _⟩ => exact Fin.ext rfl
    | ⟨2, _⟩ => exact Fin.ext rfl
  show Ideal.ofBits .f32 0x00000000#32 + ∑ d : Fin 2, o2 (hR.lift (ix2 k z) d) = _
  rw [Fin.sum_univ_two, hl, hl, ofBits_zero]

variable (o1 : FVec Ideal S2x1x3072 .f32) (o2 o3 : FVec Ideal S2x3072x256 .f32)
  (a14 a15 : FVec Ideal S3072x256 .f32) (a16 : FVec Ideal S3072 .f32)

/-- The weight on a bin is the sum of its two halves' weights. -/
theorem t23_apply (k : Bin) {a b : ℝ} (h0 : o1 (ix3 (0 : Fin 2) (0 : Fin 1) k) = (a : EReal))
    (h1 : o1 (ix3 (1 : Fin 2) (0 : Fin 1) k) = (b : EReal)) : t23 o1 (ix1 k) = ((a + b : ℝ) : EReal) := by
  unfold t23
  rw [shapeCast_apply _ _ (ix1 k) (ix2 (0 : Fin 1) k) (by
    rw [Shape.rowMajor_val_two, Shape.rowMajor_val_one]
    show 0 * 3072 + k.val = k.val
    omega)]
  rw [red1_apply, h0, h1, add_coe, add_coe, zero_add]

/-- A bin's feature sum is the sum of its two halves'. -/
theorem t24_apply (k : Bin) (z : Ft) {p0 p1 : ℝ} (h0 : o2 (ix3 (0 : Fin 2) k z) = (p0 : EReal))
    (h1 : o2 (ix3 (1 : Fin 2) k z) = (p1 : EReal)) : t24 o2 (ix2 k z) = ((p0 + p1 : ℝ) : EReal) := by
  unfold t24
  rw [red2_apply, h0, h1, add_coe, add_coe, zero_add]
theorem t25_apply (k : Bin) (z : Ft) {s0 s1 : ℝ} (h0 : o3 (ix3 (0 : Fin 2) k z) = (s0 : EReal))
    (h1 : o3 (ix3 (1 : Fin 2) k z) = (s1 : EReal)) : t25 o3 (ix2 k z) = ((s0 + s1 : ℝ) : EReal) := by
  unfold t25
  rw [red2_apply, h0, h1, add_coe, add_coe, zero_add]

/-- The new count. -/
theorem t26_apply (k : Bin) {w n : ℝ} (hw : t23 o1 (ix1 k) = (w : EReal)) (hn : a16 (ix1 k) = (n : EReal)) :
    t26 o1 a16 (ix1 k) = ((n + w : ℝ) : EReal) := by
  unfold t26
  rw [addf_apply, hn, hw, add_coe]

/-- The divisor. -/
theorem t28_apply (k : Bin) {N : ℝ} (hN : t26 o1 a16 (ix1 k) = (N : EReal)) :
    t28 o1 a16 (ix1 k) = ((max N 1 : ℝ) : EReal) := by
  unfold t28
  rw [maximumf_apply, hN, splat1_apply, ofBits_one, max_coe]

/-- The move of the mean. -/
theorem t35_apply (k : Bin) (z : Ft) {w D p μ : ℝ} (hw : t23 o1 (ix1 k) = (w : EReal))
    (hD : t28 o1 a16 (ix1 k) = (D : EReal)) (hD0 : D ≠ 0) (hp : t24 o2 (ix2 k z) = (p : EReal))
    (hμ : a14 (ix2 k z) = (μ : EReal)) :
    t35 o1 o2 a14 a16 (ix2 k z) = (((p - w * μ) / D : ℝ) : EReal) := by
  unfold t35
  rw [hostDivf_apply, subf_apply, mulf_apply, col_apply, col_apply, hw, hD, hp, hμ, mul_coe, sub_coe,
    div_coe_coe _ hD0]

/-- The new sum of squares. -/
theorem t41_apply (k : Bin) (z : Ft) {M D q s : ℝ} (hM : t35 o1 o2 a14 a16 (ix2 k z) = (M : EReal))
    (hD : t28 o1 a16 (ix1 k) = (D : EReal)) (hq : a15 (ix2 k z) = (q : EReal)) (hs : t25 o3 (ix2 k z) = (s : EReal)) :
    t41 o1 o2 o3 a14 a15 a16 (ix2 k z) = ((q + (s - M * M * D) : ℝ) : EReal) := by
  unfold t41
  rw [addf_apply, subf_apply, mulf_apply, mulf_apply, col_apply, hM, hD, hq, hs, mul_coe, mul_coe, sub_coe, add_coe]

end Points

section Points2

open Cert.IdealReal

variable (o1 : FVec Ideal S2x1x3072 .f32) (o2 o3 : FVec Ideal S2x3072x256 .f32)
  (a14 a15 : FVec Ideal S3072x256 .f32) (a16 : FVec Ideal S3072 .f32)

/-- The variance: 1 where the new count is below 2, else the new sum of squares over the divisor. -/
theorem t48_apply (k : Bin) (z : Ft) {N D Q : ℝ} (hN : t26 o1 a16 (ix1 k) = (N : EReal))
    (hD : t28 o1 a16 (ix1 k) = (D : EReal)) (hD0 : D ≠ 0) (hQ : t41 o1 o2 o3 a14 a15 a16 (ix2 k z) = (Q : EReal)) :
    t48 o1 o2 o3 a14 a15 a16 (ix2 k z) = ((if N < 2 then 1 else Q / D : ℝ) : EReal) := by
  unfold t48
  rw [select_apply, hostDivf_apply, col_apply, hQ, hD, div_coe_coe _ hD0]
  have hc : (broadcastInDim S3072x256 ![0, 1] bcast_S3072x1_S3072x256_0_1
      (broadcastInDim S3072x1 ![0] bcast_S3072_S3072x1_0
        (cmpf .olt (t26 o1 a16) (broadcastInDim S3072 ![] bcast_S_S3072 (constant S_ .f32 0x40000000#32))))) (ix2 k z)
      = FloatOps.cmpf (F := Ideal) (φ := .f32) .olt (N : EReal) ((2 : ℝ) : EReal) := by
    rw [show (broadcastInDim S3072x256 ![0, 1] bcast_S3072x1_S3072x256_0_1
        (broadcastInDim S3072x1 ![0] bcast_S3072_S3072x1_0
          (cmpf .olt (t26 o1 a16) (broadcastInDim S3072 ![] bcast_S_S3072 (constant S_ .f32 0x40000000#32))))) (ix2 k z)
        = col (cmpf .olt (t26 o1 a16) (broadcastInDim S3072 ![] bcast_S_S3072 (constant S_ .f32 0x40000000#32))) (ix2 k z)
        from rfl, col_apply, cmpf_apply, hN, splat1_apply, ofBits_two]
  have h1 : (broadcastInDim S3072x256 ![] bcast_S_S3072x256 (id (constant (F := Ideal) S_ .f32 0x3F800000#32))
      : FVec Ideal S3072x256 .f32) (ix2 k z) = ((1 : ℝ) : EReal) := by
    rw [id, splat2_apply, ofBits_one]
  rw [hc, h1, select_cmpf_olt]
  split_ifs <;> rfl

/-- The factor 1 / (√v + ε) at a real v. -/
theorem f53_apply (x : FVec Ideal S3072x256 .f32) (k : Bin) (z : Ft) {v : ℝ} (hv : x (ix2 k z) = (v : EReal)) :
    f53 x (ix2 k z) = ((rs epsR v : ℝ) : EReal) := by
  unfold f53
  show FloatOps.hostDivf (F := Ideal) (φ := .f32)
      ((broadcastInDim S3072x256 ![] bcast_S_S3072x256 (constant (F := Ideal) S_ .f32 0x3F800000#32) : FVec Ideal S3072x256 .f32) (ix2 k z))
      (FloatOps.addf (FloatOps.hostUnary .sqrt (x (ix2 k z)))
        ((broadcastInDim S3072x256 ![] bcast_S_S3072x256 (constant (F := Ideal) S_ .f32 0x358637BD#32) : FVec Ideal S3072x256 .f32) (ix2 k z))) = _
  rw [splat2_apply, splat2_apply, ofBits_one, ofBits_eps, hv, hostDivf_one_sqrt_add v epsR_pos]

end Points2

/-! ## The three stretches of host operations, each from any contents V of the buffers

What a stretch leaves in the buffers the next one (or the second kernel) reads, as the stretch's operations compose. -/

section Stretches

variable (V : Valuation τ sig (Elt Ideal))

/-- The first stretch: the move of the mean. -/
theorem s35 : (StableHlo.after hostOps1 V (Proc.devRef .tc main_v35) : S3072x256.Idx → EReal)
    = t35 (V (Proc.devRef .tc main_v21_1)) (V (Proc.devRef .tc main_v21_2)) (V (Proc.devRef .tc main_v14))
        (V (Proc.devRef .tc main_v16)) := by
  dsimp only [Gen.hostOps1]; after_results_simp; rfl

/-- The first stretch: the new sum of squares over the divisor. -/
theorem s44 : (StableHlo.after hostOps1 V (Proc.devRef .tc main_v44) : S3072x256.Idx → EReal)
    = Host.divf (t41 (V (Proc.devRef .tc main_v21_1)) (V (Proc.devRef .tc main_v21_2)) (V (Proc.devRef .tc main_v21_3))
          (V (Proc.devRef .tc main_v14)) (V (Proc.devRef .tc main_v15)) (V (Proc.devRef .tc main_v16)))
        (col (t28 (V (Proc.devRef .tc main_v21_1)) (V (Proc.devRef .tc main_v16)))) := by
  dsimp only [Gen.hostOps1]; after_results_simp; rfl

/-- The first stretch: "the new count is below 2", as a column. -/
theorem s47 : (StableHlo.after hostOps1 V (Proc.devRef .tc main_v47) : S3072x1.Idx → BitVec 1)
    = broadcastInDim S3072x1 ![0] bcast_S3072_S3072x1_0
        (cmpf .olt (t26 (V (Proc.devRef .tc main_v21_1)) (V (Proc.devRef .tc main_v16)))
          (broadcastInDim S3072 ![] bcast_S_S3072 (constant S_ .f32 0x40000000#32))) := by
  dsimp only [Gen.hostOps1]; after_results_simp; rfl

/-- The first stretch: the constant 1 the choice takes. -/
theorem sOne : (StableHlo.after hostOps1 V (Proc.devRef .tc main_cst_5) : S_.Idx → EReal)
    = (constant S_ .f32 0x3F800000#32 : FVec Ideal S_ .f32) := by
  dsimp only [Gen.hostOps1]; after_results_simp

/-- The second stretch: the choice. -/
theorem s48 : (StableHlo.after hostOps1_1 V (Proc.devRef .tc main_v48) : S3072x256.Idx → EReal)
    = select (broadcastInDim S3072x256 ![0, 1] bcast_S3072x1_S3072x256_0_1 (V (Proc.devRef .tc main_v47) : S3072x1.Idx → BitVec 1))
        (broadcastInDim S3072x256 ![] bcast_S_S3072x256 (id (V (Proc.devRef .tc main_cst_5) : S_.Idx → EReal)))
        (V (Proc.devRef .tc main_v44) : S3072x256.Idx → EReal) := by
  dsimp only [Gen.hostOps1_1]; after_results_simp; rfl

/-- The second stretch leaves the move of the mean alone. -/
theorem s35' : StableHlo.after hostOps1_1 V (Proc.devRef .tc main_v35) = V (Proc.devRef .tc main_v35) := by
  dsimp only [Gen.hostOps1_1]; after_results_simp

/-- The third stretch: the move of the mean and the factor, each as a pair. -/
theorem s54 : (StableHlo.after hostOps1_2 V (Proc.devRef .tc main_v54) : S3072x256.Idx → EReal)
    = (truncf .bf16 (V (Proc.devRef .tc main_v35) : FVec Ideal S3072x256 .f32) bitsLt_bf16_f32 : FVec Ideal S3072x256 .bf16) := by
  dsimp only [Gen.hostOps1_2]; after_results_simp
theorem s57 : (StableHlo.after hostOps1_2 V (Proc.devRef .tc main_v57) : S3072x256.Idx → EReal)
    = (truncf .bf16 (subf (V (Proc.devRef .tc main_v35) : FVec Ideal S3072x256 .f32)
        (extf .f32 (truncf .bf16 (V (Proc.devRef .tc main_v35) : FVec Ideal S3072x256 .f32) bitsLt_bf16_f32) bitsLt_bf16_f32))
        bitsLt_bf16_f32 : FVec Ideal S3072x256 .bf16) := by
  dsimp only [Gen.hostOps1_2]; after_results_simp

theorem s58 : (StableHlo.after hostOps1_2 V (Proc.devRef .tc main_v58) : S3072x256.Idx → EReal)
    = truncf .bf16 (f53 (V (Proc.devRef .tc main_v48))) bitsLt_bf16_f32 := by
  dsimp only [Gen.hostOps1_2]; after_results_simp; rfl
theorem s61 : (StableHlo.after hostOps1_2 V (Proc.devRef .tc main_v61) : S3072x256.Idx → EReal)
    = truncf .bf16 (subf (f53 (V (Proc.devRef .tc main_v48)))
        (extf .f32 (truncf .bf16 (f53 (V (Proc.devRef .tc main_v48))) bitsLt_bf16_f32) bitsLt_bf16_f32)) bitsLt_bf16_f32 := by
  dsimp only [Gen.hostOps1_2]; after_results_simp; rfl

end Stretches

/-! ## The second kernel's entry arrays, bin by bin -/

section Final

open Cert.IdealReal

/-- The old tables and counts: the first kernel has no window on them. -/
theorem V2_mean (hG : GoodM m c) (k : Bin) (z : Ft) :
    (V2 m ρ c main_v14 : S3072x256.Idx → EReal) (ix2 k z) = (((I m c).mean0 k z : ℝ) : EReal) := by
  rw [KHostB.V2_keep m ρ c main_v14 (by decide)]; exact KHostA.V1_mean m ρ c hG k z
theorem V2_m2 (hG : GoodM m c) (k : Bin) (z : Ft) :
    (V2 m ρ c main_v15 : S3072x256.Idx → EReal) (ix2 k z) = (((I m c).m20 k z : ℝ) : EReal) := by
  rw [KHostB.V2_keep m ρ c main_v15 (by decide)]; exact KHostA.V1_m2 m ρ c hG k z
theorem V2_n (hG : GoodM m c) (k : Bin) :
    (V2 m ρ c main_v16 : S3072.Idx → EReal) (ix1 k) = (((I m c).n0 k : ℝ) : EReal) := by
  rw [KHostB.V2_keep m ρ c main_v16 (by decide)]; exact KHostA.V1_n m ρ c hG k

/-- The six arrays the host operations read, as the first kernel leaves them. -/
abbrev O1 : FVec Ideal S2x1x3072 .f32 := V2 m ρ c main_v21_1
abbrev O2 : FVec Ideal S2x3072x256 .f32 := V2 m ρ c main_v21_2
abbrev O3 : FVec Ideal S2x3072x256 .f32 := V2 m ρ c main_v21_3
abbrev A14 : FVec Ideal S3072x256 .f32 := V2 m ρ c main_v14
abbrev A15 : FVec Ideal S3072x256 .f32 := V2 m ρ c main_v15
abbrev A16 : FVec Ideal S3072 .f32 := V2 m ρ c main_v16

/-- The weight on a bin: the two half sums make the whole sum. -/
theorem w23 (hG : GoodM m c) (k : Bin) : t23 (O1 m ρ c) (ix1 k) = ((cnt (I m c) k : ℝ) : EReal) := by
  rw [t23_apply _ k (KHostB.V2_cnt m ρ c hG 0 k) (KHostB.V2_cnt m ρ c hG 1 k), cnt_halves]
theorem w24 (hG : GoodM m c) (k : Bin) (z : Ft) : t24 (O2 m ρ c) (ix2 k z) = ((spv (I m c) k z : ℝ) : EReal) := by
  rw [t24_apply _ k z (KHostB.V2_spv m ρ c hG 0 k z) (KHostB.V2_spv m ρ c hG 1 k z), spv_halves]
theorem w25 (hG : GoodM m c) (k : Bin) (z : Ft) : t25 (O3 m ρ c) (ix2 k z) = ((s2 (I m c) k z : ℝ) : EReal) := by
  rw [t25_apply _ k z (KHostB.V2_s2 m ρ c hG 0 k z) (KHostB.V2_s2 m ρ c hG 1 k z), s2_halves]
/-- The new count and the divisor. -/
theorem w26 (hG : GoodM m c) (k : Bin) : t26 (O1 m ρ c) (A16 m ρ c) (ix1 k) = ((nnew (I m c) k : ℝ) : EReal) := by
  rw [t26_apply _ _ k (w23 m ρ c hG k) (V2_n m ρ c hG k)]; rfl
theorem w28 (hG : GoodM m c) (k : Bin) : t28 (O1 m ρ c) (A16 m ρ c) (ix1 k) = ((den (I m c) k : ℝ) : EReal) := by
  rw [t28_apply _ _ k (w26 m ρ c hG k)]; rfl
/-- The move of the mean. -/
theorem w35 (hG : GoodM m c) (k : Bin) (z : Ft) : t35 (O1 m ρ c) (O2 m ρ c) (A14 m ρ c) (A16 m ρ c) (ix2 k z) = ((md (I m c) k z : ℝ) : EReal) := by
  rw [t35_apply _ _ _ _ k z (w23 m ρ c hG k) (w28 m ρ c hG k) (den_pos (I m c) k).ne' (w24 m ρ c hG k z)
    (V2_mean m ρ c hG k z)]; rfl
/-- The new sum of squares. -/
theorem w41 (hG : GoodM m c) (k : Bin) (z : Ft) :
    t41 (O1 m ρ c) (O2 m ρ c) (O3 m ρ c) (A14 m ρ c) (A15 m ρ c) (A16 m ρ c) (ix2 k z) = ((m2K (I m c) k z : ℝ) : EReal) := by
  rw [t41_apply _ _ _ _ _ _ k z (w35 m ρ c hG k z) (w28 m ρ c hG k) (V2_m2 m ρ c hG k z) (w25 m ρ c hG k z)]; rfl
/-- The variance and the factor. -/
theorem w48 (hG : GoodM m c) (k : Bin) (z : Ft) :
    t48 (O1 m ρ c) (O2 m ρ c) (O3 m ρ c) (A14 m ρ c) (A15 m ρ c) (A16 m ρ c) (ix2 k z) = ((varOf (I m c) (m2K (I m c)) k z : ℝ) : EReal) := by
  rw [t48_apply _ _ _ _ _ _ k z (w26 m ρ c hG k) (w28 m ρ c hG k) (den_pos (I m c) k).ne' (w41 m ρ c hG k z)]; rfl
theorem w53 (hG : GoodM m c) (k : Bin) (z : Ft) :
    f53 (t48 (O1 m ρ c) (O2 m ρ c) (O3 m ρ c) (A14 m ρ c) (A15 m ρ c) (A16 m ρ c)) (ix2 k z) = ((rs epsR (varOf (I m c) (m2K (I m c)) k z) : ℝ) : EReal) :=
  f53_apply _ k z (w48 m ρ c hG k z)

/-- What the second stretch leaves: the move of the mean as the first stretch made it, and the variance. -/
theorem W4_v35 : (W4 m ρ c (Proc.devRef .tc main_v35) : FVec Ideal S3072x256 .f32) = t35 (O1 m ρ c) (O2 m ρ c) (A14 m ρ c) (A16 m ρ c) :=
  (s35' (StableHlo.after hostOps1 (W2 m ρ c))).trans (s35 (W2 m ρ c))
theorem W4_v48 : (W4 m ρ c (Proc.devRef .tc main_v48) : FVec Ideal S3072x256 .f32) = t48 (O1 m ρ c) (O2 m ρ c) (O3 m ρ c) (A14 m ρ c) (A15 m ρ c) (A16 m ρ c) := by
  refine (s48 (StableHlo.after hostOps1 (W2 m ρ c))).trans ?_
  rw [s47, sOne, s44]
  rfl

theorem V5_mdH (hG : GoodM m c) (k : Bin) (z : Ft) :
    (V5 m ρ c main_v54 : S3072x256.Idx → EReal) (ix2 k z) = ((md (I m c) k z : ℝ) : EReal) := by
  have e := s54 (W4 m ρ c)
  rw [W4_v35] at e
  refine (congrFun e (ix2 k z)).trans ?_
  rw [truncf_apply]
  exact w35 m ρ c hG k z
theorem V5_mdL (hG : GoodM m c) (k : Bin) (z : Ft) :
    (V5 m ρ c main_v57 : S3072x256.Idx → EReal) (ix2 k z) = ((0 : ℝ) : EReal) := by
  have e := s57 (W4 m ρ c)
  rw [W4_v35] at e
  refine (congrFun e (ix2 k z)).trans ?_
  show FloatOps.subf (F := Ideal) (φ := .f32) (t35 (O1 m ρ c) (O2 m ρ c) (A14 m ρ c) (A16 m ρ c) (ix2 k z))
    (FloatOps.extf (F := Ideal) .f32 bitsLt_bf16_f32 (FloatOps.truncf (F := Ideal) (φ := .f32) .bf16 bitsLt_bf16_f32
      (t35 (O1 m ρ c) (O2 m ρ c) (A14 m ρ c) (A16 m ρ c) (ix2 k z)))) = _
  rw [w35 m ρ c hG k z, subf_extf_truncf]
theorem V5_rsH (hG : GoodM m c) (k : Bin) (z : Ft) :
    (V5 m ρ c main_v58 : S3072x256.Idx → EReal) (ix2 k z) = ((rs epsR (varOf (I m c) (m2K (I m c)) k z) : ℝ) : EReal) := by
  have e := s58 (W4 m ρ c)
  rw [W4_v48] at e
  refine (congrFun e (ix2 k z)).trans ?_
  rw [truncf_apply]
  exact w53 m ρ c hG k z
theorem V5_rsL (hG : GoodM m c) (k : Bin) (z : Ft) :
    (V5 m ρ c main_v61 : S3072x256.Idx → EReal) (ix2 k z) = ((0 : ℝ) : EReal) := by
  have e := s61 (W4 m ρ c)
  rw [W4_v48] at e
  refine (congrFun e (ix2 k z)).trans ?_
  show FloatOps.subf (F := Ideal) (φ := .f32) (f53 (t48 (O1 m ρ c) (O2 m ρ c) (O3 m ρ c) (A14 m ρ c) (A15 m ρ c) (A16 m ρ c)) (ix2 k z))
    (FloatOps.extf (F := Ideal) .f32 bitsLt_bf16_f32 (FloatOps.truncf (F := Ideal) (φ := .f32) .bf16 bitsLt_bf16_f32
      (f53 (t48 (O1 m ρ c) (O2 m ρ c) (O3 m ρ c) (A14 m ρ c) (A15 m ρ c) (A16 m ρ c)) (ix2 k z)))) = _
  rw [w53 m ρ c hG k z, subf_extf_truncf]

end Final

end Cert.KernelIdeal.KHostC

end
-- ==== Proof.KReg1.lean ====
/-
  What the second kernel leaves in its output array, from the arrays it is entered with: block by block, every token's
  deviation minus the move of its bin's mean, times its bin's factor, clamped, times its weight.
-/
import proofs.«414065_j58420145160519_3_alg».proof.Proof.Gen.KernelIdeal.Frame
import proofs.«414065_j58420145160519_3_alg».proof.Proof.KPay
import Idealize.ShloMosaic.Lib.Pipeline.Value

set_option maxRecDepth 16384

noncomputable section

open scoped BigOperators

namespace Cert.KernelIdeal.KReg1

open Cert.KernelIdeal Cert.KernelIdeal.Gen Cert.KernelIdeal.KPay
open Idealize.ShloMosaic Idealize.ShloMosaic.TcCoe Idealize.ShloMosaic.ValueIdx Idealize.ShloMosaic.StableHlo.Predicate

variable (V : (c : Dev nD) → (b : Ref sig .tc) → Buf (Elt Ideal) ((c : Thread nD τ).loc b))

/-- The region's seven input arrays, at their literal types: deviations, bin words, weights, and the four tables. -/
abbrev bD (c : Dev nD) : S131072x256.Idx → EReal := V c main_v21_0
abbrev bI (c : Dev nD) : S131072x1.Idx → BitVec 32 := V c main_v10
abbrev bV (c : Dev nD) : S131072x1.Idx → EReal := V c main_v13
abbrev bMh (c : Dev nD) : S3072x256.Idx → EReal := V c main_v54
abbrev bMl (c : Dev nD) : S3072x256.Idx → EReal := V c main_v57
abbrev bRh (c : Dev nD) : S3072x256.Idx → EReal := V c main_v58
abbrev bRl (c : Dev nD) : S3072x256.Idx → EReal := V c main_v61

/-- The zero offsets of a whole-block access, as the constant function. -/
theorem hz : (![0, 0] : Fin 2 → Nat) = fun _ => 0 := funext fun a => by fin_cases a <;> rfl

/-- The block index maps, decided over the 128 grid points: point n takes block n of the token-indexed arrays
    (windows 0, 1, 2 and the output's, 7) and block 0, the whole table, of windows 3 … 6. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks, read at an entry -/

/-- Row r of the deviation block at point n is row n·1024 + r of the deviation array. -/
theorem blkD (c : Dev nD) (n : Fin cfg1.N) (r : Fin 1024) (z : Fin 256) (t : Fin 131072)
    (ht : t.val = n.val * 1024 + r.val) :
    (iblk1 V c 0 n : S1024x256.Idx → EReal) (ix2 r z) = bD V c (ix2 t z) := by
  obtain ⟨e0, e1, -⟩ := idx_facts n
  unfold iblk1
  rw [View.read_apply]
  show V c main_v21_0 _ = V c main_v21_0 _
  congr 1
  funext a
  apply Fin.ext
  match a with
  | ⟨0, _⟩ => show win1_0.index n (0 : Fin 2) * 1024 + 1 * r.val = t.val; rw [e0, ht]; omega
  | ⟨1, _⟩ => show win1_0.index n (1 : Fin 2) * 256 + 1 * z.val = z.val; rw [e1]; omega

/-- Row r of the bin-word block at point n is row n·1024 + r of the bin-word column. -/
theorem blkI (c : Dev nD) (n : Fin cfg1.N) (r : Fin 1024) (t : Fin 131072)
    (ht : t.val = n.val * 1024 + r.val) :
    (iblk1 V c 1 n : S1024x1.Idx → BitVec 32) (ixP r) = bI V c (ixP t) := by
  obtain ⟨-, -, e0, e1, -⟩ := idx_facts n
  unfold iblk1
  rw [View.read_apply]
  show V c main_v10 _ = V c main_v10 _
  congr 1
  funext a
  apply Fin.ext
  match a with
  | ⟨0, _⟩ => show win1_1.index n (0 : Fin 2) * 1024 + 1 * r.val = t.val; rw [e0, ht]; omega
  | ⟨1, _⟩ => show win1_1.index n (1 : Fin 2) * 1 + 1 * 0 = 0; rw [e1]

/-- Row r of the weight block at point n is row n·1024 + r of the weight column. -/
theorem blkV (c : Dev nD) (n : Fin cfg1.N) (r : Fin 1024) (t : Fin 131072)
    (ht : t.val = n.val * 1024 + r.val) :
    (iblk1 V c 2 n : S1024x1.Idx → EReal) (ixP r) = bV V c (ixP t) := by
  obtain ⟨-, -, -, -, e0, e1, -⟩ := idx_facts n
  unfold iblk1
  rw [View.read_apply]
  show V c main_v13 _ = V c main_v13 _
  congr 1
  funext a
  apply Fin.ext
  match a with
  | ⟨0, _⟩ => show win1_2.index n (0 : Fin 2) * 1024 + 1 * r.val = t.val; rw [e0, ht]; omega
  | ⟨1, _⟩ => show win1_2.index n (1 : Fin 2) * 1 + 1 * 0 = 0; rw [e1]

/-- Each table's one block is the table. -/
theorem blkMh (c : Dev nD) (n : Fin cfg1.N) : (iblk1 V c 3 n : S3072x256.Idx → EReal) = bMh V c := by
  obtain ⟨-, -, -, -, -, -, e0, e1, -⟩ := idx_facts n
  funext j
  unfold iblk1
  rw [View.read_apply]
  show V c main_v54 _ = V c main_v54 _
  congr 1
  funext a
  apply Fin.ext
  match a with
  | ⟨0, _⟩ => show win1_3.index n (0 : Fin 2) * 3072 + 1 * (j 0).val = (j 0).val; rw [e0]; omega
  | ⟨1, _⟩ => show win1_3.index n (1 : Fin 2) * 256 + 1 * (j 1).val = (j 1).val; rw [e1]; omega

theorem blkMl (c : Dev nD) (n : Fin cfg1.N) : (iblk1 V c 4 n : S3072x256.Idx → EReal) = bMl V c := by
  obtain ⟨-, -, -, -, -, -, -, -, e0, e1, -⟩ := idx_facts n
  funext j
  unfold iblk1
  rw [View.read_apply]
  show V c main_v57 _ = V c main_v57 _
  congr 1
  funext a
  apply Fin.ext
  match a with
  | ⟨0, _⟩ => show win1_4.index n (0 : Fin 2) * 3072 + 1 * (j 0).val = (j 0).val; rw [e0]; omega
  | ⟨1, _⟩ => show win1_4.index n (1 : Fin 2) * 256 + 1 * (j 1).val = (j 1).val; rw [e1]; omega

theorem blkRh (c : Dev nD) (n : Fin cfg1.N) : (iblk1 V c 5 n : S3072x256.Idx → EReal) = bRh V c := by
  obtain ⟨-, -, -, -, -, -, -, -, -, -, e0, e1, -⟩ := idx_facts n
  funext j
  unfold iblk1
  rw [View.read_apply]
  show V c main_v58 _ = V c main_v58 _
  congr 1
  funext a
  apply Fin.ext
  match a with
  | ⟨0, _⟩ => show win1_5.index n (0 : Fin 2) * 3072 + 1 * (j 0).val = (j 0).val; rw [e0]; omega
  | ⟨1, _⟩ => show win1_5.index n (1 : Fin 2) * 256 + 1 * (j 1).val = (j 1).val; rw [e1]; omega

theorem blkRl (c : Dev nD) (n : Fin cfg1.N) : (iblk1 V c 6 n : S3072x256.Idx → EReal) = bRl V c := by
  obtain ⟨-, -, -, -, -, -, -, -, -, -, -, -, e0, e1, -⟩ := idx_facts n
  funext j
  unfold iblk1
  rw [View.read_apply]
  show V c main_v61 _ = V c main_v61 _
  congr 1
  funext a
  apply Fin.ext
  match a with
  | ⟨0, _⟩ => show win1_6.index n (0 : Fin 2) * 3072 + 1 * (j 0).val = (j 0).val; rw [e0]; omega
  | ⟨1, _⟩ => show win1_6.index n (1 : Fin 2) * 256 + 1 * (j 1).val = (j 1).val; rw [e1]; omega

/-! ## The output array as one function of the input arrays -/

/-- Entry (t, z) of the output: token t's deviation minus the move of its bin's mean, times its bin's factor,
    clamped to [−5, 5], times the token's weight. -/
def gval (c : Dev nD) (t : Fin 131072) (z : Fin 256) : EReal :=
  min (Ideal.ofBits .f32 0x40A00000#32) (max (Ideal.ofBits .f32 0xC0A00000#32)
      ((bD V c (ix2 t z) - ((∑ k : Fin 3072, oh (bI V c (ixP t)) k * bMh V c (ix2 k z)) + ∑ k : Fin 3072, oh (bI V c (ixP t)) k * bMl V c (ix2 k z)))
        * ((∑ k : Fin 3072, oh (bI V c (ixP t)) k * bRh V c (ix2 k z)) + ∑ k : Fin 3072, oh (bI V c (ixP t)) k * bRl V c (ix2 k z))))
    * bV V c (ixP t)

/-- The whole output array. -/
def G (c : Dev nD) : S131072x256.Idx → EReal := fun i => gval V c (i 0) (i 1)

theorem G_apply (c : Dev nD) (t : Fin 131072) (z : Fin 256) : G V c (ix2 t z) = gval V c t z := rfl

/-- What point n writes back is block n of the whole-array function: entry (r, z) of the block is entry
    (n·1024 + r, z) of the array, on the output's side and on every token-indexed input's. -/
theorem flushed_eq (c : Dev nD) (n : Fin cfg1.N) :
    (dat1 V c).flushed 7 n = ((cfg1.win 7).blk n).view.read (Elt Ideal) (G V c) := by
  show (cfg1.win 7).cut (grid1.coords n) ((dat1 V c).after 7 n) = _
  rw [after1_7]
  unfold out1_7
  rw [View.canon_unit_zero hz]
  simp only [View.ld_unit_zero (S := S1024x1) hz, View.ld_unit_zero (S := S3072x256) hz, View.ld_unit_zero (S := S1024x256) hz]
  funext j
  obtain ⟨r, z, rfl⟩ : ∃ (r : Fin 1024) (z : Fin 256), j = ix2 r z := ⟨j 0, j 1, eq_ix2 j⟩
  have hn : n.val < 128 := lt_of_lt_of_eq n.isLt (show cfg1.N = 128 from N_1)
  obtain ⟨t, ht⟩ : ∃ t : Fin 131072, t.val = n.val * 1024 + r.val := ⟨⟨n.val * 1024 + r.val, by omega⟩, rfl⟩
  obtain ⟨-, -, -, -, -, -, -, -, -, -, -, -, -, -, e0, e1⟩ := idx_facts n
  refine (k1_pay1_apply (iblk1 V c 1 n) (iblk1 V c 3 n) (iblk1 V c 4 n) (iblk1 V c 5 n) (iblk1 V c 6 n) (iblk1 V c 0 n) (iblk1 V c 2 n) r z).trans ?_
  rw [blkD V c n r z t ht, blkI V c n r t ht, blkV V c n r t ht, blkMh V c n, blkMl V c n, blkRh V c n, blkRl V c n]
  rw [View.read_apply]
  show gval V c t z = G V c (((cfg1.win 7).blk n).view.emb (ix2 r z))
  have hemb : ((cfg1.win 7).blk n).view.emb (ix2 r z) = (ix2 t z : S131072x256.Idx) := by
    funext a
    apply Fin.ext
    match a with
    | ⟨0, _⟩ => show win1_7.index n (0 : Fin 2) * 1024 + 1 * r.val = t.val; rw [e0, ht]; omega
    | ⟨1, _⟩ => show win1_7.index n (1 : Fin 2) * 256 + 1 * z.val = z.val; rw [e1]; omega
  rw [hemb]
  rfl

/-- Row t of the array lies in block t / 1024, and every point writes its block back. -/
theorem cover (i : S131072x256.Idx) :
    ∃ n : Fin cfg1.N, (cfg1.win 7).flush n = true ∧ i ∈ ((cfg1.win 7).blk n).view.set := by
  have hi0 : (i 0).val < 131072 := (i 0).isLt
  have hi1 : (i 1).val < 256 := (i 1).isLt
  obtain ⟨n, hn⟩ : ∃ n : Fin cfg1.N, n.val = (i 0).val / 1024 :=
    ⟨⟨(i 0).val / 1024, lt_of_lt_of_eq (by omega : (i 0).val / 1024 < 128) (show cfg1.N = 128 from N_1).symm⟩, rfl⟩
  obtain ⟨-, -, -, -, -, -, -, -, -, -, -, -, -, -, e0, e1⟩ := idx_facts n
  refine ⟨n, flush1_7 n, ?_⟩
  show i ∈ ((View.whole main_v62).slice (win1_7.rect n)).set
  rw [View.set_slice_whole, Rect.mem_set_unit]
  intro a
  match a with
  | ⟨0, _⟩ => show win1_7.index n (0 : Fin 2) * 1024 ≤ (i 0).val ∧ (i 0).val < win1_7.index n (0 : Fin 2) * 1024 + 1024; rw [e0, hn]; omega
  | ⟨1, _⟩ => show win1_7.index n (1 : Fin 2) * 256 ≤ (i 1).val ∧ (i 1).val < win1_7.index n (1 : Fin 2) * 256 + 256; rw [e1]; omega

/-- The output array after the last point is the whole-array function. -/
theorem arr7_eq (c : Dev nD) : ((dat1 V c).arrAt 7 cfg1.N : S131072x256.Idx → EReal) = G V c :=
  (dat1 V c).arrAt_eq_of_cover 7 (G V c) (fun n _ => flushed_eq V c n) cover

theorem arr7 (c : Dev nD) (t : Fin 131072) (z : Fin 256) :
    ((dat1 V c).arrAt 7 cfg1.N : S131072x256.Idx → EReal) (ix2 t z)
      = min (Ideal.ofBits .f32 0x40A00000#32) (max (Ideal.ofBits .f32 0xC0A00000#32)
          ((bD V c (ix2 t z) - ((∑ k : Fin 3072, oh (bI V c (ixP t)) k * bMh V c (ix2 k z)) + ∑ k : Fin 3072, oh (bI V c (ixP t)) k * bMl V c (ix2 k z)))
            * ((∑ k : Fin 3072, oh (bI V c (ixP t)) k * bRh V c (ix2 k z)) + ∑ k : Fin 3072, oh (bI V c (ixP t)) k * bRl V c (ix2 k z))))
        * bV V c (ixP t) :=
  (congrFun (arr7_eq V c) (ix2 t z)).trans (G_apply V c t z)

end Cert.KernelIdeal.KReg1

end
-- ==== Proof.KValue.lean ====
/-
  The kernel program's result: entry (t, z) of the second kernel's output is the bin-by-bin normalised token; the
  result buffer is that array, re-laid as [128 × 1024 × 256].
-/
import proofs.«414065_j58420145160519_3_alg».proof.Proof.KHostC
import proofs.«414065_j58420145160519_3_alg».proof.Proof.KReg1
import proofs.«414065_j58420145160519_3_alg».proof.Proof.IdealReal
import Idealize.ShloMosaic.Lib.StableHlo.Run

set_option maxRecDepth 16384

noncomputable section

open scoped BigOperators

namespace Cert.KernelIdeal.KValue

open Cert.KernelIdeal Cert.KernelIdeal.Gen Cert.KernelIdeal.KIn Cert.KernelIdeal.KHostC Cert.KernelIdeal.KPay
open Cert.Inputs Cert.Spec Cert.Consts Cert.IdealReal
open Idealize.ShloMosaic Idealize.ShloMosaic.TcCoe Idealize.ShloMosaic.ValueIdx Idealize.ShloMosaic.StableHlo.Predicate

/-- Against the word of bin `a`, the one-hot entry singles out `a`. -/
theorem oh_ofNat (a k : Fin 3072) : oh (BitVec.ofNat 32 a.val) k = if k = a then (1 : EReal) else 0 := by
  unfold oh
  by_cases h : k = a
  · subst h; simp
  · rw [if_neg h, if_neg]
    intro e
    apply h
    have := congrArg BitVec.toNat e
    simp only [BitVec.toNat_ofNat] at this
    have ha := a.isLt; have hk := k.isLt
    exact Fin.ext (by omega)

variable (m : (ℓ : Loc nD τ sig) → Buf (Elt Ideal) ℓ) (ρ : Dev nD → PrngReg) (c : Dev nD)

/-- A table gathered at a token's bin: the one-hot row picks the bin's entry. -/
theorem gather_bin (a : Fin 3072) (g : Fin 3072 → EReal) :
    ∑ k : Fin 3072, oh (BitVec.ofNat 32 a.val) k * g k = g a := by
  simp only [oh_ofNat]
  exact sum_onehot_mul a g

theorem V6_out (hG : GoodM m c) (t : Tok) (z : Ft) :
    (V6 m ρ c main_v62 : S131072x256.Idx → EReal) (ix2 t z) = ((outK (I m c) epsR t z : ℝ) : EReal) := by
  have h7 : (V6 m ρ c main_v62 : S131072x256.Idx → EReal) = ((dat1 (V5 m ρ) c).arrAt 7 cfg1.N : S131072x256.Idx → EReal) :=
    (hF1 m ρ c 7).symm
  rw [h7, KReg1.arr7 (V5 m ρ) c t z]
  dsimp only [KReg1.bD, KReg1.bI, KReg1.bV, KReg1.bMh, KReg1.bMl, KReg1.bRh, KReg1.bRl]
  rw [V5_dev m ρ c hG t z, V5_I m ρ c hG t, V5_V m ρ c t]
  rw [gather_bin, gather_bin, gather_bin, gather_bin]
  rw [V5_mdH m ρ c hG, V5_mdL m ρ c hG, V5_rsH m ρ c hG, V5_rsL m ρ c hG]
  rw [ofBits_five, ofBits_neg_five]
  simp only [add_coe, sub_coe, mul_coe, max_coe, min_coe, add_zero]
  rfl

/-- The result buffer is the second kernel's output array, re-laid. -/
theorem W7_out :
    (W7 m ρ c (Proc.devRef .tc main_v63) : S128x1024x256.Idx → EReal)
      = shapeCast S128x1024x256 (V6 m ρ c main_v62 : S131072x256.Idx → EReal) shapeCasts_S131072x256_S128x1024x256 := by
  dsimp only [W7, hostOps2]
  after_results
  rfl

end Cert.KernelIdeal.KValue

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.RefStats.lean ====
/-
  The reference's statistics, stage by stage, at an index: the token's bin word and weight, the old mean it reads,
  and the three accumulating scatters — the new count, the new mean and the new sum of squares of every bin — as the
  real numbers of the token-by-token update.
-/
import proofs.«414065_j58420145160519_3_alg».proof.Proof.Gen.ReferenceIdeal.Read
import proofs.«414065_j58420145160519_3_alg».proof.Proof.Inputs
import proofs.«414065_j58420145160519_3_alg».proof.Proof.Consts
import proofs.«414065_j58420145160519_3_alg».proof.Proof.LibScatterGather
import Idealize.ShloMosaic.Lib.ValueIdx
import Idealize.ShloMosaic.Lib.StableHlo.Predicate

noncomputable section

namespace Cert.RefStats

open Idealize.ShloMosaic Idealize.ShloMosaic.ValueIdx Idealize.ShloMosaic.StableHlo.Predicate
open Cert.Spec Cert.Inputs Cert.ReferenceIdeal.Read

variable (x0 : A3.Idx → EReal) (x1 x2 x3 : A2.Idx → BitVec 32) (x4 : A2.Idx → BitVec 1) (x5 : T3.Idx → EReal)
  (x6 x7 : T4.Idx → EReal)

/-- The flattened bin word of token `t` is its coordinates' combination. -/
theorem v10_apply (t : Tok) : val_main_v10 (F := Ideal) x1 x2 x3 (ix1 t) = binWord x1 x2 x3 t := by
  rw [val_main_v10_apply]
  have hi : idx_main_v10 (ix1 t) = ix2 (tb t) (ts t) := by
    funext a
    match a with
    | ⟨0, _⟩ => rfl
    | ⟨1, _⟩ => rfl
  rw [hi, val_main_v9_apply, val_main_v8_apply, val_main_v5_apply, val_main_v7_apply, val_main_v4_apply, val_main_v6_apply]
  rfl

/-- In range, the bin word read signed is the token's bin. -/
theorem binWord_toInt (hG : Good x0 x1 x2 x3 x5 x6 x7) (t : Tok) :
    (binWord x1 x2 x3 t).toInt = (((inpOf x0 x1 x2 x3 x4 x5 x6 x7).fl t).val : ℤ) := by
  have h := hG.rng t
  rw [toInt_eq_toNat_of_lt (by omega)]
  show ((binWord x1 x2 x3 t).toNat : ℤ) = (((binWord x1 x2 x3 t).toNat % 3072 : ℕ) : ℤ)
  rw [Nat.mod_eq_of_lt h]

/-- The token's weight: 1 unless its padding bit is set. -/
theorem v3_apply (t : Tok) :
    val_main_v3 (F := Ideal) x4 (ix1 t) = (((inpOf x0 x1 x2 x3 x4 x5 x6 x7).vl t : ℝ) : EReal) := by
  rw [val_main_v3_apply, val_main_v2_apply]
  have hi : idx_main_v2 (ix1 t) = ix2 (tb t) (ts t) := by
    funext a
    match a with
    | ⟨0, _⟩ => rfl
    | ⟨1, _⟩ => rfl
  rw [hi, val_main_v1_apply]
  show (((~~~ (x4 (ix2 (tb t) (ts t)))).toNat : ℝ) : EReal)
    = (((if x4 (ix2 (tb t) (ts t)) = 1#1 then 0 else 1 : ℝ)) : EReal)
  by_cases hb : x4 (ix2 (tb t) (ts t)) = 1#1
  · rw [if_pos hb, hb]
    simp
  · rw [if_neg hb, eq_zero_of_ne_one hb]
    simp

/-- The feature rows, flattened. -/
theorem v0_apply (hG : Good x0 x1 x2 x3 x5 x6 x7) (t : Tok) (z : Ft) :
    val_main_v0 (F := Ideal) x0 (ix2 t z) = (((inpOf x0 x1 x2 x3 x4 x5 x6 x7).P t z : ℝ) : EReal) := by
  rw [val_main_v0_apply]
  have hi : idx_main_v0 (ix2 t z) = ix3 (tb t) (ts t) z := by
    have ht := t.isLt
    have hz := z.isLt
    funext a
    match a with
    | ⟨0, _⟩ => exact Fin.ext (by show (t.val * 256 + z.val) / 262144 = t.val / 1024; omega)
    | ⟨1, _⟩ => exact Fin.ext (by show (t.val * 256 + z.val) / 256 % 1024 = t.val % 1024; omega)
    | ⟨2, _⟩ => exact Fin.ext (by show (t.val * 256 + z.val) % 256 = z.val; omega)
  rw [hi]
  exact hG.fin0 _

/-- The old count, mean and sum of squares of a bin, flattened. -/
theorem v11_apply (hG : Good x0 x1 x2 x3 x5 x6 x7) (k : Bin) :
    val_main_v11 (F := Ideal) x5 (ix1 k) = (((inpOf x0 x1 x2 x3 x4 x5 x6 x7).n0 k : ℝ) : EReal) := by
  rw [val_main_v11_apply]
  have hi : idx_main_v11 (ix1 k) = ix3 (kc k) (kh k) (kw k) := by
    funext a
    match a with
    | ⟨0, _⟩ => rfl
    | ⟨1, _⟩ => rfl
    | ⟨2, _⟩ => rfl
  rw [hi]
  exact hG.fin5 _

/-- Entry (k, z) of a flattened [3 × 32 × 32 × 256] table is entry (channel, row, column, z). -/
private theorem idx12 (k : Bin) (z : Ft) : idx_main_v12 (ix2 k z) = ix4 (kc k) (kh k) (kw k) z := by
  have hk := k.isLt
  have hz := z.isLt
  funext a
  match a with
  | ⟨0, _⟩ => exact Fin.ext (by show (k.val * 256 + z.val) / 262144 = k.val / 1024; omega)
  | ⟨1, _⟩ => exact Fin.ext (by show (k.val * 256 + z.val) / 8192 % 32 = k.val / 32 % 32; omega)
  | ⟨2, _⟩ => exact Fin.ext (by show (k.val * 256 + z.val) / 256 % 32 = k.val % 32; omega)
  | ⟨3, _⟩ => exact Fin.ext (by show (k.val * 256 + z.val) % 256 = z.val; omega)

theorem v12_apply (hG : Good x0 x1 x2 x3 x5 x6 x7) (k : Bin) (z : Ft) :
    val_main_v12 (F := Ideal) x6 (ix2 k z) = (((inpOf x0 x1 x2 x3 x4 x5 x6 x7).mean0 k z : ℝ) : EReal) := by
  rw [val_main_v12_apply, idx12]
  exact hG.fin6 _
theorem v13_apply (hG : Good x0 x1 x2 x3 x5 x6 x7) (k : Bin) (z : Ft) :
    val_main_v13 (F := Ideal) x7 (ix2 k z) = (((inpOf x0 x1 x2 x3 x4 x5 x6 x7).m20 k z : ℝ) : EReal) := by
  rw [val_main_v13_apply]
  show x7 (idx_main_v12 (ix2 k z)) = _
  rw [idx12]
  exact hG.fin7 _

/-- A bin word in range is not negative: the wrap-around of a negative position leaves it as it is. -/
private theorem select_inrange (w a : BitVec 32) (hw : w.toNat < 3072) :
    Scalar.select (IntOp.cmpi .slt w 0#32) a w = w := by
  have h : ¬ IntOp.cmpi .slt w 0#32 = 1#1 := by
    rw [slt_iff_toNat (by omega) (by decide)]
    simp
  rw [eq_zero_of_ne_one h, select_zero]

/-- The six copies of the wrapped position (one per indexed read or write) are all the bin word. -/
private theorem v18_apply (hG : Good x0 x1 x2 x3 x5 x6 x7) (t : Tok) :
    val_main_v18 (F := Ideal) x1 x2 x3 (ix1 t) = binWord x1 x2 x3 t := by
  rw [val_main_v18_apply, val_main_v15_apply, val_main_v14_apply, val_main_c_1_apply, v10_apply]
  exact select_inrange _ _ (hG.rng t)
private theorem v25_apply (hG : Good x0 x1 x2 x3 x5 x6 x7) (t : Tok) :
    val_main_v25 (F := Ideal) x1 x2 x3 (ix1 t) = binWord x1 x2 x3 t := by
  rw [val_main_v25_apply, val_main_v22_apply, val_main_v21_apply, val_main_c_3_apply, v10_apply]
  exact select_inrange _ _ (hG.rng t)
private theorem v36_apply (hG : Good x0 x1 x2 x3 x5 x6 x7) (t : Tok) :
    val_main_v36 (F := Ideal) x1 x2 x3 (ix1 t) = binWord x1 x2 x3 t := by
  rw [val_main_v36_apply, val_main_v33_apply, val_main_v32_apply, val_main_c_5_apply, v10_apply]
  exact select_inrange _ _ (hG.rng t)
private theorem v48_apply (hG : Good x0 x1 x2 x3 x5 x6 x7) (t : Tok) :
    val_main_v48 (F := Ideal) x1 x2 x3 (ix1 t) = binWord x1 x2 x3 t := by
  rw [val_main_v48_apply, val_main_v45_apply, val_main_v44_apply, val_main_c_7_apply, v10_apply]
  exact select_inrange _ _ (hG.rng t)
private theorem v55_apply (hG : Good x0 x1 x2 x3 x5 x6 x7) (t : Tok) :
    val_main_v55 (F := Ideal) x1 x2 x3 (ix1 t) = binWord x1 x2 x3 t := by
  rw [val_main_v55_apply, val_main_v52_apply, val_main_v51_apply, val_main_c_9_apply, v10_apply]
  exact select_inrange _ _ (hG.rng t)
private theorem v67_apply (hG : Good x0 x1 x2 x3 x5 x6 x7) (t : Tok) :
    val_main_v67 (F := Ideal) x1 x2 x3 (ix1 t) = binWord x1 x2 x3 t := by
  rw [val_main_v67_apply, val_main_v64_apply, val_main_v63_apply, val_main_c_11_apply, v10_apply]
  exact select_inrange _ _ (hG.rng t)

/-- Row `t` of a column reads the vector at `t`. -/
private theorem idxcol (t : Tok) : idx_main_v19 (ixP t) = ix1 t := by
  funext a
  match a with
  | ⟨0, _⟩ => rfl
/-- Entry (t, z) of a column spread over the features reads the column at row `t`. -/
private theorem idxrow (t : Tok) (z : Ft) : idx_main_v30 (ix2 t z) = ixP t := by
  funext a
  match a with
  | ⟨0, _⟩ => rfl
  | ⟨1, _⟩ => rfl

/-- The coercion of a finite sum of reals is the sum of the coercions. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A guarded real term, coerced. -/
private theorem coe_ite (p : Prop) [Decidable p] (a : ℝ) :
    (if p then ((a : ℝ) : EReal) else 0) = (((if p then a else 0 : ℝ)) : EReal) := by
  split <;> rfl

/-- The position word of token `e`, read signed, is bin `k`'s number exactly when `e`'s bin is `k`. -/
private theorem pos_iff (hG : Good x0 x1 x2 x3 x5 x6 x7) (e : Tok) (k : Bin) :
    (binWord x1 x2 x3 e).toInt = (k.val : ℤ) ↔ (inpOf x0 x1 x2 x3 x4 x5 x6 x7).fl e = k := by
  rw [binWord_toInt x0 x1 x2 x3 x4 x5 x6 x7 hG e, Nat.cast_inj, Fin.val_inj]

/-- The new count of bin `k`. -/
theorem v20_apply (hG : Good x0 x1 x2 x3 x5 x6 x7) (k : Bin) :
    val_main_v20 (F := Ideal) x1 x2 x3 x4 x5 (ix1 k) = ((nnew (inpOf x0 x1 x2 x3 x4 x5 x6 x7) k : ℝ) : EReal) := by
  unfold val_main_v20
  rw [Cert.LibSG.scatterAdd_flat _ rfl rfl rfl rfl, v11_apply x0 x1 x2 x3 x4 x5 x6 x7 hG, Finset.sum_filter]
  -- each token adds its weight if its bin is k
  rw [Finset.sum_congr rfl (fun e _ => by
    rw [val_main_v19_apply, idxcol, v18_apply x0 x1 x2 x3 x5 x6 x7 hG, v3_apply x0 x1 x2 x3 x4 x5 x6 x7,
      if_congr (pos_iff x0 x1 x2 x3 x4 x5 x6 x7 hG e k) rfl rfl, coe_ite] :
    ∀ e ∈ (Finset.univ : Finset Tok), _ = (((if (inpOf x0 x1 x2 x3 x4 x5 x6 x7).fl e = k then (inpOf x0 x1 x2 x3 x4 x5 x6 x7).vl e else 0 : ℝ)) : EReal))]
  rw [← coe_sum, ← EReal.coe_add]
  rfl

/-- The clamp of a row gather is the identity on a token's bin: its position word, read signed, is already a row. -/
private theorem clamp_bin (hG : Good x0 x1 x2 x3 x5 x6 x7) (t : Tok) (w : BitVec 32) (hw : w = binWord x1 x2 x3 t)
    (h : min w.toInt.toNat (3072 - 1) < 3072) :
    (⟨min w.toInt.toNat (3072 - 1), h⟩ : Fin 3072) = (inpOf x0 x1 x2 x3 x4 x5 x6 x7).fl t := by
  subst hw
  refine Fin.ext ?_
  show min (binWord x1 x2 x3 t).toInt.toNat (3072 - 1) = ((inpOf x0 x1 x2 x3 x4 x5 x6 x7).fl t).val
  rw [binWord_toInt x0 x1 x2 x3 x4 x5 x6 x7 hG t, Int.toNat_natCast]
  have := ((inpOf x0 x1 x2 x3 x4 x5 x6 x7).fl t).isLt
  omega

/-- The old mean a token reads: its bin's row. -/
private theorem v27_apply (hG : Good x0 x1 x2 x3 x5 x6 x7) (t : Tok) (z : Ft) :
    val_main_v27 (F := Ideal) x1 x2 x3 x6 (ix2 t z)
      = (((inpOf x0 x1 x2 x3 x4 x5 x6 x7).mean0 ((inpOf x0 x1 x2 x3 x4 x5 x6 x7).fl t) z : ℝ) : EReal) := by
  unfold val_main_v27
  rw [Cert.LibSG.gather_rows _ rfl rfl rfl rfl rfl rfl rfl _ _ t z (by decide)]
  rw [← v12_apply x0 x1 x2 x3 x4 x5 x6 x7 hG]
  congr 2
  have e : val_main_v26 (F := Ideal) x1 x2 x3 (ixP t) = binWord x1 x2 x3 t := by
    rw [val_main_v26_apply]
    exact v25_apply x0 x1 x2 x3 x5 x6 x7 hG t
  exact clamp_bin x0 x1 x2 x3 x4 x5 x6 x7 hG t _ e _

/-- A token's deviation from its bin's old mean. -/
private theorem v28_apply (hG : Good x0 x1 x2 x3 x5 x6 x7) (t : Tok) (z : Ft) :
    val_main_v28 (F := Ideal) x0 x1 x2 x3 x6 (ix2 t z) = ((dlt (inpOf x0 x1 x2 x3 x4 x5 x6 x7) t z : ℝ) : EReal) := by
  rw [val_main_v28_apply, v0_apply x0 x1 x2 x3 x4 x5 x6 x7 hG, v27_apply x0 x1 x2 x3 x4 x5 x6 x7 hG]
  show ((_ : ℝ) : EReal) - ((_ : ℝ) : EReal) = _
  rw [← EReal.coe_sub]
  rfl

/-- The weight spread over the features. -/
private theorem v30_apply (t : Tok) (z : Ft) :
    val_main_v30 (F := Ideal) x4 (ix2 t z) = (((inpOf x0 x1 x2 x3 x4 x5 x6 x7).vl t : ℝ) : EReal) := by
  rw [val_main_v30_apply, idxrow, val_main_v29_apply]
  exact v3_apply x0 x1 x2 x3 x4 x5 x6 x7 t

/-- The weighted deviation. -/
private theorem v31_apply (hG : Good x0 x1 x2 x3 x5 x6 x7) (t : Tok) (z : Ft) :
    val_main_v31 (F := Ideal) x0 x1 x2 x3 x4 x6 (ix2 t z)
      = ((dlt (inpOf x0 x1 x2 x3 x4 x5 x6 x7) t z * (inpOf x0 x1 x2 x3 x4 x5 x6 x7).vl t : ℝ) : EReal) := by
  rw [val_main_v31_apply, v28_apply x0 x1 x2 x3 x4 x5 x6 x7 hG, v30_apply x0 x1 x2 x3 x4 x5 x6 x7]
  show ((_ : ℝ) : EReal) * ((_ : ℝ) : EReal) = _
  rw [← EReal.coe_mul]

/-- The one-coordinate index, two spellings. -/
private theorem ix1_eq_ofFin {n : ℕ} (p : Fin n) : (ix1 p : (⟨1, ![n]⟩ : Shape).Idx) = Shape.Idx.ofFin p := by
  funext a
  match a with
  | ⟨0, _⟩ => exact Fin.ext rfl

/-- The new count of a token's own bin. -/
private theorem v38_apply (hG : Good x0 x1 x2 x3 x5 x6 x7) (t : Tok) :
    val_main_v38 (F := Ideal) x1 x2 x3 x4 x5 (ix1 t)
      = ((nnew (inpOf x0 x1 x2 x3 x4 x5 x6 x7) ((inpOf x0 x1 x2 x3 x4 x5 x6 x7).fl t) : ℝ) : EReal) := by
  unfold val_main_v38
  rw [ix1_eq_ofFin, gather_take _ rfl rfl rfl rfl _ _ t (by decide), ← ix1_eq_ofFin]
  rw [← v20_apply x0 x1 x2 x3 x4 x5 x6 x7 hG]
  congr 2
  have e : val_main_v37 (F := Ideal) x1 x2 x3 (ixP t) = binWord x1 x2 x3 t := by
    rw [val_main_v37_apply]
    exact v36_apply x0 x1 x2 x3 x5 x6 x7 hG t
  exact clamp_bin x0 x1 x2 x3 x4 x5 x6 x7 hG t _ e _

/-- The divisor: the new count of the token's bin, at least 1. -/
private theorem v40_apply (hG : Good x0 x1 x2 x3 x5 x6 x7) (t : Tok) :
    val_main_v40 (F := Ideal) x1 x2 x3 x4 x5 (ix1 t)
      = ((den (inpOf x0 x1 x2 x3 x4 x5 x6 x7) ((inpOf x0 x1 x2 x3 x4 x5 x6 x7).fl t) : ℝ) : EReal) := by
  rw [val_main_v40_apply, v38_apply x0 x1 x2 x3 x4 x5 x6 x7 hG, val_main_v39_apply, val_main_cst_apply]
  show max ((_ : ℝ) : EReal) (Ideal.ofBits .f32 0x3F800000#32) = _
  rw [Cert.Consts.ofBits_one, ← EReal.coe_strictMono.monotone.map_max]
  rfl

private theorem v42_apply (hG : Good x0 x1 x2 x3 x5 x6 x7) (t : Tok) (z : Ft) :
    val_main_v42 (F := Ideal) x1 x2 x3 x4 x5 (ix2 t z)
      = ((den (inpOf x0 x1 x2 x3 x4 x5 x6 x7) ((inpOf x0 x1 x2 x3 x4 x5 x6 x7).fl t) : ℝ) : EReal) := by
  rw [val_main_v42_apply]
  show val_main_v41 (F := Ideal) x1 x2 x3 x4 x5 (idx_main_v30 (ix2 t z)) = _
  rw [idxrow, val_main_v41_apply]
  exact v40_apply x0 x1 x2 x3 x4 x5 x6 x7 hG t

private theorem den_pos (I : Inp) (k : Bin) : 0 < den I k :=
  lt_of_lt_of_le one_pos (le_max_right _ _)

/-- A token's share of its bin's new mean. -/
private theorem v43_apply (hG : Good x0 x1 x2 x3 x5 x6 x7) (t : Tok) (z : Ft) :
    val_main_v43 (F := Ideal) x0 x1 x2 x3 x4 x5 x6 (ix2 t z)
      = ((dlt (inpOf x0 x1 x2 x3 x4 x5 x6 x7) t z * (inpOf x0 x1 x2 x3 x4 x5 x6 x7).vl t
          / den (inpOf x0 x1 x2 x3 x4 x5 x6 x7) ((inpOf x0 x1 x2 x3 x4 x5 x6 x7).fl t) : ℝ) : EReal) := by
  rw [val_main_v43_apply, v31_apply x0 x1 x2 x3 x4 x5 x6 x7 hG, v42_apply x0 x1 x2 x3 x4 x5 x6 x7 hG]
  show Ideal.div _ _ = _
  rw [Ideal.div_coe (ne_of_gt (den_pos _ _)), ← EReal.coe_mul, mul_one_div]

/-- The new mean of bin `k`, token by token. -/
theorem v50_apply (hG : Good x0 x1 x2 x3 x5 x6 x7) (k : Bin) (z : Ft) :
    val_main_v50 (F := Ideal) x0 x1 x2 x3 x4 x5 x6 (ix2 k z) = ((mR (inpOf x0 x1 x2 x3 x4 x5 x6 x7) k z : ℝ) : EReal) := by
  unfold val_main_v50
  rw [Cert.LibSG.scatterAdd_rows _ rfl rfl rfl rfl, v12_apply x0 x1 x2 x3 x4 x5 x6 x7 hG, Finset.sum_filter]
  -- each token adds its share if its bin is k
  rw [Finset.sum_congr rfl (fun e _ => by
    rw [val_main_v49_apply]
    show (if (val_main_v48 (F := Ideal) x1 x2 x3 (idx_main_v19 (ixP e))).toInt = (k.val : ℤ) then _ else _) = _
    rw [idxcol, v48_apply x0 x1 x2 x3 x5 x6 x7 hG, v43_apply x0 x1 x2 x3 x4 x5 x6 x7 hG,
      if_congr (pos_iff x0 x1 x2 x3 x4 x5 x6 x7 hG e k) rfl rfl, coe_ite] :
    ∀ e ∈ (Finset.univ : Finset Tok), _ = (((if (inpOf x0 x1 x2 x3 x4 x5 x6 x7).fl e = k
      then dlt (inpOf x0 x1 x2 x3 x4 x5 x6 x7) e z * (inpOf x0 x1 x2 x3 x4 x5 x6 x7).vl e
          / den (inpOf x0 x1 x2 x3 x4 x5 x6 x7) ((inpOf x0 x1 x2 x3 x4 x5 x6 x7).fl e) else 0 : ℝ)) : EReal))]
  rw [← coe_sum, ← EReal.coe_add]
  rfl

/-- The new mean a token reads: its own bin's row. -/
private theorem v57_apply (hG : Good x0 x1 x2 x3 x5 x6 x7) (t : Tok) (z : Ft) :
    val_main_v57 (F := Ideal) x0 x1 x2 x3 x4 x5 x6 (ix2 t z)
      = ((mR (inpOf x0 x1 x2 x3 x4 x5 x6 x7) ((inpOf x0 x1 x2 x3 x4 x5 x6 x7).fl t) z : ℝ) : EReal) := by
  unfold val_main_v57
  rw [Cert.LibSG.gather_rows _ rfl rfl rfl rfl rfl rfl rfl _ _ t z (by decide)]
  rw [← v50_apply x0 x1 x2 x3 x4 x5 x6 x7 hG]
  congr 2
  have e : val_main_v56 (F := Ideal) x1 x2 x3 (ixP t) = binWord x1 x2 x3 t := by
    rw [val_main_v56_apply]
    exact v55_apply x0 x1 x2 x3 x5 x6 x7 hG t
  exact clamp_bin x0 x1 x2 x3 x4 x5 x6 x7 hG t _ e _

/-- A token's deviation from its bin's new mean. -/
private theorem v58_apply (hG : Good x0 x1 x2 x3 x5 x6 x7) (t : Tok) (z : Ft) :
    val_main_v58 (F := Ideal) x0 x1 x2 x3 x4 x5 x6 (ix2 t z)
      = (((inpOf x0 x1 x2 x3 x4 x5 x6 x7).P t z
          - mR (inpOf x0 x1 x2 x3 x4 x5 x6 x7) ((inpOf x0 x1 x2 x3 x4 x5 x6 x7).fl t) z : ℝ) : EReal) := by
  rw [val_main_v58_apply, v0_apply x0 x1 x2 x3 x4 x5 x6 x7 hG, v57_apply x0 x1 x2 x3 x4 x5 x6 x7 hG]
  show ((_ : ℝ) : EReal) - ((_ : ℝ) : EReal) = _
  rw [← EReal.coe_sub]

/-- The weight spread over the features, once more. -/
private theorem v61_apply (t : Tok) (z : Ft) :
    val_main_v61 (F := Ideal) x4 (ix2 t z) = (((inpOf x0 x1 x2 x3 x4 x5 x6 x7).vl t : ℝ) : EReal) := by
  rw [val_main_v61_apply]
  show val_main_v60 (F := Ideal) x4 (idx_main_v30 (ix2 t z)) = _
  rw [idxrow, val_main_v60_apply]
  exact v3_apply x0 x1 x2 x3 x4 x5 x6 x7 t

/-- A token's share of its bin's new sum of squares: old deviation times new deviation times weight. -/
private theorem v62_apply (hG : Good x0 x1 x2 x3 x5 x6 x7) (t : Tok) (z : Ft) :
    val_main_v62 (F := Ideal) x0 x1 x2 x3 x4 x5 x6 (ix2 t z)
      = ((dlt (inpOf x0 x1 x2 x3 x4 x5 x6 x7) t z
          * ((inpOf x0 x1 x2 x3 x4 x5 x6 x7).P t z
              - mR (inpOf x0 x1 x2 x3 x4 x5 x6 x7) ((inpOf x0 x1 x2 x3 x4 x5 x6 x7).fl t) z)
          * (inpOf x0 x1 x2 x3 x4 x5 x6 x7).vl t : ℝ) : EReal) := by
  rw [val_main_v62_apply, val_main_v59_apply, v28_apply x0 x1 x2 x3 x4 x5 x6 x7 hG,
    v58_apply x0 x1 x2 x3 x4 x5 x6 x7 hG, v61_apply x0 x1 x2 x3 x4 x5 x6 x7]
  show ((_ : ℝ) : EReal) * ((_ : ℝ) : EReal) * ((_ : ℝ) : EReal) = _
  rw [← EReal.coe_mul, ← EReal.coe_mul]

/-- The new sum of squares of bin `k`, token by token. -/
theorem v69_apply (hG : Good x0 x1 x2 x3 x5 x6 x7) (k : Bin) (z : Ft) :
    val_main_v69 (F := Ideal) x0 x1 x2 x3 x4 x5 x6 x7 (ix2 k z) = ((m2R (inpOf x0 x1 x2 x3 x4 x5 x6 x7) k z : ℝ) : EReal) := by
  unfold val_main_v69
  rw [Cert.LibSG.scatterAdd_rows _ rfl rfl rfl rfl, v13_apply x0 x1 x2 x3 x4 x5 x6 x7 hG, Finset.sum_filter]
  -- each token adds its share if its bin is k
  rw [Finset.sum_congr rfl (fun e _ => by
    rw [val_main_v68_apply]
    show (if (val_main_v67 (F := Ideal) x1 x2 x3 (idx_main_v19 (ixP e))).toInt = (k.val : ℤ) then _ else _) = _
    rw [idxcol, v67_apply x0 x1 x2 x3 x5 x6 x7 hG, v62_apply x0 x1 x2 x3 x4 x5 x6 x7 hG,
      if_congr (pos_iff x0 x1 x2 x3 x4 x5 x6 x7 hG e k) rfl rfl, coe_ite] :
    ∀ e ∈ (Finset.univ : Finset Tok), _ = (((if (inpOf x0 x1 x2 x3 x4 x5 x6 x7).fl e = k
      then dlt (inpOf x0 x1 x2 x3 x4 x5 x6 x7) e z
          * ((inpOf x0 x1 x2 x3 x4 x5 x6 x7).P e z
              - mR (inpOf x0 x1 x2 x3 x4 x5 x6 x7) ((inpOf x0 x1 x2 x3 x4 x5 x6 x7).fl e) z)
          * (inpOf x0 x1 x2 x3 x4 x5 x6 x7).vl e else 0 : ℝ)) : EReal))]
  rw [← coe_sum, ← EReal.coe_add]
  rfl

end Cert.RefStats

end
-- ==== Proof.RefValue.lean ====
/-
  The reference's normalised token at an index, as the real number of the token-by-token formula.

  From the new count n, mean and sum of squares of every bin (read whole from the statistics' stages) the reference forms
  the divisor max(n, 1), the variance — 1 where n < 2, else the sum of squares over the divisor —, its root, reads the
  new mean and the root at the token's own bin (a gather whose row number is the bin word: in range it is never
  negative, so the select that would add 3072 to a negative word keeps it), subtracts, divides by root + ε, clamps to
  [-5, 5] and multiplies by the weight.
-/
import proofs.«414065_j58420145160519_3_alg».proof.Proof.RefStats
import proofs.«414065_j58420145160519_3_alg».proof.Proof.IdealReal

noncomputable section

namespace Cert.RefValue

open Idealize.ShloMosaic Idealize.ShloMosaic.ValueIdx Idealize.ShloMosaic.StableHlo.Predicate
open Cert.Spec Cert.Inputs Cert.Consts Cert.ReferenceIdeal Cert.ReferenceIdeal.Read Cert.RefStats Cert.IdealReal

variable (x0 : A3.Idx → EReal) (x1 x2 x3 : A2.Idx → BitVec 32) (x4 : A2.Idx → BitVec 1) (x5 : T3.Idx → EReal)
  (x6 x7 : T4.Idx → EReal)

/-! ### Indices: a broadcast along a unit axis reads the coordinate it keeps -/

theorem idx_v99_v100 (t : Tok) (z : Ft) : idx_main_v99 (idx_main_v100 (ix2 t z)) = ix1 t := by
  funext a; match a with | ⟨0, _⟩ => rfl
theorem idx_v85 (t : Tok) : idx_main_v85 (ixP t) = ix1 t := by
  funext a; match a with | ⟨0, _⟩ => rfl
theorem idx_v93 (t : Tok) : idx_main_v93 (ixP t) = ix1 t := by
  funext a; match a with | ⟨0, _⟩ => rfl
theorem idx_v77_call0_v1 (k : Bin) (z : Ft) : idx_main_v77 (idx_main_call0_v1 (ix2 k z)) = ix1 k := by
  funext a; match a with | ⟨0, _⟩ => rfl
theorem idx_v72_v73 (k : Bin) (z : Ft) : idx_main_v72 (idx_main_v73 (ix2 k z)) = ix1 k := by
  funext a; match a with | ⟨0, _⟩ => rfl

/-! ### The row a token gathers -/

/-- In range the bin word is not negative, so "if negative add 3072" keeps it. -/
theorem select_binWord (hG : Good x0 x1 x2 x3 x5 x6 x7) (t : Tok) :
    Scalar.select (IntOp.cmpi .slt (binWord x1 x2 x3 t) 0#32) (IntOp.addi (binWord x1 x2 x3 t) 3072#32) (binWord x1 x2 x3 t)
      = binWord x1 x2 x3 t := by
  have hlt : (binWord x1 x2 x3 t).toNat < 3072 := hG.rng t
  have hne : ¬ IntOp.cmpi .slt (binWord x1 x2 x3 t) 0#32 = 1#1 := by
    rw [slt_iff_toNat (by omega) (by simp)]
    simp
  rw [eq_zero_of_ne_one hne, select_zero]

/-- The row numbers of the two gathers are the bin word. -/
theorem v84_apply (hG : Good x0 x1 x2 x3 x5 x6 x7) (t : Tok) :
    val_main_v84 (F := Ideal) x1 x2 x3 (ix1 t) = binWord x1 x2 x3 t := by
  rw [val_main_v84_apply, val_main_v81_apply, val_main_v83_apply, val_main_v80_apply, val_main_c_16_apply,
    val_main_v82_apply, val_main_c_17_apply, v10_apply]
  exact select_binWord x0 x1 x2 x3 x5 x6 x7 hG t
theorem v85_apply (hG : Good x0 x1 x2 x3 x5 x6 x7) (t : Tok) :
    val_main_v85 (F := Ideal) x1 x2 x3 (ixP t) = binWord x1 x2 x3 t := by
  rw [val_main_v85_apply, idx_v85, v84_apply x0 x1 x2 x3 x5 x6 x7 hG t]
theorem v92_apply (hG : Good x0 x1 x2 x3 x5 x6 x7) (t : Tok) :
    val_main_v92 (F := Ideal) x1 x2 x3 (ix1 t) = binWord x1 x2 x3 t := by
  rw [val_main_v92_apply, val_main_v89_apply, val_main_v91_apply, val_main_v88_apply, val_main_c_18_apply,
    val_main_v90_apply, val_main_c_19_apply, v10_apply]
  exact select_binWord x0 x1 x2 x3 x5 x6 x7 hG t
theorem v93_apply (hG : Good x0 x1 x2 x3 x5 x6 x7) (t : Tok) :
    val_main_v93 (F := Ideal) x1 x2 x3 (ixP t) = binWord x1 x2 x3 t := by
  rw [val_main_v93_apply, idx_v93, v92_apply x0 x1 x2 x3 x5 x6 x7 hG t]

/-- A gather of rows of a [3072 × 256] table at a column that holds the tokens' bin words reads, for token t, the row of
    t's bin: the word read signed is the bin, and clamping into [0, 3071] keeps it. -/
theorem gather_bin (hG : Good x0 x1 x2 x3 x5 x6 x7) (y : S3072x256.Idx → EReal) (c : S131072x1.Idx → BitVec 32)
    (t : Tok) (z : Ft) (hc : c (ixP t) = binWord x1 x2 x3 t) :
    Host.gather gather_S3072x256_S131072x1_S131072x256_1_0_n_n_0_1_1256 y c (ix2 t z)
      = y (ix2 ((inpOf x0 x1 x2 x3 x4 x5 x6 x7).fl t) z) := by
  refine (Cert.LibSG.gather_rows gather_S3072x256_S131072x1_S131072x256_1_0_n_n_0_1_1256 rfl rfl rfl rfl rfl rfl rfl
    y c t z (by decide)).trans ?_
  have hrow : (⟨min (c (ixP t)).toInt.toNat (3072 - 1), by omega⟩ : Fin 3072) = (inpOf x0 x1 x2 x3 x4 x5 x6 x7).fl t := by
    apply Fin.ext
    show min (c (ixP t)).toInt.toNat (3072 - 1) = ((inpOf x0 x1 x2 x3 x4 x5 x6 x7).fl t).val
    rw [hc, binWord_toInt x0 x1 x2 x3 x4 x5 x6 x7 hG t, Int.toNat_natCast]
    have := ((inpOf x0 x1 x2 x3 x4 x5 x6 x7).fl t).isLt
    omega
  exact congrArg (fun r => y (ix2 r z)) hrow

/-! ### Per bin: the divisor, the variance, its root -/

/-- max(n, 1) ≥ 1 is positive. -/
theorem den_pos' (I : Inp) (k : Bin) : 0 < den I k := by
  unfold den
  exact lt_of_lt_of_le one_pos (le_max_right _ _)

/-- %71: the divisor of bin k. -/
theorem v71_apply (hG : Good x0 x1 x2 x3 x5 x6 x7) (k : Bin) :
    val_main_v71 (F := Ideal) x1 x2 x3 x4 x5 (ix1 k) = ((den (inpOf x0 x1 x2 x3 x4 x5 x6 x7) k : ℝ) : EReal) := by
  rw [val_main_v71_apply, v20_apply x0 x1 x2 x3 x4 x5 x6 x7 hG k, val_main_v70_apply, val_main_cst_13_apply,
    Ideal.ofBits_def, ofBits_one, maximumf_coe]
  rfl

/-- %78: the variance of bin k at feature z — 1 where the new count is below 2, else the sum of squares over the divisor. -/
theorem v78_apply (hG : Good x0 x1 x2 x3 x5 x6 x7) (k : Bin) (z : Ft) :
    val_main_v78 (F := Ideal) x0 x1 x2 x3 x4 x5 x6 x7 (ix2 k z)
      = ((varOf (inpOf x0 x1 x2 x3 x4 x5 x6 x7) (m2R (inpOf x0 x1 x2 x3 x4 x5 x6 x7)) k z : ℝ) : EReal) := by
  rw [val_main_v78_apply, val_main_call0_v1_apply, val_main_v77_apply, idx_v77_call0_v1, val_main_v76_apply,
    v20_apply x0 x1 x2 x3 x4 x5 x6 x7 hG k, val_main_v75_apply, val_main_cst_14_apply, Ideal.ofBits_def, ofBits_two,
    val_main_call0_v2_apply, val_main_call0_v0_apply, val_main_cst_15_apply, Ideal.ofBits_def, ofBits_one,
    val_main_v74_apply, v69_apply x0 x1 x2 x3 x4 x5 x6 x7 hG k z, val_main_v73_apply, val_main_v72_apply, idx_v72_v73,
    v71_apply x0 x1 x2 x3 x4 x5 x6 x7 hG k, select_cmpf_olt,
    hostDivf_coe _ (den_pos' (inpOf x0 x1 x2 x3 x4 x5 x6 x7) k).ne']
  unfold varOf
  split_ifs <;> rfl

/-! ### Per token -/

/-- %86: the new mean of the token's bin. -/
theorem v86_apply (hG : Good x0 x1 x2 x3 x5 x6 x7) (t : Tok) (z : Ft) :
    val_main_v86 (F := Ideal) x0 x1 x2 x3 x4 x5 x6 (ix2 t z)
      = ((mR (inpOf x0 x1 x2 x3 x4 x5 x6 x7) ((inpOf x0 x1 x2 x3 x4 x5 x6 x7).fl t) z : ℝ) : EReal) := by
  unfold val_main_v86
  rw [gather_bin x0 x1 x2 x3 x4 x5 x6 x7 hG _ _ t z (v85_apply x0 x1 x2 x3 x5 x6 x7 hG t),
    v50_apply x0 x1 x2 x3 x4 x5 x6 x7 hG]

/-- %94: the root of the variance of the token's bin. -/
theorem v94_apply (hG : Good x0 x1 x2 x3 x5 x6 x7) (t : Tok) (z : Ft) :
    val_main_v94 (F := Ideal) x0 x1 x2 x3 x4 x5 x6 x7 (ix2 t z)
      = FloatOps.hostUnary (F := Ideal) .sqrt (φ := .f32)
          ((varOf (inpOf x0 x1 x2 x3 x4 x5 x6 x7) (m2R (inpOf x0 x1 x2 x3 x4 x5 x6 x7))
            ((inpOf x0 x1 x2 x3 x4 x5 x6 x7).fl t) z : ℝ) : EReal) := by
  unfold val_main_v94
  rw [gather_bin x0 x1 x2 x3 x4 x5 x6 x7 hG _ _ t z (v93_apply x0 x1 x2 x3 x5 x6 x7 hG t), val_main_v79_apply,
    v78_apply x0 x1 x2 x3 x4 x5 x6 x7 hG]

/-- %97: (p − new mean) / (root + ε) = (p − new mean) · rs ε var. -/
theorem v97_apply (hG : Good x0 x1 x2 x3 x5 x6 x7) (t : Tok) (z : Ft) :
    val_main_v97 (F := Ideal) x0 x1 x2 x3 x4 x5 x6 x7 (ix2 t z)
      = ((((inpOf x0 x1 x2 x3 x4 x5 x6 x7).P t z
            - mR (inpOf x0 x1 x2 x3 x4 x5 x6 x7) ((inpOf x0 x1 x2 x3 x4 x5 x6 x7).fl t) z)
          * rs epsR (varOf (inpOf x0 x1 x2 x3 x4 x5 x6 x7) (m2R (inpOf x0 x1 x2 x3 x4 x5 x6 x7))
              ((inpOf x0 x1 x2 x3 x4 x5 x6 x7).fl t) z) : ℝ) : EReal) := by
  rw [val_main_v97_apply, val_main_v87_apply, v0_apply x0 x1 x2 x3 x4 x5 x6 x7 hG t z,
    v86_apply x0 x1 x2 x3 x4 x5 x6 x7 hG t z, subf_coe, val_main_v96_apply, v94_apply x0 x1 x2 x3 x4 x5 x6 x7 hG t z,
    val_main_v95_apply, val_main_cst_20_apply, Ideal.ofBits_def, ofBits_eps, hostDivf_sqrt_add _ _ epsR_pos]

/-- %98: the clamp min(5, max(−5, ·)). -/
theorem v98_apply (hG : Good x0 x1 x2 x3 x5 x6 x7) (t : Tok) (z : Ft) :
    val_main_v98 (F := Ideal) x0 x1 x2 x3 x4 x5 x6 x7 (ix2 t z)
      = ((clip (((inpOf x0 x1 x2 x3 x4 x5 x6 x7).P t z
            - mR (inpOf x0 x1 x2 x3 x4 x5 x6 x7) ((inpOf x0 x1 x2 x3 x4 x5 x6 x7).fl t) z)
          * rs epsR (varOf (inpOf x0 x1 x2 x3 x4 x5 x6 x7) (m2R (inpOf x0 x1 x2 x3 x4 x5 x6 x7))
              ((inpOf x0 x1 x2 x3 x4 x5 x6 x7).fl t) z)) : ℝ) : EReal) := by
  rw [val_main_v98_apply, val_main_call1_v4_apply, val_main_call1_v3_apply, val_main_cst_22_apply, Ideal.ofBits_def,
    ofBits_five, val_main_call1_v2_apply, val_main_call1_v1_apply, val_main_call1_v0_apply, val_main_cst_21_apply,
    Ideal.ofBits_def, ofBits_neg_five, v97_apply x0 x1 x2 x3 x4 x5 x6 x7 hG t z, maximumf_coe, minimumf_coe]
  rfl

/-- %101: the reference's normalised token is the token-by-token formula's. -/
theorem ref_val (hG : Good x0 x1 x2 x3 x5 x6 x7) (t : Tok) (z : Ft) :
    val_main_v101 (F := Ideal) x0 x1 x2 x3 x4 x5 x6 x7 (ix2 t z)
      = ((outR (inpOf x0 x1 x2 x3 x4 x5 x6 x7) epsR t z : ℝ) : EReal) := by
  rw [val_main_v101_apply, v98_apply x0 x1 x2 x3 x4 x5 x6 x7 hG t z, val_main_v100_apply, val_main_v99_apply,
    idx_v99_v100, v3_apply x0 x1 x2 x3 x4 x5 x6 x7 t, mulf_coe]
  rfl

end Cert.RefValue

end
-- ==== Proof.PreDecode.lean ====
/-
  What the printed precondition says of the eight arguments.

  The precondition is a conjunction of seven "all entries" tests joined by and: for the float arguments 0, 5, 6, 7 that
  every entry x has |x| < +∞, and for the three coordinate arrays (arguments 1, 2, 3) that every entry, read signed, lies in
  [0, 3), [0, 32), [0, 32). Stated to be all ones, it gives: every float entry is a real number (an extended real whose
  absolute value is below +∞ is neither infinity), and every coordinate reads the same unsigned and is below its bound, so
  that  channel · 1024 + row · 32 + column  does not wrap in 32 bits and is below 3 · 1024 = 3072.
-/
import proofs.«414065_j58420145160519_3_alg».proof.Pre_finite_inputs
import proofs.«414065_j58420145160519_3_alg».proof.Proof.Gen.Pre_finite_inputs
import proofs.«414065_j58420145160519_3_alg».proof.Proof.Inputs
import Idealize.ShloMosaic.Lib.ReduceAll
import Idealize.ShloMosaic.Lib.StableHlo.Predicate
import Idealize.ShloMosaic.Lib.ValueIdx
import Mathlib.Data.EReal.Basic

noncomputable section

namespace Cert.PreDecode

open Idealize.ShloMosaic Idealize.ShloMosaic.ValueIdx Cert.Inputs

/-- A signed word in [0, B) for a small B reads the same unsigned, below B. -/
theorem toNat_lt_of_range {a : BitVec 32} {B : ℕ} (hB : B < 2 ^ 31) (h0 : IntOp.cmpi .sge a 0#32 = 1#1)
    (h1 : IntOp.cmpi .slt a (BitVec.ofNat 32 B) = 1#1) : a.toNat < B := by
  -- both comparisons read the words signed: 0 ≤ a.toInt < B
  rw [IntOp.cmpi_sge] at h0
  rw [IntOp.cmpi_slt, StableHlo.Predicate.toInt_ofNat_small B hB] at h1
  have z : (0#32 : BitVec 32).toInt = 0 := by decide
  rw [z] at h0
  -- a word's signed reading is its unsigned one, less 2³² when the top bit is set; nonnegative, it is the unsigned one
  have := BitVec.toInt_eq_toNat_cond a
  have hlt := a.isLt
  split at this <;> omega

/-- channel·1024 + row·32 + column does not wrap and stays below 3072. -/
theorem binWord_lt {a b c : BitVec 32} (ha : a.toNat < 3) (hb : b.toNat < 32) (hc : c.toNat < 32) :
    (a * 1024#32 + b * 32#32 + c).toNat < 3072 := by
  simp only [BitVec.toNat_add, BitVec.toNat_mul, BitVec.toNat_ofNat]
  omega

/-- The rank-0 shape has one index. -/
instance : Subsingleton Cert.Pre_finite_inputs.S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- An extended real whose absolute value max x (−x) is below +∞ is a real number. -/
theorem real_of_abs_lt_top {x : EReal}
    (h : Ideal.cmp .olt (max x (-x)) (Ideal.ofBits .f32 0x7F800000#32) = 1#1) : x = (((x.toReal : ℝ)) : EReal) := by
  rw [inf_bits] at h
  simp only [Ideal.cmp, StableHlo.Predicate.ofBool_eq_one_iff, decide_eq_true_eq] at h
  induction x using EReal.rec with
  | bot => simp at h
  | coe r => rfl
  | top => simp at h

/-- The precondition, all ones, gives the facts `Good` collects: the and of the seven tests is 1, so each is; a test is
    an and over all entries that came out 1, so each entry's bit is 1; and the bit says |x| < +∞, or 0 ≤ x < B signed. -/
theorem good_of_pre (x0 : A3.Idx → EReal) (x1 x2 x3 : A2.Idx → BitVec 32) (x4 : A2.Idx → BitVec 1) (x5 : T3.Idx → EReal)
    (x6 x7 : T4.Idx → EReal)
    (h : @Cert.Pre_finite_inputs.fn Cert.Pre_finite_inputs.Gen.facts Ideal _ x0 x1 x2 x3 x4 x5 x6 x7 = fun _ => 1#1) :
    Good x0 x1 x2 x3 x5 x6 x7 := by
  have h' := congrFun h ValueIdx.ix0
  dsimp only [Cert.Pre_finite_inputs.fn, Cert.Pre_finite_inputs.fn_part1, Cert.Pre_finite_inputs.fn_part2] at h'
  -- the and of the seven tests is 1: each test is 1
  simp only [andi, IntOp.andi_eq_one] at h'
  obtain ⟨⟨⟨⟨⟨⟨h0, h5⟩, h6⟩, h7⟩, r1⟩, r2⟩, r3⟩ := h'
  -- a test is the and over all entries: each entry's bit is 1
  have e0 := fun j => Host.reduce_andi_all _ _ _ _ _ h0 j
  have e5 := fun j => Host.reduce_andi_all _ _ _ _ _ h5 j
  have e6 := fun j => Host.reduce_andi_all _ _ _ _ _ h6 j
  have e7 := fun j => Host.reduce_andi_all _ _ _ _ _ h7 j
  -- a coordinate's bit is the and of its two comparisons, with 0 and with the bound
  have q1 := fun j => IntOp.andi_eq_one.1 (Host.reduce_andi_all _ _ _ _ _ r1 j)
  have q2 := fun j => IntOp.andi_eq_one.1 (Host.reduce_andi_all _ _ _ _ _ r2 j)
  have q3 := fun j => IntOp.andi_eq_one.1 (Host.reduce_andi_all _ _ _ _ _ r3 j)
  refine ⟨fun j => real_of_abs_lt_top (e0 j), fun j => real_of_abs_lt_top (e5 j), fun j => real_of_abs_lt_top (e6 j),
    fun j => real_of_abs_lt_top (e7 j), fun t => ?_⟩
  -- the token's three coordinates, at its row and position in the batch
  unfold binWord
  exact binWord_lt (toNat_lt_of_range (B := 3) (by norm_num) (q1 _).1 (q1 _).2)
    (toNat_lt_of_range (B := 32) (by norm_num) (q2 _).1 (q2 _).2)
    (toNat_lt_of_range (B := 32) (by norm_num) (q3 _).1 (q3 _).2)

end Cert.PreDecode

end
-- ==== Proof.lean ====
/-
  The certificate's claims.

  Both programs normalise a batch of 131072 feature rows by running per-bin statistics updated with one Welford step.
  The reference updates token by token: it scatters each token's share onto its bin (count, mean, sum of squared
  deviations) and gathers the updated statistics back. The kernel forms, per bin, the weighted sums Σ v, Σ p·v and
  Σ δ²·v with one-hot matrix products — in two halves of the batch, added afterwards — and updates each bin in closed
  form: the mean moves by md = (Σ p·v − (Σ v)·mean) / d, the sum of squares by Σ δ²·v − md²·d. Over the reals the two
  updates agree (Proof/Algebra.lean: Σ v·δ = md·d because d ≥ 1 is not zero), so do the variances, and a quotient by
  √var + ε is the product with its reciprocal; where a variance is negative the square root has no value and both
  programs give 0. The kernel carries each gathered table as a pair (x, x − x); its second member is 0 for real x.
  Precondition: the float arguments hold real numbers, and each position coordinate lies inside its axis of the
  [3 × 32 × 32] tables — so a token's bin word  channel·1024 + row·32 + column  is one of the 3072 bins; outside that
  range the reference's gather clamps (or wraps a negative word) while the kernel's one-hot row is empty.
-/
import proofs.«414065_j58420145160519_3_alg».proof.Defs
import proofs.«414065_j58420145160519_3_alg».proof.Proof.Gen.Kernel
import proofs.«414065_j58420145160519_3_alg».proof.Proof.Gen.Kernel.Skeleton
import proofs.«414065_j58420145160519_3_alg».proof.Proof.Gen.Kernel.Launch
import proofs.«414065_j58420145160519_3_alg».proof.Proof.Gen.Kernel.Points
import proofs.«414065_j58420145160519_3_alg».proof.Proof.Gen.Kernel.Frame
import proofs.«414065_j58420145160519_3_alg».proof.Proof.Gen.KernelIdeal
import proofs.«414065_j58420145160519_3_alg».proof.Proof.Gen.KernelIdeal.Skeleton
import proofs.«414065_j58420145160519_3_alg».proof.Proof.Gen.KernelIdeal.Launch
import proofs.«414065_j58420145160519_3_alg».proof.Proof.Gen.KernelIdeal.Points
import proofs.«414065_j58420145160519_3_alg».proof.Proof.Gen.KernelIdeal.Frame
import proofs.«414065_j58420145160519_3_alg».proof.Proof.Gen.ReferenceIdeal
import proofs.«414065_j58420145160519_3_alg».proof.Proof.Gen.Pre_finite_inputs
import proofs.«414065_j58420145160519_3_alg».proof.Proof.Gen.ReferenceIdeal.Run
import proofs.«414065_j58420145160519_3_alg».proof.Proof.Gen.ReferenceIdeal.Read
import proofs.«414065_j58420145160519_3_alg».proof.Proof.KRun
import proofs.«414065_j58420145160519_3_alg».proof.Proof.KValue
import proofs.«414065_j58420145160519_3_alg».proof.Proof.RefValue
import proofs.«414065_j58420145160519_3_alg».proof.Proof.PreDecode
import proofs.«414065_j58420145160519_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array: entry (t, z) of the kernel's
    last array is the bin-by-bin normalised token, of the reference's the token-by-token one, equal over the reals;
    both results are that array re-laid as [128 × 1024 × 256]. -/
theorem algebraic : Cert.algebraic_KernelIdeal_ReferenceIdeal := by
  intro m ρ m' ρ' hpre hagree
  refine ⟨fun c => Cert.KernelIdeal.Gen.W7 m ρ c (Proc.devRef .tc Cert.KernelIdeal.main_v63), Cert.KernelIdeal.KRun.run_val m ρ, ?_⟩
  refine (θ_run Cert.ReferenceIdeal.defs _ _).mono (fun r h c => ⟨(h c).1.trans ?_, (h c).2⟩)
    (Cert.ReferenceIdeal.Value.run (F := Ideal) m' ρ')
  have hG : Cert.KernelIdeal.KIn.GoodM m c := Cert.PreDecode.good_of_pre _ _ _ _ _ _ _ _ (hpre c)
  rw [Cert.ReferenceIdeal.Read.val_main_v102_eq]
  obtain ⟨e0, e1, e2, e3, e4, e5, e6, e7⟩ := hagree c
  rw [e0, e1, e2, e3, e4, e5, e6, e7]
  refine Eq.trans ?_ (Cert.KernelIdeal.KValue.W7_out m ρ c).symm
  unfold Cert.ReferenceIdeal.Read.val_main_v102
  refine congrArg (fun y => shapeCast _ y _) (funext fun j => ?_)
  obtain ⟨t, z, rfl⟩ : ∃ (t : Fin 131072) (z : Fin 256), j = ix2 t z := ⟨j 0, j 1, eq_ix2 j⟩
  refine (Cert.RefValue.ref_val _ _ _ _ _ _ _ _ hG t z).trans ?_
  refine Eq.trans ?_ (Cert.KernelIdeal.KValue.V6_out m ρ c hG t z).symm
  exact congrArg _ (Cert.Spec.outK_eq_outR _ _ t z).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
